-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S3x32x128 : Shape := ⟨3, ![3, 32, 128]⟩
abbrev S3x128 : Shape := ⟨2, ![3, 128]⟩
abbrev S3x128x128 : Shape := ⟨3, ![3, 128, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S3x32x128 : S_.BroadcastsInDim S3x32x128 (![] : Fin 0 → Fin S3x32x128.rank)
  reducesTo_S3x32x128_S_d0_1_2 : S3x32x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg1
  let main_v56 : IVec S800000 32 := shapeCast S800000 main_v55 shapeCasts_S1x800000_S800000
  let main_c_20 : IVec S_ 32 := constantI S_ 32 50000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg1 : IVec S2x800000 32) (main_arg8 : FVec F S3x128 .f32) (main_arg9 : FVec F S3x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000x32 .f32) (main_arg3 : FVec F S3x32x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S3x32x128 .f32 := Host.absf main_arg3
  let main_cst_2 : FVec F S_ .f32 := constant S_ .f32 0x7F800000#32
  let main_v10 : FVec F S3x32x128 .f32 := broadcastInDim S3x32x128 ![] bcast_S_S3x32x128 main_cst_2
  let main_v11 : IVec S3x32x128 1 := cmpf .olt main_v9 main_v10
  let main_c_3 : IVec S_ 1 := constantI S_ 1 1#1
  let main_v12 : IVec S_ 1 := (fun x v => Host.reduce IntOp.andi x v reducesTo_S3x32x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S3x32x128 : Shape := ⟨3, ![3, 32, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S8000x32 : Shape := ⟨2, ![8000, 32]⟩
abbrev S8000x128 : Shape := ⟨2, ![8000, 128]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 261
  | .vmem => 78
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S3x32x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S1x32x128, .f32⟩
  | 39 => ⟨S32x128, .f32⟩
  | 40 => ⟨S1x128, .f32⟩
  | 41 => ⟨S128, .f32⟩
  | 42 => ⟨S1x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x128, .f32⟩
  | 116 => ⟨S800000x128, .i1⟩
  | 117 => ⟨S_, .f32⟩
  | 118 => ⟨S800000x128, .f32⟩
  | 119 => ⟨S800000x128, .f32⟩
  | 120 => ⟨S1x32x128, .f32⟩
  | 121 => ⟨S32x128, .f32⟩
  | 122 => ⟨S1x128, .f32⟩
  | 123 => ⟨S128, .f32⟩
  | 124 => ⟨S1x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x128, .f32⟩
  | 70 => ⟨S800000x128, .i1⟩
  | 71 => ⟨S_, .f32⟩
  | 72 => ⟨S800000x128, .f32⟩
  | 73 => ⟨S800000x128, .f32⟩
  | 74 => ⟨S1x32x128, .f32⟩
  | 75 => ⟨S32x128, .f32⟩
  | 76 => ⟨S1x128, .f32⟩
  | 77 => ⟨S128, .f32⟩
  | 78 => ⟨S1x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S1x128, .f32⟩
  | 2 => ⟨S128, .f32⟩
  | 3 => ⟨S1x128, .f32⟩
  | 4 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S8000x32, .f32⟩
  | .local _ .vmem, ⟨1, _⟩ => ⟨S8000x32, .f32⟩
  | .local _ .vmem, ⟨2, _⟩ => ⟨S8000x128, .f32⟩
  | .local _ .vmem, ⟨3, _⟩ => ⟨S8000x128, .f32⟩
  | .local _ .vmem, ⟨4, _⟩ => ⟨S32x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S8000x32, .f32⟩
  | .local _ .vmem, ⟨27, _⟩ => ⟨S8000x32, .f32⟩
  | .local _ .vmem, ⟨28, _⟩ => ⟨S8000x128, .f32⟩
  | .local _ .vmem, ⟨29, _⟩ => ⟨S8000x128, .f32⟩
  | .local _ .vmem, ⟨30, _⟩ => ⟨S32x128, .f32⟩
  | .local _ .vmem, ⟨31, _⟩ => ⟨S1x128, .f32⟩
  | .local _ .vmem, ⟨32, _⟩ => ⟨S8000x128, .f32⟩
  | .local _ .vmem, ⟨33, _⟩ => ⟨S8000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S8000x32, .f32⟩
  | .local _ .vmem, ⟨53, _⟩ => ⟨S8000x32, .f32⟩
  | .local _ .vmem, ⟨54, _⟩ => ⟨S8000x128, .f32⟩
  | .local _ .vmem, ⟨55, _⟩ => ⟨S8000x128, .f32⟩
  | .local _ .vmem, ⟨56, _⟩ => ⟨S32x128, .f32⟩
  | .local _ .vmem, ⟨57, _⟩ => ⟨S1x128, .f32⟩
  | .local _ .vmem, ⟨58, _⟩ => ⟨S8000x128, .f32⟩
  | .local _ .vmem, ⟨59, _⟩ => ⟨S8000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_0 : Ref sig .tc := ⟨.hbm, 60, rfl⟩
abbrev main_v26 : Ref sig .tc := ⟨.hbm, 61, rfl⟩
abbrev main_cst_1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_cst_3 : Ref sig .tc := ⟨.hbm, 83, rfl⟩
abbrev main_call1_v12 : Ref sig .tc := ⟨.hbm, 84, rfl⟩
abbrev main_call1_cst_4 : Ref sig .tc := ⟨.hbm, 85, rfl⟩
abbrev main_call1_call0_v0 : Ref sig .tc := ⟨.hbm, 86, rfl⟩
abbrev main_call1_call0_v1 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_cst_2 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_cst_3 : Ref sig .tc := ⟨.hbm, 142, rfl⟩
abbrev main_v61 : Ref sig .tc := ⟨.hbm, 143, rfl⟩
abbrev main_cst_4 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_c_5 : Ref sig .tc := ⟨.hbm, 148, rfl⟩
abbrev main_call3_cst : Ref sig .tc := ⟨.hbm, 149, rfl⟩
abbrev main_call3_v0 : Ref sig .tc := ⟨.hbm, 150, rfl⟩
abbrev main_call3_v1 : Ref sig .tc := ⟨.hbm, 151, rfl⟩
abbrev main_call3_cst_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_cst_1 : Ref sig .tc := ⟨.hbm, 159, rfl⟩
abbrev main_call3_v8 : Ref sig .tc := ⟨.hbm, 160, rfl⟩
abbrev main_call3_cst_2 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_cst_3 : Ref sig .tc := ⟨.hbm, 165, rfl⟩
abbrev main_call3_v12 : Ref sig .tc := ⟨.hbm, 166, rfl⟩
abbrev main_call3_cst_4 : Ref sig .tc := ⟨.hbm, 167, rfl⟩
abbrev main_call3_call0_v0 : Ref sig .tc := ⟨.hbm, 168, rfl⟩
abbrev main_call3_call0_v1 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_call4_c : Ref sig .tc := ⟨.hbm, 179, rfl⟩
abbrev main_call4_v0 : Ref sig .tc := ⟨.hbm, 180, rfl⟩
abbrev main_call4_v1 : Ref sig .tc := ⟨.hbm, 181, rfl⟩
abbrev main_call4_c_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_c_1 : Ref sig .tc := ⟨.hbm, 187, rfl⟩
abbrev main_call4_c_2 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_c_3 : Ref sig .tc := ⟨.hbm, 195, rfl⟩
abbrev main_call4_v12 : Ref sig .tc := ⟨.hbm, 196, rfl⟩
abbrev main_call4_v13 : Ref sig .tc := ⟨.hbm, 197, rfl⟩
abbrev main_call4_v14 : Ref sig .tc := ⟨.hbm, 198, rfl⟩
abbrev main_call4_cst : Ref sig .tc := ⟨.hbm, 199, rfl⟩
abbrev main_call4_v15 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_cst_6 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_cst_7 : Ref sig .tc := ⟨.hbm, 224, rfl⟩
abbrev main_v96 : Ref sig .tc := ⟨.hbm, 225, rfl⟩
abbrev main_cst_8 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_c_9 : Ref sig .tc := ⟨.hbm, 230, rfl⟩
abbrev main_call5_cst : Ref sig .tc := ⟨.hbm, 231, rfl⟩
abbrev main_call5_v0 : Ref sig .tc := ⟨.hbm, 232, rfl⟩
abbrev main_call5_v1 : Ref sig .tc := ⟨.hbm, 233, rfl⟩
abbrev main_call5_cst_0 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_v6 : Ref sig .tc := ⟨.hbm, 239, rfl⟩
abbrev main_call5_v7 : Ref sig .tc := ⟨.hbm, 240, rfl⟩
abbrev main_call5_cst_1 : Ref sig .tc := ⟨.hbm, 241, rfl⟩
abbrev main_call5_v8 : Ref sig .tc := ⟨.hbm, 242, rfl⟩
abbrev main_call5_cst_2 : Ref sig .tc := ⟨.hbm, 243, rfl⟩
abbrev main_call5_v9 : Ref sig .tc := ⟨.hbm, 244, rfl⟩
abbrev main_call5_v10 : Ref sig .tc := ⟨.hbm, 245, rfl⟩
abbrev main_call5_v11 : Ref sig .tc := ⟨.hbm, 246, rfl⟩
abbrev main_call5_cst_3 : Ref sig .tc := ⟨.hbm, 247, rfl⟩
abbrev main_call5_v12 : Ref sig .tc := ⟨.hbm, 248, rfl⟩
abbrev main_call5_cst_4 : Ref sig .tc := ⟨.hbm, 249, rfl⟩
abbrev main_call5_call0_v0 : Ref sig .tc := ⟨.hbm, 250, rfl⟩
abbrev main_call5_call0_v1 : Ref sig .tc := ⟨.hbm, 251, rfl⟩
abbrev main_v100 : Ref sig .tc := ⟨.hbm, 252, rfl⟩
abbrev main_v101 : Ref sig .tc := ⟨.hbm, 253, rfl⟩
abbrev main_v102 : Ref sig .tc := ⟨.hbm, 254, rfl⟩
abbrev main_v103 : Ref sig .tc := ⟨.hbm, 255, rfl⟩
abbrev main_v104 : Ref sig .tc := ⟨.hbm, 256, rfl⟩
abbrev main_v105 : Ref sig .tc := ⟨.hbm, 257, rfl⟩
abbrev main_v106 : Ref sig .tc := ⟨.hbm, 258, rfl⟩
abbrev main_v107 : Ref sig .tc := ⟨.hbm, 259, rfl⟩
abbrev main_v108 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg5_1 : Ref sig .tc := ⟨.vmem, 75, rfl⟩
abbrev cc8_stg6_0 : Ref sig .tc := ⟨.vmem, 76, rfl⟩
abbrev cc8_stg6_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem5_1 : DmaSem sig := 75
abbrev cc8_sem6_0 : DmaSem sig := 76
abbrev cc8_sem6_1 : DmaSem sig := 77

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x32x128_S1x32x128_0_0_0 : S3x32x128.Slices ![0, 0, 0] S1x32x128
  shapeCasts_S1x32x128_S32x128 : S1x32x128.ShapeCasts S32x128
  slices_S3x128_S1x128_0_0 : S3x128.Slices ![0, 0] S1x128
  shapeCasts_S1x128_S128 : S1x128.ShapeCasts S128
  shapeCasts_S128_S1x128 : S128.ShapeCasts S1x128
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x32x128_S1x32x128_1_0_0 : S3x32x128.Slices ![1, 0, 0] S1x32x128
  slices_S3x128_S1x128_1_0 : S3x128.Slices ![1, 0] S1x128
  slices_S3x128x128_S1x128x128_1_0_0 : S3x128x128.Slices ![1, 0, 0] S1x128x128
  slices_S3x32x128_S1x32x128_2_0_0 : S3x32x128.Slices ![2, 0, 0] S1x32x128
  slices_S3x128_S1x128_2_0 : S3x128.Slices ![2, 0] S1x128
  slices_S3x128x128_S1x128x128_2_0_0 : S3x128x128.Slices ![2, 0, 0] S1x128x128
  gather_S50000x128_S800000x1_S800000x128_1_0_n_n_0_1_1128_wf : GatherDims.WF S50000x128 S800000x1 S800000x128 [1] [0] [] [0] [] 1 ![1, 128]
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S800000x32.size a
  hwx3_0 : ∀ i : grid3.Coords, EltTy.bits .f32 = 32 ∨ (Rect.block (s := S800000x32) S8000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .f32 = 32 ∨ (Rect.block (s := S800000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x128.size a ≤ S32x128.size a
  hwx3_2 : ∀ i : grid3.Coords, EltTy.bits .f32 = 32 ∨ (Rect.block (s := S32x128) S32x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x128.size a ≤ S800000x128.size a
  hwx3_4 : ∀ i : grid3.Coords, EltTy.bits .f32 = 32 ∨ (Rect.block (s := S800000x128) S8000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S800000x32.size a
  hwx6_0 : ∀ i : grid6.Coords, EltTy.bits .f32 = 32 ∨ (Rect.block (s := S800000x32) S8000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S800000x128.size a
  hwx6_1 : ∀ i : grid6.Coords, EltTy.bits .f32 = 32 ∨ (Rect.block (s := S800000x128) S8000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x128.size a ≤ S32x128.size a
  hwx6_2 : ∀ i : grid6.Coords, EltTy.bits .f32 = 32 ∨ (Rect.block (s := S32x128) S32x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8000x128.size a ≤ S800000x128.size a
  hwx6_4 : ∀ i : grid6.Coords, EltTy.bits .f32 = 32 ∨ (Rect.block (s := S800000x128) S8000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg2) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S32x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S8000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v73) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_arg2) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S32x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v80) S8000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v84) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v86) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v95) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v101) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v104) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v107) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v73) S5000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v108) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S3x32x128 : Shape := ⟨3, ![3, 32, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S1x32x128 : Shape := ⟨3, ![1, 32, 128]⟩
abbrev S32x128 : Shape := ⟨2, ![32, 128]⟩
abbrev S800000x128 : Shape := ⟨2, ![800000, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩

abbrev nBuf : Space → Nat
  | .hbm => 315
  | .vmem => 0
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S3x32x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S1x800000, .i32⟩
  | 12 => ⟨S800000, .i32⟩
  | 13 => ⟨S1x800000, .i32⟩
  | 14 => ⟨S800000, .i32⟩
  | 15 => ⟨S1x32x128, .f32⟩
  | 16 => ⟨S32x128, .f32⟩
  | 17 => ⟨S800000x128, .f32⟩
  | 18 => ⟨S1x128, .f32⟩
  | 19 => ⟨S128, .f32⟩
  | 20 => ⟨S1x128, .f32⟩
  | 21 => ⟨S800000x128, .f32⟩
  | 22 => ⟨S800000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S_, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S1x32x128, .f32⟩
  | 116 => ⟨S32x128, .f32⟩
  | 117 => ⟨S800000x128, .f32⟩
  | 118 => ⟨S1x128, .f32⟩
  | 119 => ⟨S128, .f32⟩
  | 120 => ⟨S1x128, .f32⟩
  | 121 => ⟨S800000x128, .f32⟩
  | 122 => ⟨S800000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x128, .f32⟩
  | 5 => ⟨S_, .f32⟩
  | 6 => ⟨S800000x128, .f32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S1x32x128, .f32⟩
  | 88 => ⟨S32x128, .f32⟩
  | 89 => ⟨S800000x128, .f32⟩
  | 90 => ⟨S1x128, .f32⟩
  | 91 => ⟨S128, .f32⟩
  | 92 => ⟨S1x128, .f32⟩
  | 93 => ⟨S800000x128, .f32⟩
  | 94 => ⟨S800000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S_, .f32⟩
  | 106 => ⟨S800000x128, .f32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_4 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call3_cst : Ref sig .tc := ⟨.hbm, 108, rfl⟩
abbrev main_call3_v0 : Ref sig .tc := ⟨.hbm, 109, rfl⟩
abbrev main_v65 : Ref sig .tc := ⟨.hbm, 110, rfl⟩
abbrev main_cst_5 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_6 : Ref sig .tc := ⟨.hbm, 123, rfl⟩
abbrev main_v77 : Ref sig .tc := ⟨.hbm, 124, rfl⟩
abbrev main_v78 : Ref sig .tc := ⟨.hbm, 125, rfl⟩
abbrev main_c_7 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call4_cst : Ref sig .tc := ⟨.hbm, 133, rfl⟩
abbrev main_call4_v0 : Ref sig .tc := ⟨.hbm, 134, rfl⟩
abbrev main_v85 : Ref sig .tc := ⟨.hbm, 135, rfl⟩
abbrev main_cst_8 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_call5_cst : Ref sig .tc := ⟨.hbm, 149, rfl⟩
abbrev main_call5_v0 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_9 : Ref sig .tc := ⟨.hbm, 160, rfl⟩
abbrev main_v107 : Ref sig .tc := ⟨.hbm, 161, rfl⟩
abbrev main_cst_10 : Ref sig .tc := ⟨.hbm, 162, rfl⟩
abbrev main_v108 : Ref sig .tc := ⟨.hbm, 163, rfl⟩
abbrev main_v109 : Ref sig .tc := ⟨.hbm, 164, rfl⟩
abbrev main_c_11 : Ref sig .tc := ⟨.hbm, 165, rfl⟩
abbrev main_call6_cst : Ref sig .tc := ⟨.hbm, 166, rfl⟩
abbrev main_call6_v0 : Ref sig .tc := ⟨.hbm, 167, rfl⟩
abbrev main_call6_v1 : Ref sig .tc := ⟨.hbm, 168, rfl⟩
abbrev main_call6_cst_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_v7 : Ref sig .tc := ⟨.hbm, 175, rfl⟩
abbrev main_call6_cst_1 : Ref sig .tc := ⟨.hbm, 176, rfl⟩
abbrev main_call6_v8 : Ref sig .tc := ⟨.hbm, 177, rfl⟩
abbrev main_call6_cst_2 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_cst_3 : Ref sig .tc := ⟨.hbm, 182, rfl⟩
abbrev main_call6_v12 : Ref sig .tc := ⟨.hbm, 183, rfl⟩
abbrev main_call6_cst_4 : Ref sig .tc := ⟨.hbm, 184, rfl⟩
abbrev main_call6_call0_v0 : Ref sig .tc := ⟨.hbm, 185, rfl⟩
abbrev main_call6_call0_v1 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_12 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_call7_cst : Ref sig .tc := ⟨.hbm, 208, rfl⟩
abbrev main_call7_v0 : Ref sig .tc := ⟨.hbm, 209, rfl⟩
abbrev main_v130 : Ref sig .tc := ⟨.hbm, 210, rfl⟩
abbrev main_cst_13 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_c_14 : Ref sig .tc := ⟨.hbm, 223, rfl⟩
abbrev main_v142 : Ref sig .tc := ⟨.hbm, 224, rfl⟩
abbrev main_v143 : Ref sig .tc := ⟨.hbm, 225, rfl⟩
abbrev main_c_15 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_call8_cst : Ref sig .tc := ⟨.hbm, 233, rfl⟩
abbrev main_call8_v0 : Ref sig .tc := ⟨.hbm, 234, rfl⟩
abbrev main_v150 : Ref sig .tc := ⟨.hbm, 235, rfl⟩
abbrev main_cst_16 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_call9_cst : Ref sig .tc := ⟨.hbm, 249, rfl⟩
abbrev main_call9_v0 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_cst_17 : Ref sig .tc := ⟨.hbm, 260, rfl⟩
abbrev main_v172 : Ref sig .tc := ⟨.hbm, 261, rfl⟩
abbrev main_cst_18 : Ref sig .tc := ⟨.hbm, 262, rfl⟩
abbrev main_v173 : Ref sig .tc := ⟨.hbm, 263, rfl⟩
abbrev main_v174 : Ref sig .tc := ⟨.hbm, 264, rfl⟩
abbrev main_c_19 : Ref sig .tc := ⟨.hbm, 265, rfl⟩
abbrev main_call10_cst : Ref sig .tc := ⟨.hbm, 266, rfl⟩
abbrev main_call10_v0 : Ref sig .tc := ⟨.hbm, 267, rfl⟩
abbrev main_call10_v1 : Ref sig .tc := ⟨.hbm, 268, rfl⟩
abbrev main_call10_cst_0 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_call10_v5 : Ref sig .tc := ⟨.hbm, 273, rfl⟩
abbrev main_call10_v6 : Ref sig .tc := ⟨.hbm, 274, rfl⟩
abbrev main_call10_v7 : Ref sig .tc := ⟨.hbm, 275, rfl⟩
abbrev main_call10_cst_1 : Ref sig .tc := ⟨.hbm, 276, rfl⟩
abbrev main_call10_v8 : Ref sig .tc := ⟨.hbm, 277, rfl⟩
abbrev main_call10_cst_2 : Ref sig .tc := ⟨.hbm, 278, rfl⟩
abbrev main_call10_v9 : Ref sig .tc := ⟨.hbm, 279, rfl⟩
abbrev main_call10_v10 : Ref sig .tc := ⟨.hbm, 280, rfl⟩
abbrev main_call10_v11 : Ref sig .tc := ⟨.hbm, 281, rfl⟩
abbrev main_call10_cst_3 : Ref sig .tc := ⟨.hbm, 282, rfl⟩
abbrev main_call10_v12 : Ref sig .tc := ⟨.hbm, 283, rfl⟩
abbrev main_call10_cst_4 : Ref sig .tc := ⟨.hbm, 284, rfl⟩
abbrev main_call10_call0_v0 : Ref sig .tc := ⟨.hbm, 285, rfl⟩
abbrev main_call10_call0_v1 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_cst_20 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_call11_cst : Ref sig .tc := ⟨.hbm, 308, rfl⟩
abbrev main_call11_v0 : Ref sig .tc := ⟨.hbm, 309, rfl⟩
abbrev main_v195 : Ref sig .tc := ⟨.hbm, 310, rfl⟩
abbrev main_cst_21 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x32x128_S1x32x128_0_0_0 : S3x32x128.Slices ![0, 0, 0] S1x32x128
  shapeCasts_S1x32x128_S32x128 : S1x32x128.ShapeCasts S32x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x32x128_S1x32x128_1_0_0 : S3x32x128.Slices ![1, 0, 0] S1x32x128
  slices_S3x128_S1x128_1_0 : S3x128.Slices ![1, 0] S1x128
  slices_S3x128x128_S1x128x128_1_0_0 : S3x128x128.Slices ![1, 0, 0] S1x128x128
  slices_S3x32x128_S1x32x128_2_0_0 : S3x32x128.Slices ![2, 0, 0] S1x32x128
  slices_S3x128_S1x128_2_0 : S3x128.Slices ![2, 0] S1x128
  slices_S3x128x128_S1x128x128_2_0_0 : S3x128x128.Slices ![2, 0, 0] S1x128x128
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute: three rounds of a graph-network layer on a node table
  `h : [50000, 128]`.  One round gathers the source row of every edge, adds the edge's own linear
  transform `edge_attr · We + be`, clips at zero, sums the messages into their target rows, adds the
  node's own row, applies the two-layer perceptron `(relu (z · W1 + b1)) · W2 + b2` row by row,
  normalises every column by its mean and variance over the nodes, scales and shifts it, clips at zero
  and adds a tenth of the round's input.

  The three dense pieces are stated index by index over the extended reals (`edgeMsg`, `mlp`, `bn`);
  the irregular or global pieces (row gather, segment sum, column mean, column variance, the slices of
  the stacked parameters) are the host operations themselves: both programs apply the same ones to
  equal operands.
-/
import Idealize.ShloMosaic.PureOps
import Idealize.ShloMosaic.PureOps.Ideal
import Idealize.ShloMosaic.Lib.ValueIdx

noncomputable section

namespace GINE

open Idealize.ShloMosaic Idealize.ShloMosaic.ValueIdx

/-! ## Shapes -/

abbrev S50000x128 : Shape := ⟨2, ![50000, 128]⟩
abbrev S2x800000 : Shape := ⟨2, ![2, 800000]⟩
abbrev S800000x32 : Shape := ⟨2, ![800000, 32]⟩
abbrev S3x32x128 : Shape := ⟨3, ![3, 32, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S1x32x128 : Shape := ⟨3, ![1, 32, 128]⟩
abbrev S32x128 : Shape := ⟨2, ![32, 128]⟩
abbrev S800000x128 : Shape := ⟨2, ![800000, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩

/-! ## Shape facts the host operations take -/

theorem bc_S__S800000 : S_.BroadcastsInDim S800000 (![] : Fin 0 → Fin S800000.rank) := by decide
theorem bc_S800000_S800000x1 : S800000.BroadcastsInDim S800000x1 (![0] : Fin 1 → Fin S800000x1.rank) := by decide
theorem bc_S__S50000x128 : S_.BroadcastsInDim S50000x128 (![] : Fin 0 → Fin S50000x128.rank) := by decide
theorem bc_S__S128 : S_.BroadcastsInDim S128 (![] : Fin 0 → Fin S128.rank) := by decide
theorem bc_S__S1x128 : S_.BroadcastsInDim S1x128 (![] : Fin 0 → Fin S1x128.rank) := by decide
theorem bc_S128_S1x128 : S128.BroadcastsInDim S1x128 (![1] : Fin 1 → Fin S1x128.rank) := by decide
theorem bc_S1x128_S50000x128 : S1x128.BroadcastsInDim S50000x128 (![0, 1] : Fin 2 → Fin S50000x128.rank) := by decide
theorem red_S50000x128_S128 : S50000x128.ReducesTo [0] S128 := by decide
theorem pos_S_ : 0 < S_.numel := by decide
theorem sl_ei (r : Fin 2) : S2x800000.Slices ![r.val, 0] S1x800000 := by fin_cases r <;> decide
theorem sc_S1x800000_S800000 : S1x800000.ShapeCasts S800000 := by decide
theorem sl_m32 (l : Fin 3) : S3x32x128.Slices ![l.val, 0, 0] S1x32x128 := by fin_cases l <;> decide
theorem sc_S1x32x128_S32x128 : S1x32x128.ShapeCasts S32x128 := by decide
theorem sl_m128 (l : Fin 3) : S3x128x128.Slices ![l.val, 0, 0] S1x128x128 := by fin_cases l <;> decide
theorem sc_S1x128x128_S128x128 : S1x128x128.ShapeCasts S128x128 := by decide
theorem sl_v (l : Fin 3) : S3x128.Slices ![l.val, 0] S1x128 := by fin_cases l <;> decide
theorem sc_S1x128_S128 : S1x128.ShapeCasts S128 := by decide
theorem gather_wf : GatherDims.WF S50000x128 S800000x1 S800000x128 [1] [0] [] [0] [] 1 ![1, 128] := by decide
theorem scatter_wf : ScatterDims.WF S50000x128 S800000x1 S800000x128 [1] [0] [0] 1 := by decide

/-- The row gather's dimension numbers: one index per edge, selecting a whole row of the node table. -/
def gd : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_wf

/-- The segment sum's dimension numbers: one target row per edge, a whole message row added to it. -/
def sd : ScatterDims S50000x128 S800000x1 S800000x128 where
  updateWindowDims := [1]
  insertedWindowDims := [0]
  scatterDimsToOperandDims := [0]
  indexVectorDim := 1
  wf := scatter_wf

abbrev Node := FVec Ideal S50000x128 .f32
abbrev Edge := FVec Ideal S800000x128 .f32
abbrev Col := FVec Ideal S128 .f32

/-! ## The pieces kept as host operations -/

/-- Row `r` of the edge list, as a vector of 800000 node numbers. -/
def edgeRow (r : Fin 2) (ei : IVec S2x800000 32) : IVec S800000 32 :=
  shapeCast S800000 (extractStridedSlice S1x800000 ![r.val, 0] ei (sl_ei r)) sc_S1x800000_S800000

/-- The source numbers as gather indices: a negative number counts from the end of the table. -/
def wrapIdx (src : IVec S800000 32) : IVec S800000x1 32 :=
  broadcastInDim S800000x1 ![0] bc_S800000_S800000x1
    (select (cmpi .slt src (broadcastInDim S800000 ![] bc_S__S800000 (constantI S_ 32 0#32)))
      (addi src (broadcastInDim S800000 ![] bc_S__S800000 (constantI S_ 32 50000#32))) src)

/-- Every source number is a row of the node table: the evident domain of the row gather. -/
def SrcOK (src : IVec S800000 32) : Prop := ∀ e, 0 ≤ (src e).toInt ∧ (src e).toInt < 50000

/-- Every edge's source row of the node table. -/
def rows (h : Node) (src : IVec S800000 32) : Edge := Host.gather gd h (wrapIdx src)

/-- The messages summed into their target rows, from zero. -/
def segsum (dst : IVec S800000 32) (msg : Edge) : Node :=
  Host.scatterAdd sd (broadcastInDim S50000x128 ![] bc_S__S50000x128 (constant S_ .f32 0x00000000#32))
    (broadcastInDim S800000x1 ![0] bc_S800000_S800000x1 dst) msg

/-- Every column's mean over the 50000 nodes. -/
def colMean (z : Node) : Col :=
  Host.divf (Host.reduceAdd z (constant S_ .f32 0x00000000#32) red_S50000x128_S128 pos_S_)
    (broadcastInDim S128 ![] bc_S__S128 (constant S_ .f32 0x47435000#32))

/-- Every column's variance over the 50000 nodes (the population variance: the correction term is zero). -/
def colVar (z : Node) : Col :=
  let d : FVec Ideal S_ .f32 := subf (constant S_ .f32 0x47435000#32) (sitofp .f32 (constantI S_ 32 0#32))
  let ctr : Node := subf z (broadcastInDim S50000x128 ![0, 1] bc_S1x128_S50000x128
    (Host.divf (broadcastInDim S1x128 ![1] bc_S128_S1x128 (Host.reduceAdd z (constant S_ .f32 0x00000000#32) red_S50000x128_S128 pos_S_))
      (broadcastInDim S1x128 ![] bc_S__S1x128 (constant S_ .f32 0x47435000#32))))
  select (broadcastInDim S128 ![] bc_S__S128 (cmpf .ogt d (constant S_ .f32 0x00000000#32)))
    (Host.divf (Host.reduceAdd (mulf ctr ctr) (constant S_ .f32 0x00000000#32) red_S50000x128_S128 pos_S_)
      (broadcastInDim S128 ![] bc_S__S128 d))
    (broadcastInDim S128 ![] bc_S__S128 (id (constant S_ .f32 0x7FC00000#32)))

/-- Layer `l`'s slab of a stacked `[3, 32, 128]` parameter. -/
def slab32 (l : Fin 3) (p : FVec Ideal S3x32x128 .f32) : FVec Ideal S32x128 .f32 :=
  shapeCast S32x128 (extractStridedSlice S1x32x128 ![l.val, 0, 0] p (sl_m32 l)) sc_S1x32x128_S32x128
/-- Layer `l`'s slab of a stacked `[3, 128, 128]` parameter. -/
def slab128 (l : Fin 3) (p : FVec Ideal S3x128x128 .f32) : FVec Ideal S128x128 .f32 :=
  shapeCast S128x128 (extractStridedSlice S1x128x128 ![l.val, 0, 0] p (sl_m128 l)) sc_S1x128x128_S128x128
/-- Layer `l`'s row of a stacked `[3, 128]` parameter. -/
def prow (l : Fin 3) (p : FVec Ideal S3x128 .f32) : Col :=
  shapeCast S128 (extractStridedSlice S1x128 ![l.val, 0] p (sl_v l)) sc_S1x128_S128

/-! ## The dense pieces, index by index -/

/-- The three f32 words the programs share, read at the ideal instance. -/
def zero : EReal := (FloatOps.ofBits (F := Ideal) .f32 0x00000000#32 : Ideal .f32)
def eps : EReal := (FloatOps.ofBits (F := Ideal) .f32 0x3727C5AC#32 : Ideal .f32)
def tenth : EReal := (FloatOps.ofBits (F := Ideal) .f32 0x3DCCCCCD#32 : Ideal .f32)

/-- An edge's message: its source row plus `edge_attr · We + be`, clipped at zero. -/
def edgeMsg (ea : FVec Ideal S800000x32 .f32) (hs : Edge) (we : FVec Ideal S32x128 .f32) (be : Col) : Edge :=
  fun i => max (hs i + ((∑ k : Fin 32, ea (ix2 (i 0) k) * we (ix2 k (i 1))) + be (ix1 (i 1)))) zero

/-- The node perceptron, row by row: `(relu (z · W1 + b1)) · W2 + b2`. -/
def mlp (z : Node) (w1 : FVec Ideal S128x128 .f32) (b1 : Col) (w2 : FVec Ideal S128x128 .f32) (b2 : Col) : Node :=
  fun i => (∑ k : Fin 128, max ((∑ k' : Fin 128, z (ix2 (i 0) k') * w1 (ix2 k' k)) + b1 (ix1 k)) zero * w2 (ix2 k (i 1))) + b2 (ix1 (i 1))

/-- Normalise by the column statistics, scale, shift, clip at zero, add a tenth of the round's input. -/
def bn (z : Node) (mu var gamma beta : Col) (h : Node) : Node :=
  fun i => max ((z i - mu (ix1 (i 1))) * Ideal.rsqrt (var (ix1 (i 1)) + eps) * gamma (ix1 (i 1)) + beta (ix1 (i 1))) zero + tenth * h i

/-- A `[1, 128]` row read as a column vector of 128 entries. -/
def rowOf (v : FVec Ideal S1x128 .f32) : Col := fun j => v (ix2 0 (j 0))

/-! ## A round, and the three rounds -/

/-- One round of the network from the node table `h`. -/
def layer (h : Node) (src dst : IVec S800000 32) (ea : FVec Ideal S800000x32 .f32)
    (we : FVec Ideal S32x128 .f32) (be : Col) (w1 : FVec Ideal S128x128 .f32) (b1 : Col)
    (w2 : FVec Ideal S128x128 .f32) (b2 : Col) (gamma beta : Col) : Node :=
  let z := mlp (addf h (segsum dst (edgeMsg ea (rows h src) we be))) w1 b1 w2 b2
  bn z (colMean z) (colVar z) gamma beta h

/-- Round `l` with its parameters cut out of the stacked inputs. -/
def layerAt (l : Fin 3) (h : Node) (ei : IVec S2x800000 32) (ea : FVec Ideal S800000x32 .f32)
    (We : FVec Ideal S3x32x128 .f32) (be : FVec Ideal S3x128 .f32) (W1 : FVec Ideal S3x128x128 .f32) (b1 : FVec Ideal S3x128 .f32)
    (W2 : FVec Ideal S3x128x128 .f32) (b2 : FVec Ideal S3x128 .f32) (gamma beta : FVec Ideal S3x128 .f32) : Node :=
  layer h (edgeRow 0 ei) (edgeRow 1 ei) ea (slab32 l We) (prow l be) (slab128 l W1) (prow l b1) (slab128 l W2) (prow l b2)
    (prow l gamma) (prow l beta)

/-- The whole network: three rounds from `x`. -/
def net (x : Node) (ei : IVec S2x800000 32) (ea : FVec Ideal S800000x32 .f32)
    (We : FVec Ideal S3x32x128 .f32) (be : FVec Ideal S3x128 .f32) (W1 : FVec Ideal S3x128x128 .f32) (b1 : FVec Ideal S3x128 .f32)
    (W2 : FVec Ideal S3x128x128 .f32) (b2 : FVec Ideal S3x128 .f32) (gamma beta : FVec Ideal S3x128 .f32) : Node :=
  layerAt 2 (layerAt 1 (layerAt 0 x ei ea We be W1 b1 W2 b2 gamma beta) ei ea We be W1 b1 W2 b2 gamma beta)
    ei ea We be W1 b1 W2 b2 gamma beta

end GINE

end
-- ==== Proof.KCommon.lean ====
import proofs.«403306_j43559558316462_1_alg».proof.Proof.Gen.KernelIdeal.Frame
import proofs.«403306_j43559558316462_1_alg».proof.Proof.Spec

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Contents written to a typed buffer and read back are the contents. -/
theorem ofBuf_toBuf {T : BufTy} {Val : EltTy → Type} (x : StableHlo.TRef sig T) (v : T.Contents Val) : x.ofBuf (x.toBuf v) = v := by
  unfold StableHlo.TRef.ofBuf StableHlo.TRef.toBuf
  simp only [cast_cast, cast_eq]

/-- At a boundary of the run with buffer contents `W`: every argument array is as launched, and the two rows of
    the edge list have been cut out into their own buffers. -/
structure Keeps (W : Dev nD → Valuation τ sig (Elt Ideal)) (c : Dev nD) : Prop where
  a0 : W c (Proc.devRef .tc main_arg0) = m ((c : Thread nD τ).loc main_arg0)
  a1 : W c (Proc.devRef .tc main_arg1) = m ((c : Thread nD τ).loc main_arg1)
  a2 : W c (Proc.devRef .tc main_arg2) = m ((c : Thread nD τ).loc main_arg2)
  a3 : W c (Proc.devRef .tc main_arg3) = m ((c : Thread nD τ).loc main_arg3)
  a4 : W c (Proc.devRef .tc main_arg4) = m ((c : Thread nD τ).loc main_arg4)
  a5 : W c (Proc.devRef .tc main_arg5) = m ((c : Thread nD τ).loc main_arg5)
  a6 : W c (Proc.devRef .tc main_arg6) = m ((c : Thread nD τ).loc main_arg6)
  a7 : W c (Proc.devRef .tc main_arg7) = m ((c : Thread nD τ).loc main_arg7)
  a8 : W c (Proc.devRef .tc main_arg8) = m ((c : Thread nD τ).loc main_arg8)
  a9 : W c (Proc.devRef .tc main_arg9) = m ((c : Thread nD τ).loc main_arg9)
  a10 : W c (Proc.devRef .tc main_arg10) = m ((c : Thread nD τ).loc main_arg10)
  src : W c (Proc.devRef .tc main_v1) = GINE.edgeRow 0 (m ((c : Thread nD τ).loc main_arg1))
  dst : W c (Proc.devRef .tc main_v3) = GINE.edgeRow 1 (m ((c : Thread nD τ).loc main_arg1))

/-- Round `l` from the node table `h`, its parameters the launch contents of the argument arrays. -/
def layerK (l : Fin 3) (c : Dev nD) (h : GINE.Node) : GINE.Node :=
  GINE.layerAt l h (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- The kernel program's row gather as its host operations spell it: the rows at the wrapped source numbers,
    kept where the wrapped number is a row of the table and replaced by the not-a-number word elsewhere. -/
def takeK (h : GINE.Node) (src : IVec GINE.S800000 32) : GINE.Edge :=
  let idx : IVec S800000x1 32 := broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)
  select
    (broadcastInDim S800000x128 ![0] bcast_S800000_S800000x128_0
      (Host.reduce IntOp.andi
        (andi (cmpi .sge idx (broadcastInDim S800000x1 ![] bcast_S_S800000x1 (constantI S_ 32 0#32)))
          (cmpi .sle idx (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h idx)
    (broadcastInDim S800000x128 ![] bcast_S_S800000x128 (constant S_ .f32 0x7FC00000#32))

end Cert.KernelIdeal.Layers

end
-- ==== Proof.InRange.lean ====
import proofs.«403306_j43559558316462_1_alg».proof.Defs
import proofs.«403306_j43559558316462_1_alg».proof.Proof.Gen.Pre_finite_inputs
import proofs.«403306_j43559558316462_1_alg».proof.Proof.KCommon
import Idealize.ShloMosaic.Lib.ReduceAll

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace InRange

/-- A fold by `and` from 1 over words that are all 1 is 1. -/
theorem foldl_andi_one {ι : Type} (f : ι → BitVec 1) :
    ∀ (l : List ι), (∀ n ∈ l, f n = 1#1) → l.foldl (fun r n => IntOp.andi r (f n)) (1#1) = 1#1
  | [], _ => rfl
  | a :: l, h => by
    rw [List.foldl_cons, h a (List.mem_cons_self ..), show IntOp.andi (1#1) (1#1) = 1#1 from by decide]
    exact foldl_andi_one f l (fun n hn => h n (List.mem_cons_of_mem _ hn))

/-- A reduction by `and` from 1 of an array of ones is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun i _ => hx i)

/-- A source number in the table's range is not negative, so the wrap leaves it alone, and it passes both
    range tests: 0 ≤ w and w ≤ 49999. -/
theorem wrap_ok (w : BitVec 32) (h0 : 0 ≤ w.toInt) (h1 : w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have z0 : (0#32 : BitVec 32).toInt = 0 := by decide
  have z9 : (49999#32 : BitVec 32).toInt = 49999 := by decide
  have hs : ¬ IntOp.cmpi .slt w 0#32 = 1 := by
    intro hc
    have := IntOp.cmpi_slt.1 hc
    rw [z0] at this
    omega
  rw [show Scalar.select (IntOp.cmpi .slt w 0#32) (IntOp.addi w 50000#32) w = w from if_neg hs]
  exact IntOp.andi_eq_one.2 ⟨IntOp.cmpi_sge.2 (by rw [z0]; exact h0), IntOp.cmpi_sle.2 (by rw [z9]; omega)⟩

/-- The two programs' row gathers carry the same dimension numbers. -/
theorem gd_eq : gather_S50000x128_S800000x1_S800000x128_1_0_n_n_0_1_1128 = GINE.gd := rfl

/-- A select under a mask of ones takes its first operand. -/
theorem select_ones {s : Shape} {α : Type} (a b : s.Idx → α) : select (fun _ => (1#1 : BitVec 1)) a b = a :=
  funext fun i => by
    show (if (1#1 : BitVec 1) = 1 then a i else b i) = a i
    exact if_pos rfl

/-- What holds of every element of an array holds of every element of its broadcast. -/
theorem bcast_all {s t : Shape} {α : Type} {dims : Fin s.rank → Fin t.rank} (hb : s.BroadcastsInDim t dims)
    (P : α → Prop) (x : s.Idx → α) (hx : ∀ e, P (x e)) (k : t.Idx) : P (broadcastInDim t dims hb x k) :=
  hx _

/-- The wrapped source number of an edge whose number is in range passes both range tests. -/
theorem wrapIdx_ok (src : IVec GINE.S800000 32) (hok : GINE.SrcOK src) (k : GINE.S800000x1.Idx) :
    IntOp.andi (IntOp.cmpi .sge (GINE.wrapIdx src k) 0#32) (IntOp.cmpi .sle (GINE.wrapIdx src k) 49999#32) = 1#1 :=
  bcast_all GINE.bc_S800000_S800000x1
    (fun w => IntOp.andi (IntOp.cmpi .sge w 0#32) (IntOp.cmpi .sle w 49999#32) = 1#1) _
    (fun e => wrap_ok (src e) (hok e).1 (hok e).2) k

/-- Where every index passes both range tests the mask reduced over the unit axis is all ones. -/
theorem mask_ones (idx : IVec S800000x1 32)
    (hidx : ∀ k, IntOp.andi (IntOp.cmpi .sge (idx k) 0#32) (IntOp.cmpi .sle (idx k) 49999#32) = 1#1) :
    Host.reduce IntOp.andi
        (andi (cmpi .sge idx (broadcastInDim S800000x1 ![] bcast_S_S800000x1 (constantI S_ 32 0#32)))
          (cmpi .sle idx (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ = fun _ => 1#1 :=
  funext fun j => reduce_andi_of_all _ _ _ _ rfl (fun k => hidx k) j

/-- Where every index passes both range tests the guarded gather is the gather itself. -/
theorem guarded_gather (h : GINE.Node) (idx : IVec S800000x1 32)
    (hidx : ∀ k, IntOp.andi (IntOp.cmpi .sge (idx k) 0#32) (IntOp.cmpi .sle (idx k) 49999#32) = 1#1) :
    select
      (broadcastInDim S800000x128 ![0] bcast_S800000_S800000x128_0
        (Host.reduce IntOp.andi
          (andi (cmpi .sge idx (broadcastInDim S800000x1 ![] bcast_S_S800000x1 (constantI S_ 32 0#32)))
            (cmpi .sle idx (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 h idx)
      (broadcastInDim S800000x128 ![] bcast_S_S800000x128 (constant S_ .f32 0x7FC00000#32))
    = Host.gather GINE.gd h idx := by
  rw [mask_ones idx hidx, gd_eq]
  exact select_ones _ _

end InRange

/-- Under the precondition every source number of the edge list is a row of the node table. -/
theorem srcOK_of_pre (h : Cert.Pre_KernelIdeal m) (c : Dev nD) :
    GINE.SrcOK (GINE.edgeRow 0 (m ((c : Thread nD τ).loc main_arg1))) := by
  -- the predicate's one word is a chain of twelve conjuncts; the last two are the range tests of the source row
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h1, hlt⟩ := IntOp.andi_eq_one.1 h0
  obtain ⟨-, hge⟩ := IntOp.andi_eq_one.1 h1
  clear h0 h1
  haveI : Subsingleton Cert.Pre_finite_inputs.S_.Idx := ⟨fun a b => funext fun d => d.elim0⟩
  intro e
  -- each test is an `and` over all edges that came out 1, so it holds at edge e; read signed it is the bound
  have a : (0#32 : BitVec 32).toInt ≤ (GINE.edgeRow 0 (m ((c : Thread nD τ).loc main_arg1)) e).toInt :=
    IntOp.cmpi_sge.1 (Host.reduce_andi_all _ _ _ _ _ hge e)
  have b : (GINE.edgeRow 0 (m ((c : Thread nD τ).loc main_arg1)) e).toInt < (50000#32 : BitVec 32).toInt :=
    IntOp.cmpi_slt.1 (Host.reduce_andi_all _ _ _ _ _ hlt e)
  rw [show (0#32 : BitVec 32).toInt = 0 from by decide] at a
  rw [show (50000#32 : BitVec 32).toInt = 50000 from by decide] at b
  exact ⟨a, b⟩

/-- Where every source number is a row of the table, the kernel program's guarded gather is the plain row gather. -/
theorem takeK_eq (h : GINE.Node) (src : IVec GINE.S800000 32) (hok : GINE.SrcOK src) :
    takeK h src = GINE.rows h src :=
  InRange.guarded_gather h (GINE.wrapIdx src) (InRange.wrapIdx_ok src hok)

end Cert.KernelIdeal.Layers

end
-- ==== Proof.EdgeMsgBlock.lean ====
/-
  The edge-message kernel at an index.  One launch of the kernel takes a block of 8000 edges: their feature
  rows `x0 : [8000, 32]`, their gathered source rows `x1 : [8000, 128]`, the round's weight slab
  `x2 : [32, 128]` and its bias row `x3 : [1, 128]`, and leaves `max (x1 + (x0 · x2 + x3)) 0`.  Over the
  extended reals the narrowing of the two product operands is the identity, the product into a zero accumulator is
  the plain sum over the 32 features, and the bias row is read at its one row, so at row `p` and column `q` the
  block holds `max (x1 p q + (∑ k, x0 p k * x2 k q + x3 0 q)) 0`: the specification's `edgeMsg` at the edge the
  block's row `p` stands for.  The three rounds launch the same kernel, so the three payloads are one function.
-/
import proofs.«403306_j43559558316462_1_alg».proof.Proof.Gen.KernelIdeal.Skeleton
import proofs.«403306_j43559558316462_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.EdgeMsg

open Idealize.ShloMosaic Idealize.ShloMosaic.TcCoe Idealize.ShloMosaic.ValueIdx Idealize.SL.Sem
open Cert.KernelIdeal Cert.KernelIdeal.Gen

/-! ## The product's operand indices, axis by axis

At result index `j` and contraction index `k` the left operand is read at row `j 0`, column `k`, and the right
operand at row `k`, column `j 1`. -/

theorem lhs_0 (j : S8000x128.Idx) (k : dot_S8000x32_S32x128_S8000x128_1_0_0_1_n_n.contr.Idx) :
    (dot_S8000x32_S32x128_S8000x128_1_0_0_1_n_n.lhsIdx j k 0 : ℕ) = j 0 := by
  simp [DotDims.lhsIdx, dot_S8000x32_S32x128_S8000x128_1_0_0_1_n_n]; rfl
theorem lhs_1 (j : S8000x128.Idx) (k : dot_S8000x32_S32x128_S8000x128_1_0_0_1_n_n.contr.Idx) :
    (dot_S8000x32_S32x128_S8000x128_1_0_0_1_n_n.lhsIdx j k 1 : ℕ) = k ⟨0, by decide⟩ := by
  simp [DotDims.lhsIdx, dot_S8000x32_S32x128_S8000x128_1_0_0_1_n_n]; rfl
theorem rhs_0 (j : S8000x128.Idx) (k : dot_S8000x32_S32x128_S8000x128_1_0_0_1_n_n.contr.Idx) :
    (dot_S8000x32_S32x128_S8000x128_1_0_0_1_n_n.rhsIdx j k 0 : ℕ) = k ⟨0, by decide⟩ := by
  simp [DotDims.rhsIdx, dot_S8000x32_S32x128_S8000x128_1_0_0_1_n_n]; rfl
theorem rhs_1 (j : S8000x128.Idx) (k : dot_S8000x32_S32x128_S8000x128_1_0_0_1_n_n.contr.Idx) :
    (dot_S8000x32_S32x128_S8000x128_1_0_0_1_n_n.rhsIdx j k 1 : ℕ) = j 1 := by
  simp [DotDims.rhsIdx, dot_S8000x32_S32x128_S8000x128_1_0_0_1_n_n]; rfl

/-- The block product into a zero accumulator, read at row `p` and column `q`: the sum over the 32 edge
    features of the products of the entries. -/
theorem product_apply (a : FVec Ideal S8000x32 .bf16) (w : FVec Ideal S32x128 .bf16) (p : Fin 8000) (q : Fin 128) :
    matmul dot_S8000x32_S32x128_S8000x128_1_0_0_1_n_n none a w (constant (F := Ideal) S8000x128 .f32 0x00000000#32) (ix2 p q)
      = ∑ k : Fin 32, a (ix2 p k) * w (ix2 k q) := by
  show FloatOps.matmul _ none a w _ (ix2 p q) = _
  rw [Ideal.matmul_constant_zero_apply,
    ← Equiv.sum_comp (contrEquiv1 dot_S8000x32_S32x128_S8000x128_1_0_0_1_n_n 32 rfl rfl).symm]
  refine Finset.sum_congr rfl fun k _ => ?_
  have hk := contrEquiv1_symm_val dot_S8000x32_S32x128_S8000x128_1_0_0_1_n_n 32 rfl rfl k
  have hl : dot_S8000x32_S32x128_S8000x128_1_0_0_1_n_n.lhsIdx (ix2 p q)
      ((contrEquiv1 dot_S8000x32_S32x128_S8000x128_1_0_0_1_n_n 32 rfl rfl).symm k) = ix2 p k := by
    funext ax; apply Fin.ext
    match ax with
    | ⟨0, _⟩ => exact lhs_0 _ _
    | ⟨1, _⟩ => exact (lhs_1 _ _).trans hk
  have hr : dot_S8000x32_S32x128_S8000x128_1_0_0_1_n_n.rhsIdx (ix2 p q)
      ((contrEquiv1 dot_S8000x32_S32x128_S8000x128_1_0_0_1_n_n 32 rfl rfl).symm k) = ix2 k q := by
    funext ax; apply Fin.ext
    match ax with
    | ⟨0, _⟩ => exact (rhs_0 _ _).trans hk
    | ⟨1, _⟩ => exact rhs_1 _ _
  rw [hl, hr]

/-! ## The kernel's arithmetic at an index -/

/-- The first round's payload at row `p` and column `q` of a block: the narrowing format changes and the
    same-shape casts are identities on the extended reals, the bias row is read at its one row, and the clip
    is the maximum with the zero word. -/
theorem payload0_apply (x0 : Vec Ideal S8000x32 .f32) (x2 : Vec Ideal S32x128 .f32) (x3 : Vec Ideal S1x128 .f32)
    (x1 : Vec Ideal S8000x128 .f32) (p : Fin 8000) (q : Fin 128) :
    k0_pay1 x0 x2 x3 x1 (ix2 p q)
      = max (x1 (ix2 p q) + ((∑ k : Fin 32, x0 (ix2 p k) * x2 (ix2 k q)) + x3 (ix2 0 q))) GINE.zero := by
  unfold k0_pay1
  rw [maximumf_apply, addf_apply, addf_apply, shapeCast_self, shapeCast_self, shapeCast_self, product_apply,
    broadcastTo_1b_ab_apply]
  rfl

/-- The second round launches the same kernel … -/
theorem payload3_apply (x0 : Vec Ideal S8000x32 .f32) (x2 : Vec Ideal S32x128 .f32) (x3 : Vec Ideal S1x128 .f32)
    (x1 : Vec Ideal S8000x128 .f32) (p : Fin 8000) (q : Fin 128) :
    k3_pay1 x0 x2 x3 x1 (ix2 p q)
      = max (x1 (ix2 p q) + ((∑ k : Fin 32, x0 (ix2 p k) * x2 (ix2 k q)) + x3 (ix2 0 q))) GINE.zero :=
  payload0_apply x0 x2 x3 x1 p q

/-- … and so does the third. -/
theorem payload6_apply (x0 : Vec Ideal S8000x32 .f32) (x2 : Vec Ideal S32x128 .f32) (x3 : Vec Ideal S1x128 .f32)
    (x1 : Vec Ideal S8000x128 .f32) (p : Fin 8000) (q : Fin 128) :
    k6_pay1 x0 x2 x3 x1 (ix2 p q)
      = max (x1 (ix2 p q) + ((∑ k : Fin 32, x0 (ix2 p k) * x2 (ix2 k q)) + x3 (ix2 0 q))) GINE.zero :=
  payload0_apply x0 x2 x3 x1 p q

/-! ## A block of the result is a block of the specification's message array -/

/-- For any payload `pay` that computes the kernel's arithmetic at every row and column (`hpay`): when the edge
    features and the gathered rows are read `n` blocks of 8000 rows down their arrays (`e0`, `e1`), the weight slab
    and the bias row where they are (`e2`, `e3`), and the output block sits `n` blocks down the message array
    (`e4`), the payload of those blocks at `j` is `edgeMsg` of the whole arrays at the place `j` stands for. -/
theorem block_eq
    (pay : Vec Ideal S8000x32 .f32 → Vec Ideal S32x128 .f32 → Vec Ideal S1x128 .f32 → Vec Ideal S8000x128 .f32
      → FVec Ideal S8000x128 .f32)
    (hpay : ∀ (x0 : Vec Ideal S8000x32 .f32) (x2 : Vec Ideal S32x128 .f32) (x3 : Vec Ideal S1x128 .f32)
      (x1 : Vec Ideal S8000x128 .f32) (p : Fin 8000) (q : Fin 128), pay x0 x2 x3 x1 (ix2 p q)
        = max (x1 (ix2 p q) + ((∑ k : Fin 32, x0 (ix2 p k) * x2 (ix2 k q)) + x3 (ix2 0 q))) GINE.zero)
    (ea : FVec Ideal S800000x32 .f32) (hs : FVec Ideal S800000x128 .f32)
    (we : FVec Ideal S32x128 .f32) (be : FVec Ideal S1x128 .f32) (n : ℕ)
    (e0 : S8000x32.Idx → S800000x32.Idx) (e1 e4 : S8000x128.Idx → S800000x128.Idx)
    (e2 : S32x128.Idx → S32x128.Idx) (e3 : S1x128.Idx → S1x128.Idx)
    (h00 : ∀ y, (e0 y 0).val = n * 8000 + (y 0).val) (h01 : ∀ y, (e0 y 1).val = (y 1).val)
    (h10 : ∀ y, (e1 y 0).val = n * 8000 + (y 0).val) (h11 : ∀ y, (e1 y 1).val = (y 1).val)
    (h20 : ∀ y, (e2 y 0).val = (y 0).val) (h21 : ∀ y, (e2 y 1).val = (y 1).val)
    (h30 : ∀ y, (e3 y 0).val = (y 0).val) (h31 : ∀ y, (e3 y 1).val = (y 1).val)
    (h40 : ∀ y, (e4 y 0).val = n * 8000 + (y 0).val) (h41 : ∀ y, (e4 y 1).val = (y 1).val)
    (j : S8000x128.Idx) :
    pay (fun y => ea (e0 y)) (fun y => we (e2 y)) (fun y => be (e3 y)) (fun y => hs (e1 y)) j
      = GINE.edgeMsg ea hs we (GINE.rowOf be) (e4 j) := by
  obtain ⟨p, q, rfl⟩ : ∃ (p : Fin 8000) (q : Fin 128), j = ix2 p q := ⟨j 0, j 1, eq_ix2 j⟩
  rw [hpay]
  have i1 : e1 (ix2 p q) = e4 (ix2 p q) := by
    funext a; apply Fin.ext
    match a with
    | ⟨0, _⟩ => exact (h10 (ix2 p q)).trans (h40 (ix2 p q)).symm
    | ⟨1, _⟩ => exact (h11 (ix2 p q)).trans (h41 (ix2 p q)).symm
  have i0 : ∀ k : Fin 32, e0 (ix2 p k) = ix2 (e4 (ix2 p q) 0) k := fun k => by
    funext a; apply Fin.ext
    match a with
    | ⟨0, _⟩ => exact (h00 (ix2 p k)).trans (h40 (ix2 p q)).symm
    | ⟨1, _⟩ => exact h01 (ix2 p k)
  have i2 : ∀ k : Fin 32, e2 (ix2 k q) = ix2 k (e4 (ix2 p q) 1) := fun k => by
    funext a; apply Fin.ext
    match a with
    | ⟨0, _⟩ => exact h20 (ix2 k q)
    | ⟨1, _⟩ => exact (h21 (ix2 k q)).trans (h41 (ix2 p q)).symm
  have i3 : e3 (ix2 0 q) = ix2 0 (e4 (ix2 p q) 1) := by
    funext a; apply Fin.ext
    match a with
    | ⟨0, _⟩ => exact h30 (ix2 0 q)
    | ⟨1, _⟩ => exact (h31 (ix2 0 q)).trans (h41 (ix2 p q)).symm
  show max (hs (e1 (ix2 p q)) + ((∑ k : Fin 32, ea (e0 (ix2 p k)) * we (e2 (ix2 k q))) + be (e3 (ix2 0 q)))) GINE.zero
    = max (hs (e4 (ix2 p q)) + ((∑ k : Fin 32, ea (ix2 (e4 (ix2 p q) 0) k) * we (ix2 k (e4 (ix2 p q) 1)))
        + be (ix2 0 (e4 (ix2 p q) 1)))) GINE.zero
  rw [i1, i3]
  refine congrArg (fun s => max (hs (e4 (ix2 p q)) + (s + be (ix2 0 (e4 (ix2 p q) 1)))) GINE.zero)
    (Finset.sum_congr rfl fun k _ => ?_)
  rw [i0 k, i2 k]
  rfl

/-- A block's loads and its one store go through the whole staging buffer: offsets zero on both axes. -/
theorem zeroOffsets : (![0, 0] : Fin 2 → Nat) = fun _ => 0 := funext fun a => by fin_cases a <;> rfl

end Cert.KernelIdeal.EdgeMsg

end
-- ==== Proof.RegionE0.lean ====
import proofs.«403306_j43559558316462_1_alg».proof.Proof.Gen.KernelIdeal.Frame
import proofs.«403306_j43559558316462_1_alg».proof.Proof.Spec
import proofs.«403306_j43559558316462_1_alg».proof.Proof.EdgeMsgBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The first round's edge messages: from the blocks to the array

The grid has 100 points; point `t` takes rows `8000 t … 8000 t + 7999` of the edge features and of the gathered
rows, the whole weight slab and the whole bias row, and writes rows `8000 t … 8000 t + 7999` of the messages. -/

/-- The printed index maps, decided over the 100 grid points: the edge features, the gathered rows and the
    messages move down one block of rows per point; the weight slab and the bias row are fetched whole. -/
theorem edge0_blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the specification's message array, of the arrays as the region
    finds them. -/
theorem edge0_flushed_eq (c : Dev nD) (t : Fin cfg0.N) :
    (dat0 (F := Ideal) V c).flushed 4 t = ((cfg0.win 4).blk t).view.read (Elt Ideal)
      (GINE.edgeMsg (V c main_arg2) (V c main_v4) (V c main_v6) (GINE.rowOf (V c main_v9))) := by
  show (cfg0.win 4).cut (grid0.coords t) ((dat0 V c).after 4 t) = _
  rw [after0_4]
  unfold out0_4
  rw [View.canon_unit_zero EdgeMsg.zeroOffsets]
  simp only [View.ld_unit_zero (S := S8000x32) EdgeMsg.zeroOffsets, View.ld_unit_zero (S := S32x128) EdgeMsg.zeroOffsets,
    View.ld_unit_zero (S := S1x128) EdgeMsg.zeroOffsets, View.ld_unit_zero (S := S8000x128) EdgeMsg.zeroOffsets]
  obtain ⟨a0, a1, b0, b1, w0, w1, r0, r1, o0, o1⟩ := edge0_blockIndex t
  funext j
  refine EdgeMsg.block_eq k0_pay1 EdgeMsg.payload0_apply (V c main_arg2) (V c main_v4) (V c main_v6) (V c main_v9) t.val
    (fun y => ((cfg0.win 0).blk t).view.emb y) (fun y => ((cfg0.win 1).blk t).view.emb y)
    (fun y => ((cfg0.win 4).blk t).view.emb y) (fun y => ((cfg0.win 2).blk t).view.emb y)
    (fun y => ((cfg0.win 3).blk t).view.emb y) ?_ ?_ ?_ ?_ ?_ ?_ ?_ ?_ ?_ ?_ j
  · intro y; show win0_0.index t (0 : Fin 2) * 8000 + 1 * (y 0).val = _; omega
  · intro y; show win0_0.index t (1 : Fin 2) * 32 + 1 * (y 1).val = _; omega
  · intro y; show win0_1.index t (0 : Fin 2) * 8000 + 1 * (y 0).val = _; omega
  · intro y; show win0_1.index t (1 : Fin 2) * 128 + 1 * (y 1).val = _; omega
  · intro y; show win0_2.index t (0 : Fin 2) * 32 + 1 * (y 0).val = _; omega
  · intro y; show win0_2.index t (1 : Fin 2) * 128 + 1 * (y 1).val = _; omega
  · intro y; show win0_3.index t (0 : Fin 2) * 1 + 1 * (y 0).val = _; omega
  · intro y; show win0_3.index t (1 : Fin 2) * 128 + 1 * (y 1).val = _; omega
  · intro y; show win0_4.index t (0 : Fin 2) * 8000 + 1 * (y 0).val = _; omega
  · intro y; show win0_4.index t (1 : Fin 2) * 128 + 1 * (y 1).val = _; omega

/-- An index of the message array is in point `t`'s block iff each coordinate is in the block's range on its axis. -/
theorem edge0_mem_block (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v10).slice (win0_4.rect t)).set ↔ _
  rw [View.set_slice_whole, Rect.mem_set_unit]
  exact Iff.rfl

/-- Every row of the message array is in the block of the point that its row number divided by 8000 names. -/
theorem edge0_covered (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨a0, a1, b0, b1, w0, w1, r0, r1, o0, o1⟩ := edge0_blockIndex t
  have ht : t.val = (i 0).val / 8000 := rfl
  refine ⟨t, flush0_4 t, ?_⟩
  rw [edge0_mem_block]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

theorem region0 (c : Dev nD) :
    (dat0 (F := Ideal) V c).arrAt 4 cfg0.N
      = GINE.edgeMsg (V c main_arg2) (V c main_v4) (V c main_v6) (GINE.rowOf (V c main_v9)) := by
  exact (dat0 (F := Ideal) V c).arrAt_eq_of_cover 4 _ (fun t _ => edge0_flushed_eq V c t) edge0_covered

end Cert.KernelIdeal.RegionVal

end
-- ==== Proof.NodeMlpBlock.lean ====
/-
  The node perceptron's kernel body at an entry of its block: two [5000,128] × [128,128] block products, each
  followed by a bias row spread over the rows, the first clipped at zero, read at the extended reals, where the
  narrowing to bf16 is the identity. The three rounds of the network print the same body three times.
-/
import proofs.«403306_j43559558316462_1_alg».proof.Proof.Gen.KernelIdeal.Skeleton
import proofs.«403306_j43559558316462_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.NodeMlp

open Idealize.ShloMosaic Idealize.ShloMosaic.TcCoe Idealize.ShloMosaic.ValueIdx Idealize.SL.Sem
open Cert.KernelIdeal Cert.KernelIdeal.Gen

/-! ## The block product at an index -/

/-- On the rows axis the left operand's index is the output's row. -/
theorem lhs_rows (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns axis the left operand's index is the contraction position. -/
theorem lhs_cols (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- On the rows axis the right operand's index is the contraction position. -/
theorem rhs_rows (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- On the columns axis the right operand's index is the output's column. -/
theorem rhs_cols (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] block product into the zero accumulator, at entry (p, q): the row of the left operand
    against the column of the right one. -/
theorem blockProduct_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ => exact lhs_rows _ _
    | ⟨1, _⟩ => exact (lhs_cols _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (rhs_rows _ _).trans hk
    | ⟨1, _⟩ => exact rhs_cols _ _)
  rw [el, er]

/-- A [1,128] row spread over 5000 rows reads, at (p, q), the row's entry q. -/
theorem rowSpread_apply (b : FVec Ideal S1x128 .f32) (p : Fin 5000) (q : Fin 128) :
    broadcastTo S5000x128 b broadcasts_S1x128_S5000x128 (ix2 p q) = b (ix2 0 q) := by
  refine broadcastTo_apply b broadcasts_S1x128_S5000x128 (ix2 p q) (ix2 0 q) fun a => ?_
  match a with
  | ⟨0, _⟩ => rfl
  | ⟨1, _⟩ => rfl

/-- The perceptron kernel's arithmetic at entry (p, q) of its block. -/
theorem mlpBlock_apply (x0 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k1_pay1 (F := Ideal) x0 w1 b1 w2 b2 (ix2 p q)
      = (∑ k : Fin 128, max ((∑ k' : Fin 128, x0 (ix2 p k') * w1 (ix2 k' k)) + b1 (ix2 0 k)) GINE.zero * w2 (ix2 k q)) + b2 (ix2 0 q) := by
  unfold k1_pay1
  simp only [shapeCast_self]
  rw [addf_apply, blockProduct_apply, rowSpread_apply]
  refine congrArg (· + b2 (ix2 0 q)) (Finset.sum_congr rfl fun k _ => ?_)
  rw [truncf_apply, maximumf_apply, addf_apply, blockProduct_apply, rowSpread_apply]
  rfl

/-- The second round's body is the first's. -/
theorem k4_pay1_eq (x0 : Vec Ideal S5000x128 .f32) (w1 : Vec Ideal S128x128 .f32) (b1 : Vec Ideal S1x128 .f32)
    (w2 : Vec Ideal S128x128 .f32) (b2 : Vec Ideal S1x128 .f32) :
    k4_pay1 (F := Ideal) x0 w1 b1 w2 b2 = k1_pay1 (F := Ideal) x0 w1 b1 w2 b2 := rfl

/-- The third round's body is the first's. -/
theorem k7_pay1_eq (x0 : Vec Ideal S5000x128 .f32) (w1 : Vec Ideal S128x128 .f32) (b1 : Vec Ideal S1x128 .f32)
    (w2 : Vec Ideal S128x128 .f32) (b2 : Vec Ideal S1x128 .f32) :
    k7_pay1 (F := Ideal) x0 w1 b1 w2 b2 = k1_pay1 (F := Ideal) x0 w1 b1 w2 b2 := rfl

end Cert.KernelIdeal.NodeMlp

end
-- ==== Proof.RegionM1.lean ====
/-
  Region 1 (the node perceptron of round one): the array the region writes is the specification's perceptron of
  the arrays the region finds. The grid has ten points; point t reads rows 5000·t … 5000·t + 4999 of the node
  table and the four parameter arrays whole, and writes the same rows of the output.
-/
import proofs.«403306_j43559558316462_1_alg».proof.Proof.Gen.KernelIdeal.Frame
import proofs.«403306_j43559558316462_1_alg».proof.Proof.Spec
import proofs.«403306_j43559558316462_1_alg».proof.Proof.NodeMlpBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store sit at the zero offsets of their buffers. -/
theorem mlp1_offsets : (![0, 0] : Fin 2 → Nat) = fun _ => 0 := funext fun a => by fin_cases a <;> rfl

/-- The printed index maps over the grid: the node table's block and the output's are the point's own on the rows
    and block 0 on the columns; each parameter array is block 0 on both axes. -/
theorem mlp1_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's arithmetic at an entry of its block is the specification's perceptron at an entry of the node
    table, when the block's row is the table's row there and the columns agree. -/
theorem mlp1_entry (A : GINE.Node) (W1 : FVec Ideal S128x128 .f32) (B1 : FVec Ideal S1x128 .f32)
    (W2 : FVec Ideal S128x128 .f32) (B2 : FVec Ideal S1x128 .f32) (x0 : Vec Ideal S5000x128 .f32)
    (i : S50000x128.Idx) (j : S5000x128.Idx)
    (hrow : ∀ k : Fin 128, x0 (ix2 (j 0) k) = A (ix2 (i 0) k)) (hcol : j 1 = i 1) :
    k1_pay1 (F := Ideal) x0 W1 B1 W2 B2 j = GINE.mlp A W1 (GINE.rowOf B1) W2 (GINE.rowOf B2) i := by
  obtain ⟨p, q, rfl⟩ : ∃ (p : Fin 5000) (q : Fin 128), j = ix2 p q := ⟨j 0, j 1, eq_ix2 j⟩
  rw [NodeMlp.mlpBlock_apply]
  have hq : q = i 1 := hcol
  subst hq
  unfold GINE.mlp GINE.rowOf
  refine congrArg (· + B2 (ix2 0 (i 1))) (Finset.sum_congr rfl fun k _ => ?_)
  have hs : (∑ k' : Fin 128, x0 (ix2 p k') * W1 (ix2 k' k)) = ∑ k' : Fin 128, A (ix2 (i 0) k') * W1 (ix2 k' k) :=
    Finset.sum_congr rfl fun k' _ => by rw [hrow k']
  rw [hs]

/-- What point t writes back is block t of the perceptron of the arrays the region finds. -/
theorem mlp1_written (c : Dev nD) (t : Fin cfg1.N) :
    (dat1 (F := Ideal) V c).flushed 5 t = ((cfg1.win 5).blk t).view.read (Elt Ideal)
      (GINE.mlp (V c main_v14) (V c main_v16) (GINE.rowOf (V c main_v19)) (V c main_v21) (GINE.rowOf (V c main_v24))) := by
  show (cfg1.win 5).cut (grid1.coords t) ((dat1 (F := Ideal) V c).after 5 t) = _
  rw [after1_5]
  unfold out1_5
  rw [View.canon_unit_zero mlp1_offsets]
  simp only [View.ld_unit_zero (S := S5000x128) mlp1_offsets, View.ld_unit_zero (S := S128x128) mlp1_offsets,
    View.ld_unit_zero (S := S1x128) mlp1_offsets]
  obtain ⟨e00, e01, e10, e11, e20, e21, e30, e31, e40, e41, e50, e51⟩ := mlp1_index t
  have h1 : iblk1 V c 1 t = V c main_v16 := by
    funext y
    show V c main_v16 (((cfg1.win 1).blk t).view.emb y) = V c main_v16 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have h2 : iblk1 V c 2 t = V c main_v19 := by
    funext y
    show V c main_v19 (((cfg1.win 2).blk t).view.emb y) = V c main_v19 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have h3 : iblk1 V c 3 t = V c main_v21 := by
    funext y
    show V c main_v21 (((cfg1.win 3).blk t).view.emb y) = V c main_v21 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : iblk1 V c 4 t = V c main_v24 := by
    funext y
    show V c main_v24 (((cfg1.win 4).blk t).view.emb y) = V c main_v24 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [h1, h2, h3, h4]
  funext j
  refine mlp1_entry (V c main_v14) (V c main_v16) (V c main_v19) (V c main_v21) (V c main_v24) (iblk1 V c 0 t)
    (((cfg1.win 5).blk t).view.emb j) j (fun k => ?_) (Fin.ext ?_)
  · show V c main_v14 (((cfg1.win 0).blk t).view.emb (ix2 (j 0) k)) = V c main_v14 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show (j 1).val = win1_5.index t (1 : Fin 2) * 128 + 1 * (j 1).val
    omega

/-- An entry of the output array is in point t's block iff each coordinate is in the block's range on its axis. -/
theorem mlp1_mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v25).slice (win1_5.rect t)).set ↔ _
  rw [View.set_slice_whole, Rect.mem_set_unit]
  exact Iff.rfl

/-- The ten row blocks fill the output array: row r is in the block of point r / 5000. -/
theorem mlp1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by
    show (i 0).val / 5000 < grid1.N
    rw [N_1]; omega
  obtain ⟨e00, e01, e10, e11, e20, e21, e30, e31, e40, e41, e50, e51⟩ := mlp1_index ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [mlp1_mem_block]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    omega

theorem region1 (c : Dev nD) :
    (dat1 (F := Ideal) V c).arrAt 5 cfg1.N
      = GINE.mlp (V c main_v14) (V c main_v16) (GINE.rowOf (V c main_v19)) (V c main_v21) (GINE.rowOf (V c main_v24)) :=
  (dat1 (F := Ideal) V c).arrAt_eq_of_cover 5 _ (fun t _ => mlp1_written V c t) mlp1_cover

end Cert.KernelIdeal.RegionVal

end
-- ==== Proof.RegionB2.lean ====
import proofs.«403306_j43559558316462_1_alg».proof.Proof.Gen.KernelIdeal.Frame
import proofs.«403306_j43559558316462_1_alg».proof.Proof.Spec
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The normalisation body at one entry of a block

The body of region 2 reads a block of 5000 rows of the perceptron's output, the four parameter rows (mean,
variance, scale, shift) and the same 5000 rows of the round's input, and writes
`max ((z - μ) · rsqrt (σ² + ε) · γ + β) 0 + 0.1 · h` entry by entry: every operation in it is pointwise, the
rows being repeated down the block. -/

/-- The two zero offsets of a whole-buffer load or store, however they are spelt. -/
theorem zero_offsets2 : (![0, 0] : Fin 2 → Nat) = fun _ => 0 := funext fun a => by fin_cases a <;> rfl

/-- A parameter row repeated down the 5000 rows of a block reads the row's entry of the same column. -/
theorem row_repeat_at2 {α : Type} (r : S1x128.Idx → α) (p : Fin 5000) (q : Fin 128) :
    broadcastTo S5000x128 r broadcasts_S1x128_S5000x128 (ix2 p q) = r (ix2 0 q) := by
  refine broadcastTo_apply r broadcasts_S1x128_S5000x128 (ix2 p q) (ix2 0 q) ?_
  intro a
  match a with
  | ⟨0, _⟩ => rfl
  | ⟨1, _⟩ => rfl

/-- The body's stored value at row `p`, column `q` of the block. The variance row is the body's second operand
    and the mean row its third. -/
theorem bn_body_at2 (z : Vec Ideal S5000x128 .f32) (var mu gamma beta : Vec Ideal S1x128 .f32)
    (h : Vec Ideal S5000x128 .f32) (p : Fin 5000) (q : Fin 128) :
    k2_pay1 (F := Ideal) z var mu gamma beta h (ix2 p q)
      = max ((z (ix2 p q) - mu (ix2 0 q)) * Ideal.rsqrt (var (ix2 0 q) + GINE.eps) * gamma (ix2 0 q) + beta (ix2 0 q)) GINE.zero
          + GINE.tenth * h (ix2 p q) := by
  unfold k2_pay1
  simp only [shapeCast_self, addf_apply, mulf_apply, subf_apply, maximumf_apply, broadcast_apply, row_repeat_at2]
  rfl

/-- The body's stored value at an entry `j` of the block is the specification's `bn` at the entry `i` of the node
    table, as soon as the two big blocks hold the tables' values at `i`, the four rows are the whole parameter rows,
    and `i` is in `j`'s column. -/
theorem bn_body_is_spec2 (Z H : GINE.Node) (Mu Var Ga Be : Vec Ideal S1x128 .f32)
    (z h : Vec Ideal S5000x128 .f32) (mu var ga be : Vec Ideal S1x128 .f32) (j : S5000x128.Idx) (i : S50000x128.Idx)
    (hz : z j = Z i) (hh : h j = H i) (hmu : mu = Mu) (hvar : var = Var) (hga : ga = Ga) (hbe : be = Be)
    (hcol : (i 1).val = (j 1).val) :
    k2_pay1 (F := Ideal) z var mu ga be h j
      = GINE.bn Z (GINE.rowOf Mu) (GINE.rowOf Var) (GINE.rowOf Ga) (GINE.rowOf Be) H i := by
  subst hmu hvar hga hbe
  obtain ⟨p, q, rfl⟩ : ∃ (p : Fin 5000) (q : Fin 128), j = ix2 p q := ⟨j 0, j 1, eq_ix2 j⟩
  have hq : i 1 = q := Fin.ext hcol
  rw [bn_body_at2, hz, hh]
  subst hq
  rfl

/-! ## From the blocks to the array -/

/-- Where the windows' blocks sit at grid point `t`, decided over the ten points: the two big inputs move with
    the output, down the rows, block `t` at point `t`; the four parameter rows are fetched whole. -/
theorem block_places2 : ∀ t : Fin cfg2.N,
    win2_0.index t (0 : Fin 2) = win2_6.index t (0 : Fin 2) ∧ win2_0.index t (1 : Fin 2) = 0
    ∧ win2_5.index t (0 : Fin 2) = win2_6.index t (0 : Fin 2) ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = t.val ∧ win2_6.index t (1 : Fin 2) = 0 :=
  (by decide +kernel : ∀ t : Fin grid2.N, _)

/-- The mean row's block at any point is the whole row. -/
theorem mean_block2 (c : Dev nD) (t : Fin cfg2.N) :
    (iblk2 (F := Ideal) V c 1 t : Vec Ideal S1x128 .f32) = V c main_v29 := by
  obtain ⟨-, -, -, -, e0, e1, -⟩ := block_places2 t
  funext y
  show V c main_v29 (((cfg2.win 1).blk t).view.emb y) = V c main_v29 y
  refine congrArg (V c main_v29) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The variance row's block at any point is the whole row. -/
theorem var_block2 (c : Dev nD) (t : Fin cfg2.N) :
    (iblk2 (F := Ideal) V c 2 t : Vec Ideal S1x128 .f32) = V c main_v31 := by
  obtain ⟨-, -, -, -, -, -, e0, e1, -⟩ := block_places2 t
  funext y
  show V c main_v31 (((cfg2.win 2).blk t).view.emb y) = V c main_v31 y
  refine congrArg (V c main_v31) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The scale row's block at any point is the whole row. -/
theorem scale_block2 (c : Dev nD) (t : Fin cfg2.N) :
    (iblk2 (F := Ideal) V c 3 t : Vec Ideal S1x128 .f32) = V c main_v34 := by
  obtain ⟨-, -, -, -, -, -, -, -, e0, e1, -⟩ := block_places2 t
  funext y
  show V c main_v34 (((cfg2.win 3).blk t).view.emb y) = V c main_v34 y
  refine congrArg (V c main_v34) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The shift row's block at any point is the whole row. -/
theorem shift_block2 (c : Dev nD) (t : Fin cfg2.N) :
    (iblk2 (F := Ideal) V c 4 t : Vec Ideal S1x128 .f32) = V c main_v37 := by
  obtain ⟨-, -, -, -, -, -, -, -, -, -, e0, e1, -⟩ := block_places2 t
  funext y
  show V c main_v37 (((cfg2.win 4).blk t).view.emb y) = V c main_v37 y
  refine congrArg (V c main_v37) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point `t` writes back is block `t` of the specification's `bn` of the arrays as the region finds them. -/
theorem written_back2 (c : Dev nD) (t : Fin cfg2.N) :
    (dat2 (F := Ideal) V c).flushed 6 t = ((cfg2.win 6).blk t).view.read (Elt Ideal)
      (GINE.bn (V c main_v25) (GINE.rowOf (V c main_v29)) (GINE.rowOf (V c main_v31)) (GINE.rowOf (V c main_v34)) (GINE.rowOf (V c main_v37)) (V c main_arg0)) := by
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S1x128) zero_offsets2]
  obtain ⟨e00, e01, e50, e51, -, -, -, -, -, -, -, -, e60, e61⟩ := block_places2 t
  funext j
  show k2_pay1 (F := Ideal) (iblk2 V c 0 t) (iblk2 V c 2 t) (iblk2 V c 1 t) (iblk2 V c 3 t) (iblk2 V c 4 t) (iblk2 V c 5 t) j
    = GINE.bn (V c main_v25) (GINE.rowOf (V c main_v29)) (GINE.rowOf (V c main_v31)) (GINE.rowOf (V c main_v34)) (GINE.rowOf (V c main_v37)) (V c main_arg0)
        (((cfg2.win 6).blk t).view.emb j)
  refine bn_body_is_spec2 _ _ _ _ _ _ _ _ _ _ _ _ j _ ?_ ?_ (mean_block2 V c t) (var_block2 V c t) (scale_block2 V c t) (shift_block2 V c t) ?_
  · show V c main_v25 (((cfg2.win 0).blk t).view.emb j) = V c main_v25 (((cfg2.win 6).blk t).view.emb j)
    refine congrArg (V c main_v25) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  · show V c main_arg0 (((cfg2.win 5).blk t).view.emb j) = V c main_arg0 (((cfg2.win 6).blk t).view.emb j)
    refine congrArg (V c main_arg0) (funext fun a => Fin.ext ?_)
    match a with
    | ⟨0, _⟩ => show win2_5.index t (0 : Fin 2) * 5000 + 1 * (j 0).val = win2_6.index t (0 : Fin 2) * 5000 + 1 * (j 0).val; omega
    | ⟨1, _⟩ => show win2_5.index t (1 : Fin 2) * 128 + 1 * (j 1).val = win2_6.index t (1 : Fin 2) * 128 + 1 * (j 1).val; omega
  · show win2_6.index t (1 : Fin 2) * 128 + 1 * (j 1).val = (j 1).val
    omega

/-- An entry of the node table is in point `t`'s output block iff each coordinate is in the block's range. -/
theorem mem_out_block2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v38).slice (win2_6.rect t)).set ↔ _
  rw [View.set_slice_whole, Rect.mem_set_unit]
  exact Iff.rfl

/-- Every entry of the node table is in some point's output block: row `r` in that of point `r / 5000`. -/
theorem out_blocks_cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 5000 < cfg2.N := by show _ < grid2.N; rw [N_2]; omega
  refine ⟨⟨(i 0).val / 5000, hN⟩, flush2_6 _, ?_⟩
  obtain ⟨-, -, -, -, -, -, -, -, -, -, -, -, e60, e61⟩ := block_places2 ⟨(i 0).val / 5000, hN⟩
  have e60' : win2_6.index ⟨(i 0).val / 5000, hN⟩ (0 : Fin 2) = (i 0).val / 5000 := e60
  rw [mem_out_block2]
  intro a
  match a with
  | ⟨0, _⟩ => show win2_6.index ⟨(i 0).val / 5000, hN⟩ (0 : Fin 2) * 5000 ≤ (i 0).val ∧ (i 0).val < win2_6.index ⟨(i 0).val / 5000, hN⟩ (0 : Fin 2) * 5000 + 5000; omega
  | ⟨1, _⟩ => show win2_6.index ⟨(i 0).val / 5000, hN⟩ (1 : Fin 2) * 128 ≤ (i 1).val ∧ (i 1).val < win2_6.index ⟨(i 0).val / 5000, hN⟩ (1 : Fin 2) * 128 + 128; omega

theorem region2 (c : Dev nD) :
    (dat2 (F := Ideal) V c).arrAt 6 cfg2.N
      = GINE.bn (V c main_v25) (GINE.rowOf (V c main_v29)) (GINE.rowOf (V c main_v31)) (GINE.rowOf (V c main_v34)) (GINE.rowOf (V c main_v37)) (V c main_arg0) := by
  exact (dat2 (F := Ideal) V c).arrAt_eq_of_cover 6 _ (fun t _ => written_back2 V c t) out_blocks_cover2

end Cert.KernelIdeal.RegionVal

end
-- ==== Proof.KLayer0.lean ====
import proofs.«403306_j43559558316462_1_alg».proof.Proof.KCommon
import proofs.«403306_j43559558316462_1_alg».proof.Proof.InRange
import proofs.«403306_j43559558316462_1_alg».proof.Proof.RegionE0
import proofs.«403306_j43559558316462_1_alg».proof.Proof.RegionM1
import proofs.«403306_j43559558316462_1_alg».proof.Proof.RegionB2

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace L0

/-! ## What each stretch of host operations writes

Round 0 runs seven stretches of host operations and three kernel regions. Each stretch writes the buffers of
its own list and no other, so every other buffer holds after it what it held before. -/

abbrev wr0 : List (Ref sig .tc) := [main_v0, main_v1, main_v2, main_v3]
abbrev wr0_1 : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v4]
abbrev wr0_2 : List (Ref sig .tc) := [main_v5, main_v6, main_v7, main_v8, main_v9]
abbrev wr1 : List (Ref sig .tc) :=
  [main_cst, main_v11, main_v12, main_v13, main_v14, main_v15, main_v16, main_v17, main_v18, main_v19, main_v20, main_v21,
    main_v22, main_v23, main_v24]
abbrev wr2 : List (Ref sig .tc) := [main_cst_0, main_v26, main_cst_1, main_v27, main_v28, main_v29, main_c]
abbrev wr2_1 : List (Ref sig .tc) :=
  [main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10,
    main_call1_v11, main_call1_cst_3, main_call1_v12, main_call1_cst_4, main_call1_call0_v0, main_call1_call0_v1, main_v30]
abbrev wr2_2 : List (Ref sig .tc) := [main_v31, main_v32, main_v33, main_v34, main_v35, main_v36, main_v37]

/-- Every operation of a stretch writes one buffer, and that buffer is in the stretch's list. -/
local macro "writes_in_list" : tactic =>
  `(tactic| (simp only [List.Forall]
             simp only [StableHlo.nullary_writes, StableHlo.unary_writes, StableHlo.binary_writes, StableHlo.ternary_writes,
               StableHlo.reshape_writes, Finset.singleton_subset_iff, List.mem_toFinset]
             repeat' apply And.intro
             all_goals exact List.mem_map_of_mem (by decide)))

theorem wr0_sub : (hostOps0 : List (HloOp τ sig (Elt Ideal))).Forall fun op => op.writes ⊆ (wr0.map (Proc.devRef (τ := τ) .tc)).toFinset := by
  writes_in_list
theorem wr0_1_sub : (hostOps0_1 : List (HloOp τ sig (Elt Ideal))).Forall fun op => op.writes ⊆ (wr0_1.map (Proc.devRef (τ := τ) .tc)).toFinset := by
  writes_in_list
theorem wr0_2_sub : (hostOps0_2 : List (HloOp τ sig (Elt Ideal))).Forall fun op => op.writes ⊆ (wr0_2.map (Proc.devRef (τ := τ) .tc)).toFinset := by
  writes_in_list
theorem wr1_sub : (hostOps1 : List (HloOp τ sig (Elt Ideal))).Forall fun op => op.writes ⊆ (wr1.map (Proc.devRef (τ := τ) .tc)).toFinset := by
  writes_in_list
theorem wr2_sub : (hostOps2 : List (HloOp τ sig (Elt Ideal))).Forall fun op => op.writes ⊆ (wr2.map (Proc.devRef (τ := τ) .tc)).toFinset := by
  writes_in_list
theorem wr2_1_sub : (hostOps2_1 : List (HloOp τ sig (Elt Ideal))).Forall fun op => op.writes ⊆ (wr2_1.map (Proc.devRef (τ := τ) .tc)).toFinset := by
  writes_in_list
theorem wr2_2_sub : (hostOps2_2 : List (HloOp τ sig (Elt Ideal))).Forall fun op => op.writes ⊆ (wr2_2.map (Proc.devRef (τ := τ) .tc)).toFinset := by
  writes_in_list

/-! ## What each stretch leaves in the buffers the round reads later, over any contents `X` at its start -/

/-- The first stretch cuts the source row out of the edge list. -/
theorem s0_src (X : Valuation τ sig (Elt Ideal)) :
    StableHlo.after hostOps0 X (Proc.devRef .tc main_v1) = GINE.edgeRow 0 (X (Proc.devRef .tc main_arg1)) := by
  after_results
  rfl
/-- The first stretch cuts the target row out of the edge list. -/
theorem s0_dst (X : Valuation τ sig (Elt Ideal)) :
    StableHlo.after hostOps0 X (Proc.devRef .tc main_v3) = GINE.edgeRow 1 (X (Proc.devRef .tc main_arg1)) := by
  after_results
  rfl

attribute [local irreducible] Host.reduce Host.gather Host.reduceAdd in
/-- The second stretch is the guarded row gather of the node table at the source row. -/
theorem s0_take (X : Valuation τ sig (Elt Ideal)) :
    StableHlo.after hostOps0_1 X (Proc.devRef .tc main_v4)
      = takeK (X (Proc.devRef .tc main_arg0)) (X (Proc.devRef .tc main_v1)) := by
  after_results_simp
  simp only [ofBuf_toBuf]
  rfl

/-- The third stretch cuts round 0's slab out of the stacked edge weights. -/
theorem s02_we (X : Valuation τ sig (Elt Ideal)) :
    StableHlo.after hostOps0_2 X (Proc.devRef .tc main_v6) = GINE.slab32 0 (X (Proc.devRef .tc main_arg3)) := by
  after_results
  rfl
/-- The third stretch cuts round 0's row out of the stacked edge biases and casts it to one row. -/
theorem s02_be (X : Valuation τ sig (Elt Ideal)) :
    StableHlo.after hostOps0_2 X (Proc.devRef .tc main_v9)
      = shapeCast GINE.S1x128 (GINE.prow 0 (X (Proc.devRef .tc main_arg4))) shapeCasts_S128_S1x128 := by
  after_results
  rfl

attribute [local irreducible] Host.scatterAdd in
/-- The fourth stretch sums the messages into their target rows and adds the node table. -/
theorem s1_sum (X : Valuation τ sig (Elt Ideal)) :
    StableHlo.after hostOps1 X (Proc.devRef .tc main_v14)
      = addf (X (Proc.devRef .tc main_arg0)) (GINE.segsum (X (Proc.devRef .tc main_v3)) (X (Proc.devRef .tc main_v10))) := by
  after_results
  rfl
/-- The fourth stretch cuts round 0's slabs and rows out of the perceptron's stacked parameters. -/
theorem s1_w1 (X : Valuation τ sig (Elt Ideal)) :
    StableHlo.after hostOps1 X (Proc.devRef .tc main_v16) = GINE.slab128 0 (X (Proc.devRef .tc main_arg5)) := by
  after_results
  rfl
theorem s1_b1 (X : Valuation τ sig (Elt Ideal)) :
    StableHlo.after hostOps1 X (Proc.devRef .tc main_v19)
      = shapeCast GINE.S1x128 (GINE.prow 0 (X (Proc.devRef .tc main_arg6))) shapeCasts_S128_S1x128 := by
  after_results
  rfl
theorem s1_w2 (X : Valuation τ sig (Elt Ideal)) :
    StableHlo.after hostOps1 X (Proc.devRef .tc main_v21) = GINE.slab128 0 (X (Proc.devRef .tc main_arg7)) := by
  after_results
  rfl
theorem s1_b2 (X : Valuation τ sig (Elt Ideal)) :
    StableHlo.after hostOps1 X (Proc.devRef .tc main_v24)
      = shapeCast GINE.S1x128 (GINE.prow 0 (X (Proc.devRef .tc main_arg8))) shapeCasts_S128_S1x128 := by
  after_results
  rfl

attribute [local irreducible] Host.reduceAdd in
/-- The fifth stretch takes the column mean of the perceptron's output and casts it to one row. -/
theorem s2_mean (X : Valuation τ sig (Elt Ideal)) :
    StableHlo.after hostOps2 X (Proc.devRef .tc main_v29)
      = shapeCast GINE.S1x128 (GINE.colMean (X (Proc.devRef .tc main_v25))) shapeCasts_S128_S1x128 := by
  after_results
  rfl
/-- The fifth stretch also sets the integer constant the variance reads to zero. -/
theorem s2_zero (X : Valuation τ sig (Elt Ideal)) :
    StableHlo.after hostOps2 X (Proc.devRef .tc main_c) = constantI GINE.S_ 32 0#32 := by
  after_results

/-- The kernel program's variance chain over the integer constant it reads from a buffer. -/
def varK (z : GINE.Node) (cI : IVec GINE.S_ 32) : GINE.Col :=
  let d : FVec Ideal GINE.S_ .f32 := subf (constant GINE.S_ .f32 0x47435000#32) (sitofp .f32 cI)
  let ctr : GINE.Node := subf z (broadcastInDim GINE.S50000x128 ![0, 1] GINE.bc_S1x128_S50000x128
    (Host.divf (broadcastInDim GINE.S1x128 ![1] GINE.bc_S128_S1x128 (Host.reduceAdd z (constant GINE.S_ .f32 0x00000000#32) GINE.red_S50000x128_S128 GINE.pos_S_))
      (broadcastInDim GINE.S1x128 ![] GINE.bc_S__S1x128 (constant GINE.S_ .f32 0x47435000#32))))
  select (broadcastInDim GINE.S128 ![] GINE.bc_S__S128 (cmpf .ogt d (constant GINE.S_ .f32 0x00000000#32)))
    (Host.divf (Host.reduceAdd (mulf ctr ctr) (constant GINE.S_ .f32 0x00000000#32) GINE.red_S50000x128_S128 GINE.pos_S_)
      (broadcastInDim GINE.S128 ![] GINE.bc_S__S128 d))
    (broadcastInDim GINE.S128 ![] GINE.bc_S__S128 (id (constant GINE.S_ .f32 0x7FC00000#32)))

/-- At the integer zero the chain is the specification's column variance. -/
theorem varK_zero (z : GINE.Node) : varK z (constantI GINE.S_ 32 0#32) = GINE.colVar z := rfl

attribute [local irreducible] Host.reduce Host.gather Host.reduceAdd in
/-- The sixth stretch is the variance chain of the perceptron's output. -/
theorem s21_var (X : Valuation τ sig (Elt Ideal)) :
    StableHlo.after hostOps2_1 X (Proc.devRef .tc main_v30)
      = varK (X (Proc.devRef .tc main_v25)) (X (Proc.devRef .tc main_c)) := by
  after_results_simp
  simp only [ofBuf_toBuf]
  rfl

/-- The seventh stretch casts the variance to one row and cuts round 0's rows out of the stacked scale and shift. -/
theorem s22_var (X : Valuation τ sig (Elt Ideal)) :
    StableHlo.after hostOps2_2 X (Proc.devRef .tc main_v31)
      = shapeCast GINE.S1x128 (X (Proc.devRef .tc main_v30) : GINE.Col) shapeCasts_S128_S1x128 := by
  after_results
  rfl
theorem s22_gamma (X : Valuation τ sig (Elt Ideal)) :
    StableHlo.after hostOps2_2 X (Proc.devRef .tc main_v34)
      = shapeCast GINE.S1x128 (GINE.prow 0 (X (Proc.devRef .tc main_arg9))) shapeCasts_S128_S1x128 := by
  after_results
  rfl
theorem s22_beta (X : Valuation τ sig (Elt Ideal)) :
    StableHlo.after hostOps2_2 X (Proc.devRef .tc main_v37)
      = shapeCast GINE.S1x128 (GINE.prow 0 (X (Proc.devRef .tc main_arg10))) shapeCasts_S128_S1x128 := by
  after_results
  rfl

/-- A column vector cast to one row and read back as a column is itself. -/
theorem rowOf_cast (x : GINE.Col) (h : GINE.S128.ShapeCasts GINE.S1x128) : GINE.rowOf (shapeCast GINE.S1x128 x h) = x := by
  funext j
  obtain ⟨a, rfl⟩ : ∃ a : Fin 128, j = ix1 a := ⟨j 0, eq_ix1 j⟩
  exact shapeCast_a_1a_apply x h 0 a

/-! ## The buffers a round carries along: the eleven argument arrays and the two rows of the edge list -/

abbrev kept : List (Ref sig .tc) :=
  [main_arg0, main_arg1, main_arg2, main_arg3, main_arg4, main_arg5, main_arg6, main_arg7, main_arg8, main_arg9, main_arg10,
    main_v1, main_v3]

/-- Contents that agree with kept ones on the carried buffers are kept. -/
theorem carry {W W' : Dev nD → Valuation τ sig (Elt Ideal)} {c : Dev nD} (h : Keeps m W c)
    (e : ∀ r ∈ kept, W' c (Proc.devRef .tc r) = W c (Proc.devRef .tc r)) : Keeps m W' c where
  a0 := (e main_arg0 (by decide)).trans h.a0
  a1 := (e main_arg1 (by decide)).trans h.a1
  a2 := (e main_arg2 (by decide)).trans h.a2
  a3 := (e main_arg3 (by decide)).trans h.a3
  a4 := (e main_arg4 (by decide)).trans h.a4
  a5 := (e main_arg5 (by decide)).trans h.a5
  a6 := (e main_arg6 (by decide)).trans h.a6
  a7 := (e main_arg7 (by decide)).trans h.a7
  a8 := (e main_arg8 (by decide)).trans h.a8
  a9 := (e main_arg9 (by decide)).trans h.a9
  a10 := (e main_arg10 (by decide)).trans h.a10
  src := (e main_v1 (by decide)).trans h.src
  dst := (e main_v3 (by decide)).trans h.dst

/-- No stretch after the first writes a carried buffer. -/
theorem kept_wr0_1 : ∀ r ∈ kept, r ∉ wr0_1 := by decide
theorem kept_wr0_2 : ∀ r ∈ kept, r ∉ wr0_2 := by decide
theorem kept_wr1 : ∀ r ∈ kept, r ∉ wr1 := by decide
theorem kept_wr2 : ∀ r ∈ kept, r ∉ wr2 := by decide
theorem kept_wr2_1 : ∀ r ∈ kept, r ∉ wr2_1 := by decide
theorem kept_wr2_2 : ∀ r ∈ kept, r ∉ wr2_2 := by decide

/-! ## The carried buffers at every boundary of the round -/

/-- After the first stretch the arguments are as launched and the two edge rows have been cut out. -/
theorem keeps1 (c : Dev nD) : Keeps m (W1 m ρ) c where
  a0 := StableHlo.after_of_writes_sub hostOps0 (W0 m ρ c) wr0_sub (by decide)
  a1 := StableHlo.after_of_writes_sub hostOps0 (W0 m ρ c) wr0_sub (by decide)
  a2 := StableHlo.after_of_writes_sub hostOps0 (W0 m ρ c) wr0_sub (by decide)
  a3 := StableHlo.after_of_writes_sub hostOps0 (W0 m ρ c) wr0_sub (by decide)
  a4 := StableHlo.after_of_writes_sub hostOps0 (W0 m ρ c) wr0_sub (by decide)
  a5 := StableHlo.after_of_writes_sub hostOps0 (W0 m ρ c) wr0_sub (by decide)
  a6 := StableHlo.after_of_writes_sub hostOps0 (W0 m ρ c) wr0_sub (by decide)
  a7 := StableHlo.after_of_writes_sub hostOps0 (W0 m ρ c) wr0_sub (by decide)
  a8 := StableHlo.after_of_writes_sub hostOps0 (W0 m ρ c) wr0_sub (by decide)
  a9 := StableHlo.after_of_writes_sub hostOps0 (W0 m ρ c) wr0_sub (by decide)
  a10 := StableHlo.after_of_writes_sub hostOps0 (W0 m ρ c) wr0_sub (by decide)
  src := s0_src (W0 m ρ c)
  dst := s0_dst (W0 m ρ c)

theorem keeps2 (c : Dev nD) : Keeps m (W2 m ρ) c :=
  carry m (keeps1 m ρ c) fun r hr => StableHlo.after_of_writes_sub hostOps0_1 (W1 m ρ c) wr0_1_sub (kept_wr0_1 r hr)

theorem keeps3 (c : Dev nD) : Keeps m (W3 m ρ) c :=
  carry m (keeps2 m ρ c) fun r hr => StableHlo.after_of_writes_sub hostOps0_2 (W2 m ρ c) wr0_2_sub (kept_wr0_2 r hr)

/-- Region 0 reads the edge features through an input window, which the pipeline leaves as it was; it touches no other
    carried buffer. -/
theorem keeps4 (c : Dev nD) : Keeps m (W4 m ρ) c where
  a0 := (W4_of_ne m ρ c main_arg0 (by decide)).trans (keeps3 m ρ c).a0
  a1 := (W4_of_ne m ρ c main_arg1 (by decide)).trans (keeps3 m ρ c).a1
  a2 := ((W4_arr m ρ c 0).trans (((dat0 (V3 m ρ) c).arrAt_in 0 rfl _).trans (A_eq0 (V3 m ρ) c 0))).trans (keeps3 m ρ c).a2
  a3 := (W4_of_ne m ρ c main_arg3 (by decide)).trans (keeps3 m ρ c).a3
  a4 := (W4_of_ne m ρ c main_arg4 (by decide)).trans (keeps3 m ρ c).a4
  a5 := (W4_of_ne m ρ c main_arg5 (by decide)).trans (keeps3 m ρ c).a5
  a6 := (W4_of_ne m ρ c main_arg6 (by decide)).trans (keeps3 m ρ c).a6
  a7 := (W4_of_ne m ρ c main_arg7 (by decide)).trans (keeps3 m ρ c).a7
  a8 := (W4_of_ne m ρ c main_arg8 (by decide)).trans (keeps3 m ρ c).a8
  a9 := (W4_of_ne m ρ c main_arg9 (by decide)).trans (keeps3 m ρ c).a9
  a10 := (W4_of_ne m ρ c main_arg10 (by decide)).trans (keeps3 m ρ c).a10
  src := (W4_of_ne m ρ c main_v1 (by decide)).trans (keeps3 m ρ c).src
  dst := (W4_of_ne m ρ c main_v3 (by decide)).trans (keeps3 m ρ c).dst

theorem keeps5 (c : Dev nD) : Keeps m (W5 m ρ) c :=
  carry m (keeps4 m ρ c) fun r hr => StableHlo.after_of_writes_sub hostOps1 (W4 m ρ c) wr1_sub (kept_wr1 r hr)

/-- Region 1 touches no carried buffer. -/
theorem keeps6 (c : Dev nD) : Keeps m (W6 m ρ) c where
  a0 := (W6_of_ne m ρ c main_arg0 (by decide)).trans (keeps5 m ρ c).a0
  a1 := (W6_of_ne m ρ c main_arg1 (by decide)).trans (keeps5 m ρ c).a1
  a2 := (W6_of_ne m ρ c main_arg2 (by decide)).trans (keeps5 m ρ c).a2
  a3 := (W6_of_ne m ρ c main_arg3 (by decide)).trans (keeps5 m ρ c).a3
  a4 := (W6_of_ne m ρ c main_arg4 (by decide)).trans (keeps5 m ρ c).a4
  a5 := (W6_of_ne m ρ c main_arg5 (by decide)).trans (keeps5 m ρ c).a5
  a6 := (W6_of_ne m ρ c main_arg6 (by decide)).trans (keeps5 m ρ c).a6
  a7 := (W6_of_ne m ρ c main_arg7 (by decide)).trans (keeps5 m ρ c).a7
  a8 := (W6_of_ne m ρ c main_arg8 (by decide)).trans (keeps5 m ρ c).a8
  a9 := (W6_of_ne m ρ c main_arg9 (by decide)).trans (keeps5 m ρ c).a9
  a10 := (W6_of_ne m ρ c main_arg10 (by decide)).trans (keeps5 m ρ c).a10
  src := (W6_of_ne m ρ c main_v1 (by decide)).trans (keeps5 m ρ c).src
  dst := (W6_of_ne m ρ c main_v3 (by decide)).trans (keeps5 m ρ c).dst

theorem keeps7 (c : Dev nD) : Keeps m (W7 m ρ) c :=
  carry m (keeps6 m ρ c) fun r hr => StableHlo.after_of_writes_sub hostOps2 (W6 m ρ c) wr2_sub (kept_wr2 r hr)

theorem keeps8 (c : Dev nD) : Keeps m (W8 m ρ) c :=
  carry m (keeps7 m ρ c) fun r hr => StableHlo.after_of_writes_sub hostOps2_1 (W7 m ρ c) wr2_1_sub (kept_wr2_1 r hr)

theorem keeps9 (c : Dev nD) : Keeps m (W9 m ρ) c :=
  carry m (keeps8 m ρ c) fun r hr => StableHlo.after_of_writes_sub hostOps2_2 (W8 m ρ c) wr2_2_sub (kept_wr2_2 r hr)

/-- Region 2 reads the round's input table through an input window, which the pipeline leaves as it was; it touches no
    other carried buffer. -/
theorem keeps10 (c : Dev nD) : Keeps m (W10 m ρ) c where
  a0 := ((W10_arr m ρ c 5).trans (((dat2 (V9 m ρ) c).arrAt_in 5 rfl _).trans (A_eq2 (V9 m ρ) c 5))).trans (keeps9 m ρ c).a0
  a1 := (W10_of_ne m ρ c main_arg1 (by decide)).trans (keeps9 m ρ c).a1
  a2 := (W10_of_ne m ρ c main_arg2 (by decide)).trans (keeps9 m ρ c).a2
  a3 := (W10_of_ne m ρ c main_arg3 (by decide)).trans (keeps9 m ρ c).a3
  a4 := (W10_of_ne m ρ c main_arg4 (by decide)).trans (keeps9 m ρ c).a4
  a5 := (W10_of_ne m ρ c main_arg5 (by decide)).trans (keeps9 m ρ c).a5
  a6 := (W10_of_ne m ρ c main_arg6 (by decide)).trans (keeps9 m ρ c).a6
  a7 := (W10_of_ne m ρ c main_arg7 (by decide)).trans (keeps9 m ρ c).a7
  a8 := (W10_of_ne m ρ c main_arg8 (by decide)).trans (keeps9 m ρ c).a8
  a9 := (W10_of_ne m ρ c main_arg9 (by decide)).trans (keeps9 m ρ c).a9
  a10 := (W10_of_ne m ρ c main_arg10 (by decide)).trans (keeps9 m ρ c).a10
  src := (W10_of_ne m ρ c main_v1 (by decide)).trans (keeps9 m ρ c).src
  dst := (W10_of_ne m ρ c main_v3 (by decide)).trans (keeps9 m ρ c).dst

/-! ## The values of the round, boundary by boundary -/

/-- Round 0's edge messages, from the launch contents. -/
def msg0 (c : Dev nD) : GINE.Edge :=
  GINE.edgeMsg (m ((c : Thread nD τ).loc main_arg2))
    (GINE.rows (m ((c : Thread nD τ).loc main_arg0)) (GINE.edgeRow 0 (m ((c : Thread nD τ).loc main_arg1))))
    (GINE.slab32 0 (m ((c : Thread nD τ).loc main_arg3))) (GINE.prow 0 (m ((c : Thread nD τ).loc main_arg4)))

/-- Round 0's perceptron output, from the launch contents. -/
def z0 (c : Dev nD) : GINE.Node :=
  GINE.mlp (addf (m ((c : Thread nD τ).loc main_arg0)) (GINE.segsum (GINE.edgeRow 1 (m ((c : Thread nD τ).loc main_arg1))) (msg0 m c)))
    (GINE.slab128 0 (m ((c : Thread nD τ).loc main_arg5))) (GINE.prow 0 (m ((c : Thread nD τ).loc main_arg6)))
    (GINE.slab128 0 (m ((c : Thread nD τ).loc main_arg7))) (GINE.prow 0 (m ((c : Thread nD τ).loc main_arg8)))

variable (c : Dev nD) (hok : GINE.SrcOK (GINE.edgeRow 0 (m ((c : Thread nD τ).loc main_arg1))))
include hok

/-- Every source number being a row of the table, the guarded gather is the plain row gather of the launch table. -/
theorem w2_take : W2 m ρ c (Proc.devRef .tc main_v4)
    = GINE.rows (m ((c : Thread nD τ).loc main_arg0)) (GINE.edgeRow 0 (m ((c : Thread nD τ).loc main_arg1))) := by
  refine (s0_take (W1 m ρ c)).trans ?_
  rw [(keeps1 m ρ c).a0, (keeps1 m ρ c).src]
  exact takeK_eq _ _ hok

theorem w3_take : W3 m ρ c (Proc.devRef .tc main_v4)
    = GINE.rows (m ((c : Thread nD τ).loc main_arg0)) (GINE.edgeRow 0 (m ((c : Thread nD τ).loc main_arg1))) :=
  (StableHlo.after_of_writes_sub hostOps0_2 (W2 m ρ c) wr0_2_sub (by decide)).trans (w2_take m ρ c hok)

omit hok in
theorem w3_we : W3 m ρ c (Proc.devRef .tc main_v6) = GINE.slab32 0 (m ((c : Thread nD τ).loc main_arg3)) := by
  refine (s02_we (W2 m ρ c)).trans ?_
  rw [(keeps2 m ρ c).a3]

omit hok in
theorem w3_be : W3 m ρ c (Proc.devRef .tc main_v9)
    = shapeCast GINE.S1x128 (GINE.prow 0 (m ((c : Thread nD τ).loc main_arg4))) shapeCasts_S128_S1x128 := by
  refine (s02_be (W2 m ρ c)).trans ?_
  rw [(keeps2 m ρ c).a4]

/-- Region 0 leaves the edge messages of the launch contents in its output array. -/
theorem w4_msg : W4 m ρ c (Proc.devRef .tc main_v10) = msg0 m c := by
  refine (W4_arr m ρ c 4).trans ((RegionVal.region0 (V3 m ρ) c).trans ?_)
  show GINE.edgeMsg (W3 m ρ c (Proc.devRef .tc main_arg2)) (W3 m ρ c (Proc.devRef .tc main_v4)) (W3 m ρ c (Proc.devRef .tc main_v6))
    (GINE.rowOf (W3 m ρ c (Proc.devRef .tc main_v9))) = _
  rw [(keeps3 m ρ c).a2, w3_take m ρ c hok, w3_we m ρ c, w3_be m ρ c, rowOf_cast]
  rfl

theorem w5_sum : W5 m ρ c (Proc.devRef .tc main_v14)
    = addf (m ((c : Thread nD τ).loc main_arg0)) (GINE.segsum (GINE.edgeRow 1 (m ((c : Thread nD τ).loc main_arg1))) (msg0 m c)) := by
  refine (s1_sum (W4 m ρ c)).trans ?_
  rw [(keeps4 m ρ c).a0, (keeps4 m ρ c).dst, w4_msg m ρ c hok]

omit hok in
theorem w5_w1 : W5 m ρ c (Proc.devRef .tc main_v16) = GINE.slab128 0 (m ((c : Thread nD τ).loc main_arg5)) := by
  refine (s1_w1 (W4 m ρ c)).trans ?_
  rw [(keeps4 m ρ c).a5]
omit hok in
theorem w5_b1 : W5 m ρ c (Proc.devRef .tc main_v19)
    = shapeCast GINE.S1x128 (GINE.prow 0 (m ((c : Thread nD τ).loc main_arg6))) shapeCasts_S128_S1x128 := by
  refine (s1_b1 (W4 m ρ c)).trans ?_
  rw [(keeps4 m ρ c).a6]
omit hok in
theorem w5_w2 : W5 m ρ c (Proc.devRef .tc main_v21) = GINE.slab128 0 (m ((c : Thread nD τ).loc main_arg7)) := by
  refine (s1_w2 (W4 m ρ c)).trans ?_
  rw [(keeps4 m ρ c).a7]
omit hok in
theorem w5_b2 : W5 m ρ c (Proc.devRef .tc main_v24)
    = shapeCast GINE.S1x128 (GINE.prow 0 (m ((c : Thread nD τ).loc main_arg8))) shapeCasts_S128_S1x128 := by
  refine (s1_b2 (W4 m ρ c)).trans ?_
  rw [(keeps4 m ρ c).a8]

/-- Region 1 leaves the perceptron of the launch contents in its output array. -/
theorem w6_z : W6 m ρ c (Proc.devRef .tc main_v25) = z0 m c := by
  refine (W6_arr m ρ c 5).trans ((RegionVal.region1 (V5 m ρ) c).trans ?_)
  show GINE.mlp (W5 m ρ c (Proc.devRef .tc main_v14)) (W5 m ρ c (Proc.devRef .tc main_v16)) (GINE.rowOf (W5 m ρ c (Proc.devRef .tc main_v19)))
    (W5 m ρ c (Proc.devRef .tc main_v21)) (GINE.rowOf (W5 m ρ c (Proc.devRef .tc main_v24))) = _
  rw [w5_sum m ρ c hok, w5_w1 m ρ c, w5_b1 m ρ c, w5_w2 m ρ c, w5_b2 m ρ c, rowOf_cast, rowOf_cast]
  rfl

theorem w7_z : W7 m ρ c (Proc.devRef .tc main_v25) = z0 m c :=
  (StableHlo.after_of_writes_sub hostOps2 (W6 m ρ c) wr2_sub (by decide)).trans (w6_z m ρ c hok)
theorem w7_mean : W7 m ρ c (Proc.devRef .tc main_v29) = shapeCast GINE.S1x128 (GINE.colMean (z0 m c)) shapeCasts_S128_S1x128 := by
  refine (s2_mean (W6 m ρ c)).trans ?_
  rw [w6_z m ρ c hok]
omit hok in
theorem w7_zero : W7 m ρ c (Proc.devRef .tc main_c) = constantI GINE.S_ 32 0#32 := s2_zero (W6 m ρ c)

theorem w8_z : W8 m ρ c (Proc.devRef .tc main_v25) = z0 m c :=
  (StableHlo.after_of_writes_sub hostOps2_1 (W7 m ρ c) wr2_1_sub (by decide)).trans (w7_z m ρ c hok)
theorem w8_mean : W8 m ρ c (Proc.devRef .tc main_v29) = shapeCast GINE.S1x128 (GINE.colMean (z0 m c)) shapeCasts_S128_S1x128 :=
  (StableHlo.after_of_writes_sub hostOps2_1 (W7 m ρ c) wr2_1_sub (by decide)).trans (w7_mean m ρ c hok)
/-- The variance chain reads the integer zero, so it is the column variance of the perceptron's output. -/
theorem w8_var : W8 m ρ c (Proc.devRef .tc main_v30) = GINE.colVar (z0 m c) := by
  refine (s21_var (W7 m ρ c)).trans ?_
  rw [w7_z m ρ c hok, w7_zero m ρ c]
  exact varK_zero _

theorem w9_z : W9 m ρ c (Proc.devRef .tc main_v25) = z0 m c :=
  (StableHlo.after_of_writes_sub hostOps2_2 (W8 m ρ c) wr2_2_sub (by decide)).trans (w8_z m ρ c hok)
theorem w9_mean : W9 m ρ c (Proc.devRef .tc main_v29) = shapeCast GINE.S1x128 (GINE.colMean (z0 m c)) shapeCasts_S128_S1x128 :=
  (StableHlo.after_of_writes_sub hostOps2_2 (W8 m ρ c) wr2_2_sub (by decide)).trans (w8_mean m ρ c hok)
theorem w9_var : W9 m ρ c (Proc.devRef .tc main_v31) = shapeCast GINE.S1x128 (GINE.colVar (z0 m c)) shapeCasts_S128_S1x128 := by
  refine (s22_var (W8 m ρ c)).trans ?_
  rw [w8_var m ρ c hok]
omit hok in
theorem w9_gamma : W9 m ρ c (Proc.devRef .tc main_v34)
    = shapeCast GINE.S1x128 (GINE.prow 0 (m ((c : Thread nD τ).loc main_arg9))) shapeCasts_S128_S1x128 := by
  refine (s22_gamma (W8 m ρ c)).trans ?_
  rw [(keeps8 m ρ c).a9]
omit hok in
theorem w9_beta : W9 m ρ c (Proc.devRef .tc main_v37)
    = shapeCast GINE.S1x128 (GINE.prow 0 (m ((c : Thread nD τ).loc main_arg10))) shapeCasts_S128_S1x128 := by
  refine (s22_beta (W8 m ρ c)).trans ?_
  rw [(keeps8 m ρ c).a10]

omit hok in
/-- Round 0 is the normalisation of its perceptron output by that output's own column statistics. -/
theorem layerK_zero : layerK m 0 c (m ((c : Thread nD τ).loc main_arg0))
    = GINE.bn (z0 m c) (GINE.colMean (z0 m c)) (GINE.colVar (z0 m c)) (GINE.prow 0 (m ((c : Thread nD τ).loc main_arg9)))
        (GINE.prow 0 (m ((c : Thread nD τ).loc main_arg10))) (m ((c : Thread nD τ).loc main_arg0)) := rfl

/-- Region 2 leaves round 0 of the launch node table in its output array. -/
theorem w10_out : W10 m ρ c (Proc.devRef .tc main_v38) = layerK m 0 c (m ((c : Thread nD τ).loc main_arg0)) := by
  refine (W10_arr m ρ c 6).trans ((RegionVal.region2 (V9 m ρ) c).trans ?_)
  show GINE.bn (W9 m ρ c (Proc.devRef .tc main_v25)) (GINE.rowOf (W9 m ρ c (Proc.devRef .tc main_v29)))
    (GINE.rowOf (W9 m ρ c (Proc.devRef .tc main_v31))) (GINE.rowOf (W9 m ρ c (Proc.devRef .tc main_v34)))
    (GINE.rowOf (W9 m ρ c (Proc.devRef .tc main_v37))) (W9 m ρ c (Proc.devRef .tc main_arg0)) = _
  rw [w9_z m ρ c hok, w9_mean m ρ c hok, w9_var m ρ c hok, w9_gamma m ρ c, w9_beta m ρ c, (keeps9 m ρ c).a0,
    rowOf_cast, rowOf_cast, rowOf_cast, rowOf_cast]
  exact (layerK_zero m c).symm

end L0

/-- The first round: at the exit of the third kernel region the arguments and the edge rows are kept and the
    region's output array holds round 0 of the launch node table. -/
theorem layer0 (c : Dev nD) (hok : GINE.SrcOK (GINE.edgeRow 0 (m ((c : Thread nD τ).loc main_arg1)))) :
    Keeps m (W10 m ρ) c ∧ W10 m ρ c (Proc.devRef .tc main_v38) = layerK m 0 c (m ((c : Thread nD τ).loc main_arg0)) :=
  ⟨L0.keeps10 m ρ c, L0.w10_out m ρ c hok⟩

end Cert.KernelIdeal.Layers

end
-- ==== Proof.RegionE3.lean ====
import proofs.«403306_j43559558316462_1_alg».proof.Proof.Gen.KernelIdeal.Frame
import proofs.«403306_j43559558316462_1_alg».proof.Proof.Spec
import proofs.«403306_j43559558316462_1_alg».proof.Proof.EdgeMsgBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The second round's edge messages: from the blocks to the array

The grid has 100 points; point `t` takes rows `8000 t … 8000 t + 7999` of the edge features and of the gathered
rows, the whole weight slab and the whole bias row, and writes rows `8000 t … 8000 t + 7999` of the messages. -/

/-- The printed index maps, decided over the 100 grid points: the edge features, the gathered rows and the
    messages move down one block of rows per point; the weight slab and the bias row are fetched whole. -/
theorem edge3_blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the specification's message array, of the arrays as the region
    finds them. -/
theorem edge3_flushed_eq (c : Dev nD) (t : Fin cfg3.N) :
    (dat3 (F := Ideal) V c).flushed 4 t = ((cfg3.win 4).blk t).view.read (Elt Ideal)
      (GINE.edgeMsg (V c main_arg2) (V c main_v39) (V c main_v41) (GINE.rowOf (V c main_v44))) := by
  show (cfg3.win 4).cut (grid3.coords t) ((dat3 V c).after 4 t) = _
  rw [after3_4]
  unfold out3_4
  rw [View.canon_unit_zero EdgeMsg.zeroOffsets]
  simp only [View.ld_unit_zero (S := S8000x32) EdgeMsg.zeroOffsets, View.ld_unit_zero (S := S32x128) EdgeMsg.zeroOffsets,
    View.ld_unit_zero (S := S1x128) EdgeMsg.zeroOffsets, View.ld_unit_zero (S := S8000x128) EdgeMsg.zeroOffsets]
  obtain ⟨a0, a1, b0, b1, w0, w1, r0, r1, o0, o1⟩ := edge3_blockIndex t
  funext j
  refine EdgeMsg.block_eq k3_pay1 EdgeMsg.payload3_apply (V c main_arg2) (V c main_v39) (V c main_v41) (V c main_v44) t.val
    (fun y => ((cfg3.win 0).blk t).view.emb y) (fun y => ((cfg3.win 1).blk t).view.emb y)
    (fun y => ((cfg3.win 4).blk t).view.emb y) (fun y => ((cfg3.win 2).blk t).view.emb y)
    (fun y => ((cfg3.win 3).blk t).view.emb y) ?_ ?_ ?_ ?_ ?_ ?_ ?_ ?_ ?_ ?_ j
  · intro y; show win3_0.index t (0 : Fin 2) * 8000 + 1 * (y 0).val = _; omega
  · intro y; show win3_0.index t (1 : Fin 2) * 32 + 1 * (y 1).val = _; omega
  · intro y; show win3_1.index t (0 : Fin 2) * 8000 + 1 * (y 0).val = _; omega
  · intro y; show win3_1.index t (1 : Fin 2) * 128 + 1 * (y 1).val = _; omega
  · intro y; show win3_2.index t (0 : Fin 2) * 32 + 1 * (y 0).val = _; omega
  · intro y; show win3_2.index t (1 : Fin 2) * 128 + 1 * (y 1).val = _; omega
  · intro y; show win3_3.index t (0 : Fin 2) * 1 + 1 * (y 0).val = _; omega
  · intro y; show win3_3.index t (1 : Fin 2) * 128 + 1 * (y 1).val = _; omega
  · intro y; show win3_4.index t (0 : Fin 2) * 8000 + 1 * (y 0).val = _; omega
  · intro y; show win3_4.index t (1 : Fin 2) * 128 + 1 * (y 1).val = _; omega

/-- An index of the message array is in point `t`'s block iff each coordinate is in the block's range on its axis. -/
theorem edge3_mem_block (t : Fin cfg3.N) (i : S800000x128.Idx) :
    i ∈ ((cfg3.win 4).blk t).view.set ↔ ∀ a : Fin 2, win3_4.index t a * S8000x128.size a ≤ (i a).val
      ∧ (i a).val < win3_4.index t a * S8000x128.size a + S8000x128.size a := by
  show i ∈ ((View.whole main_v45).slice (win3_4.rect t)).set ↔ _
  rw [View.set_slice_whole, Rect.mem_set_unit]
  exact Iff.rfl

/-- Every row of the message array is in the block of the point that its row number divided by 8000 names. -/
theorem edge3_covered (i : S800000x128.Idx) :
    ∃ t : Fin cfg3.N, (cfg3.win 4).flush t = true ∧ i ∈ ((cfg3.win 4).blk t).view.set := by
  have hi0 : (i 0).val < 800000 := (i 0).isLt
  have hi1 : (i 1).val < 128 := (i 1).isLt
  have hN : cfg3.N = 100 := N_3
  let t : Fin cfg3.N := ⟨(i 0).val / 8000, by rw [hN]; omega⟩
  obtain ⟨a0, a1, b0, b1, w0, w1, r0, r1, o0, o1⟩ := edge3_blockIndex t
  have ht : t.val = (i 0).val / 8000 := rfl
  refine ⟨t, flush3_4 t, ?_⟩
  rw [edge3_mem_block]
  intro a
  match a with
  | ⟨0, _⟩ => show win3_4.index t (0 : Fin 2) * 8000 ≤ (i 0).val ∧ (i 0).val < win3_4.index t (0 : Fin 2) * 8000 + 8000; omega
  | ⟨1, _⟩ => show win3_4.index t (1 : Fin 2) * 128 ≤ (i 1).val ∧ (i 1).val < win3_4.index t (1 : Fin 2) * 128 + 128; omega

theorem region3 (c : Dev nD) :
    (dat3 (F := Ideal) V c).arrAt 4 cfg3.N
      = GINE.edgeMsg (V c main_arg2) (V c main_v39) (V c main_v41) (GINE.rowOf (V c main_v44)) := by
  exact (dat3 (F := Ideal) V c).arrAt_eq_of_cover 4 _ (fun t _ => edge3_flushed_eq V c t) edge3_covered

end Cert.KernelIdeal.RegionVal

end
-- ==== Proof.RegionM4.lean ====
/-
  Region 4 (the node perceptron of round two): the array the region writes is the specification's perceptron of
  the arrays the region finds. The grid has ten points; point t reads rows 5000·t … 5000·t + 4999 of the node
  table and the four parameter arrays whole, and writes the same rows of the output.
-/
import proofs.«403306_j43559558316462_1_alg».proof.Proof.Gen.KernelIdeal.Frame
import proofs.«403306_j43559558316462_1_alg».proof.Proof.Spec
import proofs.«403306_j43559558316462_1_alg».proof.Proof.NodeMlpBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store sit at the zero offsets of their buffers. -/
theorem mlp4_offsets : (![0, 0] : Fin 2 → Nat) = fun _ => 0 := funext fun a => by fin_cases a <;> rfl

/-- The printed index maps over the grid: the node table's block and the output's are the point's own on the rows
    and block 0 on the columns; each parameter array is block 0 on both axes. -/
theorem mlp4_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The body's arithmetic at an entry of its block is the specification's perceptron at an entry of the node
    table, when the block's row is the table's row there and the columns agree. -/
theorem mlp4_entry (A : GINE.Node) (W1 : FVec Ideal S128x128 .f32) (B1 : FVec Ideal S1x128 .f32)
    (W2 : FVec Ideal S128x128 .f32) (B2 : FVec Ideal S1x128 .f32) (x0 : Vec Ideal S5000x128 .f32)
    (i : S50000x128.Idx) (j : S5000x128.Idx)
    (hrow : ∀ k : Fin 128, x0 (ix2 (j 0) k) = A (ix2 (i 0) k)) (hcol : j 1 = i 1) :
    k4_pay1 (F := Ideal) x0 W1 B1 W2 B2 j = GINE.mlp A W1 (GINE.rowOf B1) W2 (GINE.rowOf B2) i := by
  obtain ⟨p, q, rfl⟩ : ∃ (p : Fin 5000) (q : Fin 128), j = ix2 p q := ⟨j 0, j 1, eq_ix2 j⟩
  rw [NodeMlp.k4_pay1_eq, NodeMlp.mlpBlock_apply]
  have hq : q = i 1 := hcol
  subst hq
  unfold GINE.mlp GINE.rowOf
  refine congrArg (· + B2 (ix2 0 (i 1))) (Finset.sum_congr rfl fun k _ => ?_)
  have hs : (∑ k' : Fin 128, x0 (ix2 p k') * W1 (ix2 k' k)) = ∑ k' : Fin 128, A (ix2 (i 0) k') * W1 (ix2 k' k) :=
    Finset.sum_congr rfl fun k' _ => by rw [hrow k']
  rw [hs]

/-- What point t writes back is block t of the perceptron of the arrays the region finds. -/
theorem mlp4_written (c : Dev nD) (t : Fin cfg4.N) :
    (dat4 (F := Ideal) V c).flushed 5 t = ((cfg4.win 5).blk t).view.read (Elt Ideal)
      (GINE.mlp (V c main_v49) (V c main_v51) (GINE.rowOf (V c main_v54)) (V c main_v56) (GINE.rowOf (V c main_v59))) := by
  show (cfg4.win 5).cut (grid4.coords t) ((dat4 (F := Ideal) V c).after 5 t) = _
  rw [after4_5]
  unfold out4_5
  rw [View.canon_unit_zero mlp4_offsets]
  simp only [View.ld_unit_zero (S := S5000x128) mlp4_offsets, View.ld_unit_zero (S := S128x128) mlp4_offsets,
    View.ld_unit_zero (S := S1x128) mlp4_offsets]
  obtain ⟨e00, e01, e10, e11, e20, e21, e30, e31, e40, e41, e50, e51⟩ := mlp4_index t
  have h1 : iblk4 V c 1 t = V c main_v51 := by
    funext y
    show V c main_v51 (((cfg4.win 1).blk t).view.emb y) = V c main_v51 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  have h2 : iblk4 V c 2 t = V c main_v54 := by
    funext y
    show V c main_v54 (((cfg4.win 2).blk t).view.emb y) = V c main_v54 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  have h3 : iblk4 V c 3 t = V c main_v56 := by
    funext y
    show V c main_v56 (((cfg4.win 3).blk t).view.emb y) = V c main_v56 y
    refine congrArg _ (funext fun a => Fin.ext ?_)
    match a with
    | ⟨0, _⟩ => show win4_3.index t (0 : Fin 2) * 128 + 1 * (y 0).val = (y 0).val; omega
    | ⟨1, _⟩ => show win4_3.index t (1 : Fin 2) * 128 + 1 * (y 1).val = (y 1).val; omega
  have h4 : iblk4 V c 4 t = V c main_v59 := by
    funext y
    show V c main_v59 (((cfg4.win 4).blk t).view.emb y) = V c main_v59 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 128 + 1 * (y 1).val = (y 1).val; omega
  rw [h1, h2, h3, h4]
  funext j
  refine mlp4_entry (V c main_v49) (V c main_v51) (V c main_v54) (V c main_v56) (V c main_v59) (iblk4 V c 0 t)
    (((cfg4.win 5).blk t).view.emb j) j (fun k => ?_) (Fin.ext ?_)
  · show V c main_v49 (((cfg4.win 0).blk t).view.emb (ix2 (j 0) k)) = V c main_v49 (ix2 ((((cfg4.win 5).blk t).view.emb j) 0) k)
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * k.val = k.val; omega
  · show (j 1).val = win4_5.index t (1 : Fin 2) * 128 + 1 * (j 1).val
    omega

/-- An entry of the output array is in point t's block iff each coordinate is in the block's range on its axis. -/
theorem mlp4_mem_block (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v60).slice (win4_5.rect t)).set ↔ _
  rw [View.set_slice_whole, Rect.mem_set_unit]
  exact Iff.rfl

/-- The ten row blocks fill the output array: row r is in the block of point r / 5000. -/
theorem mlp4_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : (i 0).val / 5000 < cfg4.N := by
    show (i 0).val / 5000 < grid4.N
    rw [N_4]; omega
  obtain ⟨e00, e01, e10, e11, e20, e21, e30, e31, e40, e41, e50, e51⟩ := mlp4_index ⟨(i 0).val / 5000, hN⟩
  have e50' : win4_5.index ⟨(i 0).val / 5000, hN⟩ (0 : Fin 2) = (i 0).val / 5000 := e50
  refine ⟨⟨(i 0).val / 5000, hN⟩, flush4_5 _, ?_⟩
  rw [mlp4_mem_block]
  intro a
  match a with
  | ⟨0, _⟩ =>
    show win4_5.index ⟨(i 0).val / 5000, hN⟩ (0 : Fin 2) * 5000 ≤ (i 0).val
      ∧ (i 0).val < win4_5.index ⟨(i 0).val / 5000, hN⟩ (0 : Fin 2) * 5000 + 5000
    omega
  | ⟨1, _⟩ =>
    show win4_5.index ⟨(i 0).val / 5000, hN⟩ (1 : Fin 2) * 128 ≤ (i 1).val
      ∧ (i 1).val < win4_5.index ⟨(i 0).val / 5000, hN⟩ (1 : Fin 2) * 128 + 128
    omega

theorem region4 (c : Dev nD) :
    (dat4 (F := Ideal) V c).arrAt 5 cfg4.N
      = GINE.mlp (V c main_v49) (V c main_v51) (GINE.rowOf (V c main_v54)) (V c main_v56) (GINE.rowOf (V c main_v59)) :=
  (dat4 (F := Ideal) V c).arrAt_eq_of_cover 5 _ (fun t _ => mlp4_written V c t) mlp4_cover

end Cert.KernelIdeal.RegionVal

end
-- ==== Proof.RegionB5.lean ====
import proofs.«403306_j43559558316462_1_alg».proof.Proof.Gen.KernelIdeal.Frame
import proofs.«403306_j43559558316462_1_alg».proof.Proof.Spec
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The normalisation body at one entry of a block

The body of region 5 reads a block of 5000 rows of the perceptron's output, the four parameter rows (mean,
variance, scale, shift) and the same 5000 rows of the round's input, and writes
`max ((z - μ) · rsqrt (σ² + ε) · γ + β) 0 + 0.1 · h` entry by entry: every operation in it is pointwise, the
rows being repeated down the block. -/

/-- The two zero offsets of a whole-buffer load or store, however they are spelt. -/
theorem zero_offsets5 : (![0, 0] : Fin 2 → Nat) = fun _ => 0 := funext fun a => by fin_cases a <;> rfl

/-- A parameter row repeated down the 5000 rows of a block reads the row's entry of the same column. -/
theorem row_repeat_at5 {α : Type} (r : S1x128.Idx → α) (p : Fin 5000) (q : Fin 128) :
    broadcastTo S5000x128 r broadcasts_S1x128_S5000x128 (ix2 p q) = r (ix2 0 q) := by
  refine broadcastTo_apply r broadcasts_S1x128_S5000x128 (ix2 p q) (ix2 0 q) ?_
  intro a
  match a with
  | ⟨0, _⟩ => rfl
  | ⟨1, _⟩ => rfl

/-- The body's stored value at row `p`, column `q` of the block. The variance row is the body's second operand
    and the mean row its third. -/
theorem bn_body_at5 (z : Vec Ideal S5000x128 .f32) (var mu gamma beta : Vec Ideal S1x128 .f32)
    (h : Vec Ideal S5000x128 .f32) (p : Fin 5000) (q : Fin 128) :
    k5_pay1 (F := Ideal) z var mu gamma beta h (ix2 p q)
      = max ((z (ix2 p q) - mu (ix2 0 q)) * Ideal.rsqrt (var (ix2 0 q) + GINE.eps) * gamma (ix2 0 q) + beta (ix2 0 q)) GINE.zero
          + GINE.tenth * h (ix2 p q) := by
  unfold k5_pay1
  simp only [shapeCast_self, addf_apply, mulf_apply, subf_apply, maximumf_apply, broadcast_apply, row_repeat_at5]
  rfl

/-- The body's stored value at an entry `j` of the block is the specification's `bn` at the entry `i` of the node
    table, as soon as the two big blocks hold the tables' values at `i`, the four rows are the whole parameter rows,
    and `i` is in `j`'s column. -/
theorem bn_body_is_spec5 (Z H : GINE.Node) (Mu Var Ga Be : Vec Ideal S1x128 .f32)
    (z h : Vec Ideal S5000x128 .f32) (mu var ga be : Vec Ideal S1x128 .f32) (j : S5000x128.Idx) (i : S50000x128.Idx)
    (hz : z j = Z i) (hh : h j = H i) (hmu : mu = Mu) (hvar : var = Var) (hga : ga = Ga) (hbe : be = Be)
    (hcol : (i 1).val = (j 1).val) :
    k5_pay1 (F := Ideal) z var mu ga be h j
      = GINE.bn Z (GINE.rowOf Mu) (GINE.rowOf Var) (GINE.rowOf Ga) (GINE.rowOf Be) H i := by
  subst hmu hvar hga hbe
  obtain ⟨p, q, rfl⟩ : ∃ (p : Fin 5000) (q : Fin 128), j = ix2 p q := ⟨j 0, j 1, eq_ix2 j⟩
  have hq : i 1 = q := Fin.ext hcol
  rw [bn_body_at5, hz, hh]
  subst hq
  rfl

/-! ## From the blocks to the array -/

/-- Where the windows' blocks sit at grid point `t`, decided over the ten points: the two big inputs move with
    the output, down the rows, block `t` at point `t`; the four parameter rows are fetched whole. -/
theorem block_places5 : ∀ t : Fin cfg5.N,
    win5_0.index t (0 : Fin 2) = win5_6.index t (0 : Fin 2) ∧ win5_0.index t (1 : Fin 2) = 0
    ∧ win5_5.index t (0 : Fin 2) = win5_6.index t (0 : Fin 2) ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_6.index t (0 : Fin 2) = t.val ∧ win5_6.index t (1 : Fin 2) = 0 :=
  (by decide +kernel : ∀ t : Fin grid5.N, _)

/-- The mean row's block at any point is the whole row. -/
theorem mean_block5 (c : Dev nD) (t : Fin cfg5.N) :
    (iblk5 (F := Ideal) V c 1 t : Vec Ideal S1x128 .f32) = V c main_v64 := by
  obtain ⟨-, -, -, -, e0, e1, -⟩ := block_places5 t
  funext y
  show V c main_v64 (((cfg5.win 1).blk t).view.emb y) = V c main_v64 y
  refine congrArg (V c main_v64) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The variance row's block at any point is the whole row. -/
theorem var_block5 (c : Dev nD) (t : Fin cfg5.N) :
    (iblk5 (F := Ideal) V c 2 t : Vec Ideal S1x128 .f32) = V c main_v66 := by
  obtain ⟨-, -, -, -, -, -, e0, e1, -⟩ := block_places5 t
  funext y
  show V c main_v66 (((cfg5.win 2).blk t).view.emb y) = V c main_v66 y
  refine congrArg (V c main_v66) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The scale row's block at any point is the whole row. -/
theorem scale_block5 (c : Dev nD) (t : Fin cfg5.N) :
    (iblk5 (F := Ideal) V c 3 t : Vec Ideal S1x128 .f32) = V c main_v69 := by
  obtain ⟨-, -, -, -, -, -, -, -, e0, e1, -⟩ := block_places5 t
  funext y
  show V c main_v69 (((cfg5.win 3).blk t).view.emb y) = V c main_v69 y
  refine congrArg (V c main_v69) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The shift row's block at any point is the whole row. -/
theorem shift_block5 (c : Dev nD) (t : Fin cfg5.N) :
    (iblk5 (F := Ideal) V c 4 t : Vec Ideal S1x128 .f32) = V c main_v72 := by
  obtain ⟨-, -, -, -, -, -, -, -, -, -, e0, e1, -⟩ := block_places5 t
  funext y
  show V c main_v72 (((cfg5.win 4).blk t).view.emb y) = V c main_v72 y
  refine congrArg (V c main_v72) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What point `t` writes back is block `t` of the specification's `bn` of the arrays as the region finds them. -/
theorem written_back5 (c : Dev nD) (t : Fin cfg5.N) :
    (dat5 (F := Ideal) V c).flushed 6 t = ((cfg5.win 6).blk t).view.read (Elt Ideal)
      (GINE.bn (V c main_v60) (GINE.rowOf (V c main_v64)) (GINE.rowOf (V c main_v66)) (GINE.rowOf (V c main_v69)) (GINE.rowOf (V c main_v72)) (V c main_v38)) := by
  show (cfg5.win 6).cut (grid5.coords t) ((dat5 V c).after 6 t) = _
  rw [after5_6]
  unfold out5_6
  rw [View.canon_unit_zero zero_offsets5]
  simp only [View.ld_unit_zero (S := S5000x128) zero_offsets5, View.ld_unit_zero (S := S1x128) zero_offsets5]
  obtain ⟨e00, e01, e50, e51, -, -, -, -, -, -, -, -, e60, e61⟩ := block_places5 t
  funext j
  show k5_pay1 (F := Ideal) (iblk5 V c 0 t) (iblk5 V c 2 t) (iblk5 V c 1 t) (iblk5 V c 3 t) (iblk5 V c 4 t) (iblk5 V c 5 t) j
    = GINE.bn (V c main_v60) (GINE.rowOf (V c main_v64)) (GINE.rowOf (V c main_v66)) (GINE.rowOf (V c main_v69)) (GINE.rowOf (V c main_v72)) (V c main_v38)
        (((cfg5.win 6).blk t).view.emb j)
  refine bn_body_is_spec5 _ _ _ _ _ _ _ _ _ _ _ _ j _ ?_ ?_ (mean_block5 V c t) (var_block5 V c t) (scale_block5 V c t) (shift_block5 V c t) ?_
  · show V c main_v60 (((cfg5.win 0).blk t).view.emb j) = V c main_v60 (((cfg5.win 6).blk t).view.emb j)
    refine congrArg (V c main_v60) (funext fun a => Fin.ext ?_)
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 128 + 1 * (j 1).val = win5_6.index t (1 : Fin 2) * 128 + 1 * (j 1).val; omega
  · show V c main_v38 (((cfg5.win 5).blk t).view.emb j) = V c main_v38 (((cfg5.win 6).blk t).view.emb j)
    refine congrArg (V c main_v38) (funext fun a => Fin.ext ?_)
    match a with
    | ⟨0, _⟩ => show win5_5.index t (0 : Fin 2) * 5000 + 1 * (j 0).val = win5_6.index t (0 : Fin 2) * 5000 + 1 * (j 0).val; omega
    | ⟨1, _⟩ => show win5_5.index t (1 : Fin 2) * 128 + 1 * (j 1).val = win5_6.index t (1 : Fin 2) * 128 + 1 * (j 1).val; omega
  · show win5_6.index t (1 : Fin 2) * 128 + 1 * (j 1).val = (j 1).val
    omega

/-- An entry of the node table is in point `t`'s output block iff each coordinate is in the block's range. -/
theorem mem_out_block5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v73).slice (win5_6.rect t)).set ↔ _
  rw [View.set_slice_whole, Rect.mem_set_unit]
  exact Iff.rfl

/-- Every entry of the node table is in some point's output block: row `r` in that of point `r / 5000`. -/
theorem out_blocks_cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : (i 0).val / 5000 < cfg5.N := by show _ < grid5.N; rw [N_5]; omega
  refine ⟨⟨(i 0).val / 5000, hN⟩, flush5_6 _, ?_⟩
  obtain ⟨-, -, -, -, -, -, -, -, -, -, -, -, e60, e61⟩ := block_places5 ⟨(i 0).val / 5000, hN⟩
  have e60' : win5_6.index ⟨(i 0).val / 5000, hN⟩ (0 : Fin 2) = (i 0).val / 5000 := e60
  rw [mem_out_block5]
  intro a
  match a with
  | ⟨0, _⟩ => show win5_6.index ⟨(i 0).val / 5000, hN⟩ (0 : Fin 2) * 5000 ≤ (i 0).val ∧ (i 0).val < win5_6.index ⟨(i 0).val / 5000, hN⟩ (0 : Fin 2) * 5000 + 5000; omega
  | ⟨1, _⟩ => show win5_6.index ⟨(i 0).val / 5000, hN⟩ (1 : Fin 2) * 128 ≤ (i 1).val ∧ (i 1).val < win5_6.index ⟨(i 0).val / 5000, hN⟩ (1 : Fin 2) * 128 + 128; omega

theorem region5 (c : Dev nD) :
    (dat5 (F := Ideal) V c).arrAt 6 cfg5.N
      = GINE.bn (V c main_v60) (GINE.rowOf (V c main_v64)) (GINE.rowOf (V c main_v66)) (GINE.rowOf (V c main_v69)) (GINE.rowOf (V c main_v72)) (V c main_v38) := by
  exact (dat5 (F := Ideal) V c).arrAt_eq_of_cover 6 _ (fun t _ => written_back5 V c t) out_blocks_cover5

end Cert.KernelIdeal.RegionVal

end
-- ==== Proof.KLayer1.lean ====
import proofs.«403306_j43559558316462_1_alg».proof.Proof.KCommon
import proofs.«403306_j43559558316462_1_alg».proof.Proof.InRange
import proofs.«403306_j43559558316462_1_alg».proof.Proof.RegionE3
import proofs.«403306_j43559558316462_1_alg».proof.Proof.RegionM4
import proofs.«403306_j43559558316462_1_alg».proof.Proof.RegionB5
import Idealize.ShloMosaic.Lib.StableHlo.Run
import Idealize.ShloMosaic.Lib.ValueLayout

/-
  The kernel program's second round, read off the run boundary by boundary.  From the contents the first round
  left, the host operations gather every edge's source row of the node table and cut the round's parameters out
  of the stacked arrays; the message region, the perceptron region and the normalisation region each write the
  specification's function of the arrays they find; the segment sum, the column mean and the column variance
  between them are the specification's own host operations.  Composed, the round's output table is the
  specification's round on the table the first round left, and the argument arrays and the two edge rows are
  untouched throughout.
-/

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## A one-row reshape read back -/

/-- A vector reshaped to one row and read back as a column is the vector. -/
theorem rowOf_shapeCast (x : GINE.Col) (h : GINE.S128.ShapeCasts GINE.S1x128) :
    GINE.rowOf (shapeCast GINE.S1x128 x h) = x := by
  funext j
  show shapeCast GINE.S1x128 x h (ix2 0 (j 0)) = x j
  rw [shapeCast_a_1a_apply x h 0 (j 0)]
  exact congrArg x (eq_ix1 j).symm

/-! ## The guarded gather of the round's input table (boundary 10 to 11) -/

attribute [local irreducible] Host.reduce Host.gather Host.reduceAdd in
/-- The gather's result is `takeK` of the table and the source numbers as the stretch finds them. -/
theorem s3_take (X : Valuation τ sig (Elt Ideal)) :
    StableHlo.after hostOps3 X (Proc.devRef .tc main_v39) = takeK (X (Proc.devRef .tc main_v38)) (X (Proc.devRef .tc main_v1)) := by
  after_results_simp
  simp only [ofBuf_toBuf]
  rfl

theorem s3_v38 (X : Valuation τ sig (Elt Ideal)) :
    StableHlo.after hostOps3 X (Proc.devRef .tc main_v38) = X (Proc.devRef .tc main_v38) := by
  after_results

/-- The gather's operations touch none of the argument arrays nor the two edge rows. -/
theorem keeps_3 (W : Dev nD → Valuation τ sig (Elt Ideal)) (c : Dev nD) (hk : Keeps m W c) :
    Keeps m (fun c => StableHlo.after hostOps3 (W c)) c where
  a0 := (show StableHlo.after hostOps3 (W c) (Proc.devRef .tc main_arg0) = W c (Proc.devRef .tc main_arg0) by after_results).trans hk.a0
  a1 := (show StableHlo.after hostOps3 (W c) (Proc.devRef .tc main_arg1) = W c (Proc.devRef .tc main_arg1) by after_results).trans hk.a1
  a2 := (show StableHlo.after hostOps3 (W c) (Proc.devRef .tc main_arg2) = W c (Proc.devRef .tc main_arg2) by after_results).trans hk.a2
  a3 := (show StableHlo.after hostOps3 (W c) (Proc.devRef .tc main_arg3) = W c (Proc.devRef .tc main_arg3) by after_results).trans hk.a3
  a4 := (show StableHlo.after hostOps3 (W c) (Proc.devRef .tc main_arg4) = W c (Proc.devRef .tc main_arg4) by after_results).trans hk.a4
  a5 := (show StableHlo.after hostOps3 (W c) (Proc.devRef .tc main_arg5) = W c (Proc.devRef .tc main_arg5) by after_results).trans hk.a5
  a6 := (show StableHlo.after hostOps3 (W c) (Proc.devRef .tc main_arg6) = W c (Proc.devRef .tc main_arg6) by after_results).trans hk.a6
  a7 := (show StableHlo.after hostOps3 (W c) (Proc.devRef .tc main_arg7) = W c (Proc.devRef .tc main_arg7) by after_results).trans hk.a7
  a8 := (show StableHlo.after hostOps3 (W c) (Proc.devRef .tc main_arg8) = W c (Proc.devRef .tc main_arg8) by after_results).trans hk.a8
  a9 := (show StableHlo.after hostOps3 (W c) (Proc.devRef .tc main_arg9) = W c (Proc.devRef .tc main_arg9) by after_results).trans hk.a9
  a10 := (show StableHlo.after hostOps3 (W c) (Proc.devRef .tc main_arg10) = W c (Proc.devRef .tc main_arg10) by after_results).trans hk.a10
  src := (show StableHlo.after hostOps3 (W c) (Proc.devRef .tc main_v1) = W c (Proc.devRef .tc main_v1) by after_results).trans hk.src
  dst := (show StableHlo.after hostOps3 (W c) (Proc.devRef .tc main_v3) = W c (Proc.devRef .tc main_v3) by after_results).trans hk.dst

/-! ## The round's edge parameters cut out (boundary 11 to 12) -/

theorem s31_v41 (X : Valuation τ sig (Elt Ideal)) :
    StableHlo.after hostOps3_1 X (Proc.devRef .tc main_v41) = GINE.slab32 1 (X (Proc.devRef .tc main_arg3)) := by
  after_results
  rfl

theorem s31_v44 (X : Valuation τ sig (Elt Ideal)) :
    GINE.rowOf (StableHlo.after hostOps3_1 X (Proc.devRef .tc main_v44)) = GINE.prow 1 (X (Proc.devRef .tc main_arg4)) := by
  have e : StableHlo.after hostOps3_1 X (Proc.devRef .tc main_v44) = shapeCast GINE.S1x128 (GINE.prow 1 (X (Proc.devRef .tc main_arg4))) shapeCasts_S128_S1x128 := by
    after_results
    rfl
  rw [e, rowOf_shapeCast]

theorem s31_v38 (X : Valuation τ sig (Elt Ideal)) :
    StableHlo.after hostOps3_1 X (Proc.devRef .tc main_v38) = X (Proc.devRef .tc main_v38) := by
  after_results

theorem s31_v39 (X : Valuation τ sig (Elt Ideal)) :
    StableHlo.after hostOps3_1 X (Proc.devRef .tc main_v39) = X (Proc.devRef .tc main_v39) := by
  after_results

/-- The slices and reshapes of the edge parameters touch none of the argument arrays nor the two edge rows. -/
theorem keeps_3_1 (W : Dev nD → Valuation τ sig (Elt Ideal)) (c : Dev nD) (hk : Keeps m W c) :
    Keeps m (fun c => StableHlo.after hostOps3_1 (W c)) c where
  a0 := (show StableHlo.after hostOps3_1 (W c) (Proc.devRef .tc main_arg0) = W c (Proc.devRef .tc main_arg0) by after_results).trans hk.a0
  a1 := (show StableHlo.after hostOps3_1 (W c) (Proc.devRef .tc main_arg1) = W c (Proc.devRef .tc main_arg1) by after_results).trans hk.a1
  a2 := (show StableHlo.after hostOps3_1 (W c) (Proc.devRef .tc main_arg2) = W c (Proc.devRef .tc main_arg2) by after_results).trans hk.a2
  a3 := (show StableHlo.after hostOps3_1 (W c) (Proc.devRef .tc main_arg3) = W c (Proc.devRef .tc main_arg3) by after_results).trans hk.a3
  a4 := (show StableHlo.after hostOps3_1 (W c) (Proc.devRef .tc main_arg4) = W c (Proc.devRef .tc main_arg4) by after_results).trans hk.a4
  a5 := (show StableHlo.after hostOps3_1 (W c) (Proc.devRef .tc main_arg5) = W c (Proc.devRef .tc main_arg5) by after_results).trans hk.a5
  a6 := (show StableHlo.after hostOps3_1 (W c) (Proc.devRef .tc main_arg6) = W c (Proc.devRef .tc main_arg6) by after_results).trans hk.a6
  a7 := (show StableHlo.after hostOps3_1 (W c) (Proc.devRef .tc main_arg7) = W c (Proc.devRef .tc main_arg7) by after_results).trans hk.a7
  a8 := (show StableHlo.after hostOps3_1 (W c) (Proc.devRef .tc main_arg8) = W c (Proc.devRef .tc main_arg8) by after_results).trans hk.a8
  a9 := (show StableHlo.after hostOps3_1 (W c) (Proc.devRef .tc main_arg9) = W c (Proc.devRef .tc main_arg9) by after_results).trans hk.a9
  a10 := (show StableHlo.after hostOps3_1 (W c) (Proc.devRef .tc main_arg10) = W c (Proc.devRef .tc main_arg10) by after_results).trans hk.a10
  src := (show StableHlo.after hostOps3_1 (W c) (Proc.devRef .tc main_v1) = W c (Proc.devRef .tc main_v1) by after_results).trans hk.src
  dst := (show StableHlo.after hostOps3_1 (W c) (Proc.devRef .tc main_v3) = W c (Proc.devRef .tc main_v3) by after_results).trans hk.dst

/-! ## The message region (boundary 12 to 13) -/

/-- The region's output array is the specification's message table of the arrays the region finds. -/
theorem w13_v45 (c : Dev nD) :
    W13 m ρ c (Proc.devRef .tc main_v45)
      = GINE.edgeMsg (W12 m ρ c (Proc.devRef .tc main_arg2)) (W12 m ρ c (Proc.devRef .tc main_v39)) (W12 m ρ c (Proc.devRef .tc main_v41))
          (GINE.rowOf (W12 m ρ c (Proc.devRef .tc main_v44))) :=
  (W13_arr m ρ c 4).trans (RegionVal.region3 (V12 m ρ) c)

/-- The message region writes its output array only: the edge attributes, an input array of it, are as entered, and no other kept buffer is an array of it. -/
theorem keeps_r3 (c : Dev nD) (hk : Keeps m (W12 m ρ) c) : Keeps m (W13 m ρ) c where
  a0 := (W13_of_ne m ρ c main_arg0 (by decide)).trans hk.a0
  a1 := (W13_of_ne m ρ c main_arg1 (by decide)).trans hk.a1
  a2 := ((W13_arr m ρ c 0).trans (((dat3 (V12 m ρ) c).arrAt_in 0 rfl _).trans (A_eq3 (V12 m ρ) c 0))).trans hk.a2
  a3 := (W13_of_ne m ρ c main_arg3 (by decide)).trans hk.a3
  a4 := (W13_of_ne m ρ c main_arg4 (by decide)).trans hk.a4
  a5 := (W13_of_ne m ρ c main_arg5 (by decide)).trans hk.a5
  a6 := (W13_of_ne m ρ c main_arg6 (by decide)).trans hk.a6
  a7 := (W13_of_ne m ρ c main_arg7 (by decide)).trans hk.a7
  a8 := (W13_of_ne m ρ c main_arg8 (by decide)).trans hk.a8
  a9 := (W13_of_ne m ρ c main_arg9 (by decide)).trans hk.a9
  a10 := (W13_of_ne m ρ c main_arg10 (by decide)).trans hk.a10
  src := (W13_of_ne m ρ c main_v1 (by decide)).trans hk.src
  dst := (W13_of_ne m ρ c main_v3 (by decide)).trans hk.dst

/-! ## The segment sum, the node's own row added, and the perceptron's parameters (boundary 13 to 14) -/

attribute [local irreducible] Host.scatterAdd in
theorem s4_v49 (X : Valuation τ sig (Elt Ideal)) :
    StableHlo.after hostOps4 X (Proc.devRef .tc main_v49) = addf (X (Proc.devRef .tc main_v38)) (GINE.segsum (X (Proc.devRef .tc main_v3)) (X (Proc.devRef .tc main_v45))) := by
  after_results
  rfl

theorem s4_v51 (X : Valuation τ sig (Elt Ideal)) :
    StableHlo.after hostOps4 X (Proc.devRef .tc main_v51) = GINE.slab128 1 (X (Proc.devRef .tc main_arg5)) := by
  after_results
  rfl

theorem s4_v54 (X : Valuation τ sig (Elt Ideal)) :
    GINE.rowOf (StableHlo.after hostOps4 X (Proc.devRef .tc main_v54)) = GINE.prow 1 (X (Proc.devRef .tc main_arg6)) := by
  have e : StableHlo.after hostOps4 X (Proc.devRef .tc main_v54) = shapeCast GINE.S1x128 (GINE.prow 1 (X (Proc.devRef .tc main_arg6))) shapeCasts_S128_S1x128 := by
    after_results
    rfl
  rw [e, rowOf_shapeCast]

theorem s4_v56 (X : Valuation τ sig (Elt Ideal)) :
    StableHlo.after hostOps4 X (Proc.devRef .tc main_v56) = GINE.slab128 1 (X (Proc.devRef .tc main_arg7)) := by
  after_results
  rfl

theorem s4_v59 (X : Valuation τ sig (Elt Ideal)) :
    GINE.rowOf (StableHlo.after hostOps4 X (Proc.devRef .tc main_v59)) = GINE.prow 1 (X (Proc.devRef .tc main_arg8)) := by
  have e : StableHlo.after hostOps4 X (Proc.devRef .tc main_v59) = shapeCast GINE.S1x128 (GINE.prow 1 (X (Proc.devRef .tc main_arg8))) shapeCasts_S128_S1x128 := by
    after_results
    rfl
  rw [e, rowOf_shapeCast]

theorem s4_v38 (X : Valuation τ sig (Elt Ideal)) :
    StableHlo.after hostOps4 X (Proc.devRef .tc main_v38) = X (Proc.devRef .tc main_v38) := by
  after_results

/-- The segment sum and the perceptron's slices touch none of the argument arrays nor the two edge rows. -/
theorem keeps_4 (W : Dev nD → Valuation τ sig (Elt Ideal)) (c : Dev nD) (hk : Keeps m W c) :
    Keeps m (fun c => StableHlo.after hostOps4 (W c)) c where
  a0 := (show StableHlo.after hostOps4 (W c) (Proc.devRef .tc main_arg0) = W c (Proc.devRef .tc main_arg0) by after_results).trans hk.a0
  a1 := (show StableHlo.after hostOps4 (W c) (Proc.devRef .tc main_arg1) = W c (Proc.devRef .tc main_arg1) by after_results).trans hk.a1
  a2 := (show StableHlo.after hostOps4 (W c) (Proc.devRef .tc main_arg2) = W c (Proc.devRef .tc main_arg2) by after_results).trans hk.a2
  a3 := (show StableHlo.after hostOps4 (W c) (Proc.devRef .tc main_arg3) = W c (Proc.devRef .tc main_arg3) by after_results).trans hk.a3
  a4 := (show StableHlo.after hostOps4 (W c) (Proc.devRef .tc main_arg4) = W c (Proc.devRef .tc main_arg4) by after_results).trans hk.a4
  a5 := (show StableHlo.after hostOps4 (W c) (Proc.devRef .tc main_arg5) = W c (Proc.devRef .tc main_arg5) by after_results).trans hk.a5
  a6 := (show StableHlo.after hostOps4 (W c) (Proc.devRef .tc main_arg6) = W c (Proc.devRef .tc main_arg6) by after_results).trans hk.a6
  a7 := (show StableHlo.after hostOps4 (W c) (Proc.devRef .tc main_arg7) = W c (Proc.devRef .tc main_arg7) by after_results).trans hk.a7
  a8 := (show StableHlo.after hostOps4 (W c) (Proc.devRef .tc main_arg8) = W c (Proc.devRef .tc main_arg8) by after_results).trans hk.a8
  a9 := (show StableHlo.after hostOps4 (W c) (Proc.devRef .tc main_arg9) = W c (Proc.devRef .tc main_arg9) by after_results).trans hk.a9
  a10 := (show StableHlo.after hostOps4 (W c) (Proc.devRef .tc main_arg10) = W c (Proc.devRef .tc main_arg10) by after_results).trans hk.a10
  src := (show StableHlo.after hostOps4 (W c) (Proc.devRef .tc main_v1) = W c (Proc.devRef .tc main_v1) by after_results).trans hk.src
  dst := (show StableHlo.after hostOps4 (W c) (Proc.devRef .tc main_v3) = W c (Proc.devRef .tc main_v3) by after_results).trans hk.dst

/-! ## The perceptron region (boundary 14 to 15) -/

/-- The region's output array is the specification's perceptron of the arrays the region finds. -/
theorem w15_v60 (c : Dev nD) :
    W15 m ρ c (Proc.devRef .tc main_v60)
      = GINE.mlp (W14 m ρ c (Proc.devRef .tc main_v49)) (W14 m ρ c (Proc.devRef .tc main_v51)) (GINE.rowOf (W14 m ρ c (Proc.devRef .tc main_v54)))
          (W14 m ρ c (Proc.devRef .tc main_v56)) (GINE.rowOf (W14 m ρ c (Proc.devRef .tc main_v59))) :=
  (W15_arr m ρ c 5).trans (RegionVal.region4 (V14 m ρ) c)

/-- No kept buffer is an array of the perceptron region. -/
theorem keeps_r4 (c : Dev nD) (hk : Keeps m (W14 m ρ) c) : Keeps m (W15 m ρ) c where
  a0 := (W15_of_ne m ρ c main_arg0 (by decide)).trans hk.a0
  a1 := (W15_of_ne m ρ c main_arg1 (by decide)).trans hk.a1
  a2 := (W15_of_ne m ρ c main_arg2 (by decide)).trans hk.a2
  a3 := (W15_of_ne m ρ c main_arg3 (by decide)).trans hk.a3
  a4 := (W15_of_ne m ρ c main_arg4 (by decide)).trans hk.a4
  a5 := (W15_of_ne m ρ c main_arg5 (by decide)).trans hk.a5
  a6 := (W15_of_ne m ρ c main_arg6 (by decide)).trans hk.a6
  a7 := (W15_of_ne m ρ c main_arg7 (by decide)).trans hk.a7
  a8 := (W15_of_ne m ρ c main_arg8 (by decide)).trans hk.a8
  a9 := (W15_of_ne m ρ c main_arg9 (by decide)).trans hk.a9
  a10 := (W15_of_ne m ρ c main_arg10 (by decide)).trans hk.a10
  src := (W15_of_ne m ρ c main_v1 (by decide)).trans hk.src
  dst := (W15_of_ne m ρ c main_v3 (by decide)).trans hk.dst

/-! ## The column mean (boundary 15 to 16) -/

attribute [local irreducible] Host.reduceAdd in
theorem s5_v64 (X : Valuation τ sig (Elt Ideal)) :
    GINE.rowOf (StableHlo.after hostOps5 X (Proc.devRef .tc main_v64)) = GINE.colMean (X (Proc.devRef .tc main_v60)) := by
  have e : StableHlo.after hostOps5 X (Proc.devRef .tc main_v64) = shapeCast GINE.S1x128 (GINE.colMean (X (Proc.devRef .tc main_v60))) shapeCasts_S128_S1x128 := by
    after_results
    rfl
  rw [e, rowOf_shapeCast]

/-- The stretch also binds the integer zero the variance takes as its correction. -/
theorem s5_c5 (X : Valuation τ sig (Elt Ideal)) :
    StableHlo.after hostOps5 X (Proc.devRef .tc main_c_5) = (constantI S_ 32 0#32 : IVec S_ 32) := by
  after_results

theorem s5_v38 (X : Valuation τ sig (Elt Ideal)) :
    StableHlo.after hostOps5 X (Proc.devRef .tc main_v38) = X (Proc.devRef .tc main_v38) := by
  after_results

theorem s5_v60 (X : Valuation τ sig (Elt Ideal)) :
    StableHlo.after hostOps5 X (Proc.devRef .tc main_v60) = X (Proc.devRef .tc main_v60) := by
  after_results

/-- The mean's operations touch none of the argument arrays nor the two edge rows. -/
theorem keeps_5 (W : Dev nD → Valuation τ sig (Elt Ideal)) (c : Dev nD) (hk : Keeps m W c) :
    Keeps m (fun c => StableHlo.after hostOps5 (W c)) c where
  a0 := (show StableHlo.after hostOps5 (W c) (Proc.devRef .tc main_arg0) = W c (Proc.devRef .tc main_arg0) by after_results).trans hk.a0
  a1 := (show StableHlo.after hostOps5 (W c) (Proc.devRef .tc main_arg1) = W c (Proc.devRef .tc main_arg1) by after_results).trans hk.a1
  a2 := (show StableHlo.after hostOps5 (W c) (Proc.devRef .tc main_arg2) = W c (Proc.devRef .tc main_arg2) by after_results).trans hk.a2
  a3 := (show StableHlo.after hostOps5 (W c) (Proc.devRef .tc main_arg3) = W c (Proc.devRef .tc main_arg3) by after_results).trans hk.a3
  a4 := (show StableHlo.after hostOps5 (W c) (Proc.devRef .tc main_arg4) = W c (Proc.devRef .tc main_arg4) by after_results).trans hk.a4
  a5 := (show StableHlo.after hostOps5 (W c) (Proc.devRef .tc main_arg5) = W c (Proc.devRef .tc main_arg5) by after_results).trans hk.a5
  a6 := (show StableHlo.after hostOps5 (W c) (Proc.devRef .tc main_arg6) = W c (Proc.devRef .tc main_arg6) by after_results).trans hk.a6
  a7 := (show StableHlo.after hostOps5 (W c) (Proc.devRef .tc main_arg7) = W c (Proc.devRef .tc main_arg7) by after_results).trans hk.a7
  a8 := (show StableHlo.after hostOps5 (W c) (Proc.devRef .tc main_arg8) = W c (Proc.devRef .tc main_arg8) by after_results).trans hk.a8
  a9 := (show StableHlo.after hostOps5 (W c) (Proc.devRef .tc main_arg9) = W c (Proc.devRef .tc main_arg9) by after_results).trans hk.a9
  a10 := (show StableHlo.after hostOps5 (W c) (Proc.devRef .tc main_arg10) = W c (Proc.devRef .tc main_arg10) by after_results).trans hk.a10
  src := (show StableHlo.after hostOps5 (W c) (Proc.devRef .tc main_v1) = W c (Proc.devRef .tc main_v1) by after_results).trans hk.src
  dst := (show StableHlo.after hostOps5 (W c) (Proc.devRef .tc main_v3) = W c (Proc.devRef .tc main_v3) by after_results).trans hk.dst

/-! ## The column variance (boundary 16 to 17) -/

attribute [local irreducible] Host.reduce Host.gather Host.reduceAdd in
/-- With the correction the integer zero, the stretch's result is the specification's population variance. -/
theorem s51_v65 (X : Valuation τ sig (Elt Ideal)) (h5 : X (Proc.devRef .tc main_c_5) = (constantI S_ 32 0#32 : IVec S_ 32)) :
    StableHlo.after hostOps5_1 X (Proc.devRef .tc main_v65) = GINE.colVar (X (Proc.devRef .tc main_v60)) := by
  after_results
  simp only [ofBuf_toBuf]
  rw [h5]
  rfl

theorem s51_v38 (X : Valuation τ sig (Elt Ideal)) :
    StableHlo.after hostOps5_1 X (Proc.devRef .tc main_v38) = X (Proc.devRef .tc main_v38) := by
  after_results

theorem s51_v60 (X : Valuation τ sig (Elt Ideal)) :
    StableHlo.after hostOps5_1 X (Proc.devRef .tc main_v60) = X (Proc.devRef .tc main_v60) := by
  after_results

theorem s51_v64 (X : Valuation τ sig (Elt Ideal)) :
    StableHlo.after hostOps5_1 X (Proc.devRef .tc main_v64) = X (Proc.devRef .tc main_v64) := by
  after_results

/-- The variance's operations touch none of the argument arrays nor the two edge rows. -/
theorem keeps_5_1 (W : Dev nD → Valuation τ sig (Elt Ideal)) (c : Dev nD) (hk : Keeps m W c) :
    Keeps m (fun c => StableHlo.after hostOps5_1 (W c)) c where
  a0 := (show StableHlo.after hostOps5_1 (W c) (Proc.devRef .tc main_arg0) = W c (Proc.devRef .tc main_arg0) by after_results).trans hk.a0
  a1 := (show StableHlo.after hostOps5_1 (W c) (Proc.devRef .tc main_arg1) = W c (Proc.devRef .tc main_arg1) by after_results).trans hk.a1
  a2 := (show StableHlo.after hostOps5_1 (W c) (Proc.devRef .tc main_arg2) = W c (Proc.devRef .tc main_arg2) by after_results).trans hk.a2
  a3 := (show StableHlo.after hostOps5_1 (W c) (Proc.devRef .tc main_arg3) = W c (Proc.devRef .tc main_arg3) by after_results).trans hk.a3
  a4 := (show StableHlo.after hostOps5_1 (W c) (Proc.devRef .tc main_arg4) = W c (Proc.devRef .tc main_arg4) by after_results).trans hk.a4
  a5 := (show StableHlo.after hostOps5_1 (W c) (Proc.devRef .tc main_arg5) = W c (Proc.devRef .tc main_arg5) by after_results).trans hk.a5
  a6 := (show StableHlo.after hostOps5_1 (W c) (Proc.devRef .tc main_arg6) = W c (Proc.devRef .tc main_arg6) by after_results).trans hk.a6
  a7 := (show StableHlo.after hostOps5_1 (W c) (Proc.devRef .tc main_arg7) = W c (Proc.devRef .tc main_arg7) by after_results).trans hk.a7
  a8 := (show StableHlo.after hostOps5_1 (W c) (Proc.devRef .tc main_arg8) = W c (Proc.devRef .tc main_arg8) by after_results).trans hk.a8
  a9 := (show StableHlo.after hostOps5_1 (W c) (Proc.devRef .tc main_arg9) = W c (Proc.devRef .tc main_arg9) by after_results).trans hk.a9
  a10 := (show StableHlo.after hostOps5_1 (W c) (Proc.devRef .tc main_arg10) = W c (Proc.devRef .tc main_arg10) by after_results).trans hk.a10
  src := (show StableHlo.after hostOps5_1 (W c) (Proc.devRef .tc main_v1) = W c (Proc.devRef .tc main_v1) by after_results).trans hk.src
  dst := (show StableHlo.after hostOps5_1 (W c) (Proc.devRef .tc main_v3) = W c (Proc.devRef .tc main_v3) by after_results).trans hk.dst

/-! ## The statistics and the scale and shift as rows (boundary 17 to 18) -/

theorem s52_v66 (X : Valuation τ sig (Elt Ideal)) :
    GINE.rowOf (StableHlo.after hostOps5_2 X (Proc.devRef .tc main_v66)) = X (Proc.devRef .tc main_v65) := by
  have e : StableHlo.after hostOps5_2 X (Proc.devRef .tc main_v66) = shapeCast GINE.S1x128 (X (Proc.devRef .tc main_v65)) shapeCasts_S128_S1x128 := by
    after_results
    rfl
  rw [e, rowOf_shapeCast]

theorem s52_v69 (X : Valuation τ sig (Elt Ideal)) :
    GINE.rowOf (StableHlo.after hostOps5_2 X (Proc.devRef .tc main_v69)) = GINE.prow 1 (X (Proc.devRef .tc main_arg9)) := by
  have e : StableHlo.after hostOps5_2 X (Proc.devRef .tc main_v69) = shapeCast GINE.S1x128 (GINE.prow 1 (X (Proc.devRef .tc main_arg9))) shapeCasts_S128_S1x128 := by
    after_results
    rfl
  rw [e, rowOf_shapeCast]

theorem s52_v72 (X : Valuation τ sig (Elt Ideal)) :
    GINE.rowOf (StableHlo.after hostOps5_2 X (Proc.devRef .tc main_v72)) = GINE.prow 1 (X (Proc.devRef .tc main_arg10)) := by
  have e : StableHlo.after hostOps5_2 X (Proc.devRef .tc main_v72) = shapeCast GINE.S1x128 (GINE.prow 1 (X (Proc.devRef .tc main_arg10))) shapeCasts_S128_S1x128 := by
    after_results
    rfl
  rw [e, rowOf_shapeCast]

theorem s52_v38 (X : Valuation τ sig (Elt Ideal)) :
    StableHlo.after hostOps5_2 X (Proc.devRef .tc main_v38) = X (Proc.devRef .tc main_v38) := by
  after_results

theorem s52_v60 (X : Valuation τ sig (Elt Ideal)) :
    StableHlo.after hostOps5_2 X (Proc.devRef .tc main_v60) = X (Proc.devRef .tc main_v60) := by
  after_results

theorem s52_v64 (X : Valuation τ sig (Elt Ideal)) :
    StableHlo.after hostOps5_2 X (Proc.devRef .tc main_v64) = X (Proc.devRef .tc main_v64) := by
  after_results

/-- The reshapes and slices before the normalisation touch none of the argument arrays nor the two edge rows. -/
theorem keeps_5_2 (W : Dev nD → Valuation τ sig (Elt Ideal)) (c : Dev nD) (hk : Keeps m W c) :
    Keeps m (fun c => StableHlo.after hostOps5_2 (W c)) c where
  a0 := (show StableHlo.after hostOps5_2 (W c) (Proc.devRef .tc main_arg0) = W c (Proc.devRef .tc main_arg0) by after_results).trans hk.a0
  a1 := (show StableHlo.after hostOps5_2 (W c) (Proc.devRef .tc main_arg1) = W c (Proc.devRef .tc main_arg1) by after_results).trans hk.a1
  a2 := (show StableHlo.after hostOps5_2 (W c) (Proc.devRef .tc main_arg2) = W c (Proc.devRef .tc main_arg2) by after_results).trans hk.a2
  a3 := (show StableHlo.after hostOps5_2 (W c) (Proc.devRef .tc main_arg3) = W c (Proc.devRef .tc main_arg3) by after_results).trans hk.a3
  a4 := (show StableHlo.after hostOps5_2 (W c) (Proc.devRef .tc main_arg4) = W c (Proc.devRef .tc main_arg4) by after_results).trans hk.a4
  a5 := (show StableHlo.after hostOps5_2 (W c) (Proc.devRef .tc main_arg5) = W c (Proc.devRef .tc main_arg5) by after_results).trans hk.a5
  a6 := (show StableHlo.after hostOps5_2 (W c) (Proc.devRef .tc main_arg6) = W c (Proc.devRef .tc main_arg6) by after_results).trans hk.a6
  a7 := (show StableHlo.after hostOps5_2 (W c) (Proc.devRef .tc main_arg7) = W c (Proc.devRef .tc main_arg7) by after_results).trans hk.a7
  a8 := (show StableHlo.after hostOps5_2 (W c) (Proc.devRef .tc main_arg8) = W c (Proc.devRef .tc main_arg8) by after_results).trans hk.a8
  a9 := (show StableHlo.after hostOps5_2 (W c) (Proc.devRef .tc main_arg9) = W c (Proc.devRef .tc main_arg9) by after_results).trans hk.a9
  a10 := (show StableHlo.after hostOps5_2 (W c) (Proc.devRef .tc main_arg10) = W c (Proc.devRef .tc main_arg10) by after_results).trans hk.a10
  src := (show StableHlo.after hostOps5_2 (W c) (Proc.devRef .tc main_v1) = W c (Proc.devRef .tc main_v1) by after_results).trans hk.src
  dst := (show StableHlo.after hostOps5_2 (W c) (Proc.devRef .tc main_v3) = W c (Proc.devRef .tc main_v3) by after_results).trans hk.dst

/-! ## The normalisation region (boundary 18 to 19) -/

/-- The region's output array is the specification's normalisation of the arrays the region finds. -/
theorem w19_v73 (c : Dev nD) :
    W19 m ρ c (Proc.devRef .tc main_v73)
      = GINE.bn (W18 m ρ c (Proc.devRef .tc main_v60)) (GINE.rowOf (W18 m ρ c (Proc.devRef .tc main_v64))) (GINE.rowOf (W18 m ρ c (Proc.devRef .tc main_v66)))
          (GINE.rowOf (W18 m ρ c (Proc.devRef .tc main_v69))) (GINE.rowOf (W18 m ρ c (Proc.devRef .tc main_v72))) (W18 m ρ c (Proc.devRef .tc main_v38)) :=
  (W19_arr m ρ c 6).trans (RegionVal.region5 (V18 m ρ) c)

/-- No kept buffer is an array of the normalisation region. -/
theorem keeps_r5 (c : Dev nD) (hk : Keeps m (W18 m ρ) c) : Keeps m (W19 m ρ) c where
  a0 := (W19_of_ne m ρ c main_arg0 (by decide)).trans hk.a0
  a1 := (W19_of_ne m ρ c main_arg1 (by decide)).trans hk.a1
  a2 := (W19_of_ne m ρ c main_arg2 (by decide)).trans hk.a2
  a3 := (W19_of_ne m ρ c main_arg3 (by decide)).trans hk.a3
  a4 := (W19_of_ne m ρ c main_arg4 (by decide)).trans hk.a4
  a5 := (W19_of_ne m ρ c main_arg5 (by decide)).trans hk.a5
  a6 := (W19_of_ne m ρ c main_arg6 (by decide)).trans hk.a6
  a7 := (W19_of_ne m ρ c main_arg7 (by decide)).trans hk.a7
  a8 := (W19_of_ne m ρ c main_arg8 (by decide)).trans hk.a8
  a9 := (W19_of_ne m ρ c main_arg9 (by decide)).trans hk.a9
  a10 := (W19_of_ne m ρ c main_arg10 (by decide)).trans hk.a10
  src := (W19_of_ne m ρ c main_v1 (by decide)).trans hk.src
  dst := (W19_of_ne m ρ c main_v3 (by decide)).trans hk.dst

/-! ## The round -/

/-- The second round, from what the first left in `main_v38`. -/
theorem layer1 (c : Dev nD) (hok : GINE.SrcOK (GINE.edgeRow 0 (m ((c : Thread nD τ).loc main_arg1)))) (h : GINE.Node)
    (hk : Keeps m (W10 m ρ) c) (hh : W10 m ρ c (Proc.devRef .tc main_v38) = h) :
    Keeps m (W19 m ρ) c ∧ W19 m ρ c (Proc.devRef .tc main_v73) = layerK m 1 c h := by
  -- boundary 11: the source rows of the table
  have k11 : Keeps m (W11 m ρ) c := keeps_3 m (W10 m ρ) c hk
  have h11 : W11 m ρ c (Proc.devRef .tc main_v38) = h := (s3_v38 (W10 m ρ c)).trans hh
  have g11 : W11 m ρ c (Proc.devRef .tc main_v39) = _ := s3_take (W10 m ρ c)
  rw [hh, hk.src, takeK_eq h _ hok] at g11
  -- boundary 12: the edge transform's slab and bias
  have k12 : Keeps m (W12 m ρ) c := keeps_3_1 m (W11 m ρ) c k11
  have h12 : W12 m ρ c (Proc.devRef .tc main_v38) = h := (s31_v38 (W11 m ρ c)).trans h11
  have g12 : W12 m ρ c (Proc.devRef .tc main_v39) = _ := (s31_v39 (W11 m ρ c)).trans g11
  have we12 : W12 m ρ c (Proc.devRef .tc main_v41) = _ := s31_v41 (W11 m ρ c)
  rw [k11.a3] at we12
  have be12 : GINE.rowOf (W12 m ρ c (Proc.devRef .tc main_v44)) = _ := s31_v44 (W11 m ρ c)
  rw [k11.a4] at be12
  -- boundary 13: the messages
  have k13 : Keeps m (W13 m ρ) c := keeps_r3 m ρ c k12
  have h13 : W13 m ρ c (Proc.devRef .tc main_v38) = h := (W13_of_ne m ρ c main_v38 (by decide)).trans h12
  have msg13 := w13_v45 m ρ c
  rw [k12.a2, g12, we12, be12] at msg13
  -- boundary 14: the perceptron's input and parameters
  have k14 : Keeps m (W14 m ρ) c := keeps_4 m (W13 m ρ) c k13
  have h14 : W14 m ρ c (Proc.devRef .tc main_v38) = h := (s4_v38 (W13 m ρ c)).trans h13
  have z14 : W14 m ρ c (Proc.devRef .tc main_v49) = _ := s4_v49 (W13 m ρ c)
  rw [h13, k13.dst, msg13] at z14
  have w1_14 : W14 m ρ c (Proc.devRef .tc main_v51) = _ := s4_v51 (W13 m ρ c)
  rw [k13.a5] at w1_14
  have b1_14 : GINE.rowOf (W14 m ρ c (Proc.devRef .tc main_v54)) = _ := s4_v54 (W13 m ρ c)
  rw [k13.a6] at b1_14
  have w2_14 : W14 m ρ c (Proc.devRef .tc main_v56) = _ := s4_v56 (W13 m ρ c)
  rw [k13.a7] at w2_14
  have b2_14 : GINE.rowOf (W14 m ρ c (Proc.devRef .tc main_v59)) = _ := s4_v59 (W13 m ρ c)
  rw [k13.a8] at b2_14
  -- boundary 15: the perceptron's output
  have k15 : Keeps m (W15 m ρ) c := keeps_r4 m ρ c k14
  have h15 : W15 m ρ c (Proc.devRef .tc main_v38) = h := (W15_of_ne m ρ c main_v38 (by decide)).trans h14
  have z15 := w15_v60 m ρ c
  rw [z14, w1_14, b1_14, w2_14, b2_14] at z15
  -- boundary 16: the column mean
  have k16 : Keeps m (W16 m ρ) c := keeps_5 m (W15 m ρ) c k15
  have h16 : W16 m ρ c (Proc.devRef .tc main_v38) = h := (s5_v38 (W15 m ρ c)).trans h15
  have z16 : W16 m ρ c (Proc.devRef .tc main_v60) = _ := (s5_v60 (W15 m ρ c)).trans z15
  have mu16 : GINE.rowOf (W16 m ρ c (Proc.devRef .tc main_v64)) = _ := s5_v64 (W15 m ρ c)
  rw [z15] at mu16
  have c16 : W16 m ρ c (Proc.devRef .tc main_c_5) = _ := s5_c5 (W15 m ρ c)
  -- boundary 17: the column variance
  have k17 : Keeps m (W17 m ρ) c := keeps_5_1 m (W16 m ρ) c k16
  have h17 : W17 m ρ c (Proc.devRef .tc main_v38) = h := (s51_v38 (W16 m ρ c)).trans h16
  have z17 : W17 m ρ c (Proc.devRef .tc main_v60) = _ := (s51_v60 (W16 m ρ c)).trans z16
  have mu17 : GINE.rowOf (W17 m ρ c (Proc.devRef .tc main_v64)) = _ := (congrArg GINE.rowOf (s51_v64 (W16 m ρ c))).trans mu16
  have var17 : W17 m ρ c (Proc.devRef .tc main_v65) = _ := s51_v65 (W16 m ρ c) c16
  rw [z16] at var17
  -- boundary 18: the statistics, the scale and the shift as rows
  have k18 : Keeps m (W18 m ρ) c := keeps_5_2 m (W17 m ρ) c k17
  have h18 : W18 m ρ c (Proc.devRef .tc main_v38) = h := (s52_v38 (W17 m ρ c)).trans h17
  have z18 : W18 m ρ c (Proc.devRef .tc main_v60) = _ := (s52_v60 (W17 m ρ c)).trans z17
  have mu18 : GINE.rowOf (W18 m ρ c (Proc.devRef .tc main_v64)) = _ := (congrArg GINE.rowOf (s52_v64 (W17 m ρ c))).trans mu17
  have var18 : GINE.rowOf (W18 m ρ c (Proc.devRef .tc main_v66)) = _ := (s52_v66 (W17 m ρ c)).trans var17
  have ga18 : GINE.rowOf (W18 m ρ c (Proc.devRef .tc main_v69)) = _ := s52_v69 (W17 m ρ c)
  rw [k17.a9] at ga18
  have be18 : GINE.rowOf (W18 m ρ c (Proc.devRef .tc main_v72)) = _ := s52_v72 (W17 m ρ c)
  rw [k17.a10] at be18
  -- boundary 19: the normalised table plus a tenth of the round's input
  have out := w19_v73 m ρ c
  rw [z18, mu18, var18, ga18, be18, h18] at out
  exact ⟨keeps_r5 m ρ c k18, out⟩

end Cert.KernelIdeal.Layers

end
-- ==== Proof.RegionE6.lean ====
import proofs.«403306_j43559558316462_1_alg».proof.Proof.Gen.KernelIdeal.Frame
import proofs.«403306_j43559558316462_1_alg».proof.Proof.Spec
import proofs.«403306_j43559558316462_1_alg».proof.Proof.EdgeMsgBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The third round's edge messages: from the blocks to the array

The grid has 100 points; point `t` takes rows `8000 t … 8000 t + 7999` of the edge features and of the gathered
rows, the whole weight slab and the whole bias row, and writes rows `8000 t … 8000 t + 7999` of the messages. -/

/-- The printed index maps, decided over the 100 grid points: the edge features, the gathered rows and the
    messages move down one block of rows per point; the weight slab and the bias row are fetched whole. -/
theorem edge6_blockIndex : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- What point `t` writes back is block `t` of the specification's message array, of the arrays as the region
    finds them. -/
theorem edge6_flushed_eq (c : Dev nD) (t : Fin cfg6.N) :
    (dat6 (F := Ideal) V c).flushed 4 t = ((cfg6.win 4).blk t).view.read (Elt Ideal)
      (GINE.edgeMsg (V c main_arg2) (V c main_v74) (V c main_v76) (GINE.rowOf (V c main_v79))) := by
  show (cfg6.win 4).cut (grid6.coords t) ((dat6 V c).after 4 t) = _
  rw [after6_4]
  unfold out6_4
  rw [View.canon_unit_zero EdgeMsg.zeroOffsets]
  simp only [View.ld_unit_zero (S := S8000x32) EdgeMsg.zeroOffsets, View.ld_unit_zero (S := S32x128) EdgeMsg.zeroOffsets,
    View.ld_unit_zero (S := S1x128) EdgeMsg.zeroOffsets, View.ld_unit_zero (S := S8000x128) EdgeMsg.zeroOffsets]
  obtain ⟨a0, a1, b0, b1, w0, w1, r0, r1, o0, o1⟩ := edge6_blockIndex t
  funext j
  refine EdgeMsg.block_eq k6_pay1 EdgeMsg.payload6_apply (V c main_arg2) (V c main_v74) (V c main_v76) (V c main_v79) t.val
    (fun y => ((cfg6.win 0).blk t).view.emb y) (fun y => ((cfg6.win 1).blk t).view.emb y)
    (fun y => ((cfg6.win 4).blk t).view.emb y) (fun y => ((cfg6.win 2).blk t).view.emb y)
    (fun y => ((cfg6.win 3).blk t).view.emb y) ?_ ?_ ?_ ?_ ?_ ?_ ?_ ?_ ?_ ?_ j
  · intro y; show win6_0.index t (0 : Fin 2) * 8000 + 1 * (y 0).val = _; omega
  · intro y; show win6_0.index t (1 : Fin 2) * 32 + 1 * (y 1).val = _; omega
  · intro y; show win6_1.index t (0 : Fin 2) * 8000 + 1 * (y 0).val = _; omega
  · intro y; show win6_1.index t (1 : Fin 2) * 128 + 1 * (y 1).val = _; omega
  · intro y; show win6_2.index t (0 : Fin 2) * 32 + 1 * (y 0).val = _; omega
  · intro y; show win6_2.index t (1 : Fin 2) * 128 + 1 * (y 1).val = _; omega
  · intro y; show win6_3.index t (0 : Fin 2) * 1 + 1 * (y 0).val = _; omega
  · intro y; show win6_3.index t (1 : Fin 2) * 128 + 1 * (y 1).val = _; omega
  · intro y; show win6_4.index t (0 : Fin 2) * 8000 + 1 * (y 0).val = _; omega
  · intro y; show win6_4.index t (1 : Fin 2) * 128 + 1 * (y 1).val = _; omega

/-- An index of the message array is in point `t`'s block iff each coordinate is in the block's range on its axis. -/
theorem edge6_mem_block (t : Fin cfg6.N) (i : S800000x128.Idx) :
    i ∈ ((cfg6.win 4).blk t).view.set ↔ ∀ a : Fin 2, win6_4.index t a * S8000x128.size a ≤ (i a).val
      ∧ (i a).val < win6_4.index t a * S8000x128.size a + S8000x128.size a := by
  show i ∈ ((View.whole main_v80).slice (win6_4.rect t)).set ↔ _
  rw [View.set_slice_whole, Rect.mem_set_unit]
  exact Iff.rfl

/-- Every row of the message array is in the block of the point that its row number divided by 8000 names. -/
theorem edge6_covered (i : S800000x128.Idx) :
    ∃ t : Fin cfg6.N, (cfg6.win 4).flush t = true ∧ i ∈ ((cfg6.win 4).blk t).view.set := by
  have hi0 : (i 0).val < 800000 := (i 0).isLt
  have hi1 : (i 1).val < 128 := (i 1).isLt
  have hN : cfg6.N = 100 := N_6
  let t : Fin cfg6.N := ⟨(i 0).val / 8000, by rw [hN]; omega⟩
  obtain ⟨a0, a1, b0, b1, w0, w1, r0, r1, o0, o1⟩ := edge6_blockIndex t
  have ht : t.val = (i 0).val / 8000 := rfl
  refine ⟨t, flush6_4 t, ?_⟩
  rw [edge6_mem_block]
  intro a
  match a with
  | ⟨0, _⟩ => show win6_4.index t (0 : Fin 2) * 8000 ≤ (i 0).val ∧ (i 0).val < win6_4.index t (0 : Fin 2) * 8000 + 8000; omega
  | ⟨1, _⟩ => show win6_4.index t (1 : Fin 2) * 128 ≤ (i 1).val ∧ (i 1).val < win6_4.index t (1 : Fin 2) * 128 + 128; omega

theorem region6 (c : Dev nD) :
    (dat6 (F := Ideal) V c).arrAt 4 cfg6.N
      = GINE.edgeMsg (V c main_arg2) (V c main_v74) (V c main_v76) (GINE.rowOf (V c main_v79)) := by
  exact (dat6 (F := Ideal) V c).arrAt_eq_of_cover 4 _ (fun t _ => edge6_flushed_eq V c t) edge6_covered

end Cert.KernelIdeal.RegionVal

end
-- ==== Proof.RegionM7.lean ====
/-
  Region 7 (the node perceptron of round three): the array the region writes is the specification's perceptron of
  the arrays the region finds. The grid has ten points; point t reads rows 5000·t … 5000·t + 4999 of the node
  table and the four parameter arrays whole, and writes the same rows of the output.
-/
import proofs.«403306_j43559558316462_1_alg».proof.Proof.Gen.KernelIdeal.Frame
import proofs.«403306_j43559558316462_1_alg».proof.Proof.Spec
import proofs.«403306_j43559558316462_1_alg».proof.Proof.NodeMlpBlock
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store sit at the zero offsets of their buffers. -/
theorem mlp7_offsets : (![0, 0] : Fin 2 → Nat) = fun _ => 0 := funext fun a => by fin_cases a <;> rfl

/-- The printed index maps over the grid: the node table's block and the output's are the point's own on the rows
    and block 0 on the columns; each parameter array is block 0 on both axes. -/
theorem mlp7_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The body's arithmetic at an entry of its block is the specification's perceptron at an entry of the node
    table, when the block's row is the table's row there and the columns agree. -/
theorem mlp7_entry (A : GINE.Node) (W1 : FVec Ideal S128x128 .f32) (B1 : FVec Ideal S1x128 .f32)
    (W2 : FVec Ideal S128x128 .f32) (B2 : FVec Ideal S1x128 .f32) (x0 : Vec Ideal S5000x128 .f32)
    (i : S50000x128.Idx) (j : S5000x128.Idx)
    (hrow : ∀ k : Fin 128, x0 (ix2 (j 0) k) = A (ix2 (i 0) k)) (hcol : j 1 = i 1) :
    k7_pay1 (F := Ideal) x0 W1 B1 W2 B2 j = GINE.mlp A W1 (GINE.rowOf B1) W2 (GINE.rowOf B2) i := by
  obtain ⟨p, q, rfl⟩ : ∃ (p : Fin 5000) (q : Fin 128), j = ix2 p q := ⟨j 0, j 1, eq_ix2 j⟩
  rw [NodeMlp.k7_pay1_eq, NodeMlp.mlpBlock_apply]
  have hq : q = i 1 := hcol
  subst hq
  unfold GINE.mlp GINE.rowOf
  refine congrArg (· + B2 (ix2 0 (i 1))) (Finset.sum_congr rfl fun k _ => ?_)
  have hs : (∑ k' : Fin 128, x0 (ix2 p k') * W1 (ix2 k' k)) = ∑ k' : Fin 128, A (ix2 (i 0) k') * W1 (ix2 k' k) :=
    Finset.sum_congr rfl fun k' _ => by rw [hrow k']
  rw [hs]

/-- What point t writes back is block t of the perceptron of the arrays the region finds. -/
theorem mlp7_written (c : Dev nD) (t : Fin cfg7.N) :
    (dat7 (F := Ideal) V c).flushed 5 t = ((cfg7.win 5).blk t).view.read (Elt Ideal)
      (GINE.mlp (V c main_v84) (V c main_v86) (GINE.rowOf (V c main_v89)) (V c main_v91) (GINE.rowOf (V c main_v94))) := by
  show (cfg7.win 5).cut (grid7.coords t) ((dat7 (F := Ideal) V c).after 5 t) = _
  rw [after7_5]
  unfold out7_5
  rw [View.canon_unit_zero mlp7_offsets]
  simp only [View.ld_unit_zero (S := S5000x128) mlp7_offsets, View.ld_unit_zero (S := S128x128) mlp7_offsets,
    View.ld_unit_zero (S := S1x128) mlp7_offsets]
  obtain ⟨e00, e01, e10, e11, e20, e21, e30, e31, e40, e41, e50, e51⟩ := mlp7_index t
  have h1 : iblk7 V c 1 t = V c main_v86 := by
    funext y
    show V c main_v86 (((cfg7.win 1).blk t).view.emb y) = V c main_v86 y
    refine congrArg _ (funext fun a => Fin.ext ?_)
    match a with
    | ⟨0, _⟩ => show win7_1.index t (0 : Fin 2) * 128 + 1 * (y 0).val = (y 0).val; omega
    | ⟨1, _⟩ => show win7_1.index t (1 : Fin 2) * 128 + 1 * (y 1).val = (y 1).val; omega
  have h2 : iblk7 V c 2 t = V c main_v89 := by
    funext y
    show V c main_v89 (((cfg7.win 2).blk t).view.emb y) = V c main_v89 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  have h3 : iblk7 V c 3 t = V c main_v91 := by
    funext y
    show V c main_v91 (((cfg7.win 3).blk t).view.emb y) = V c main_v91 y
    refine congrArg _ (funext fun a => Fin.ext ?_)
    match a with
    | ⟨0, _⟩ => show win7_3.index t (0 : Fin 2) * 128 + 1 * (y 0).val = (y 0).val; omega
    | ⟨1, _⟩ => show win7_3.index t (1 : Fin 2) * 128 + 1 * (y 1).val = (y 1).val; omega
  have h4 : iblk7 V c 4 t = V c main_v94 := by
    funext y
    show V c main_v94 (((cfg7.win 4).blk t).view.emb y) = V c main_v94 y
    refine congrArg _ (funext fun a => Fin.ext ?_)
    match a with
    | ⟨0, _⟩ => show win7_4.index t (0 : Fin 2) * 1 + 1 * (y 0).val = (y 0).val; omega
    | ⟨1, _⟩ => show win7_4.index t (1 : Fin 2) * 128 + 1 * (y 1).val = (y 1).val; omega
  rw [h1, h2, h3, h4]
  funext j
  refine mlp7_entry (V c main_v84) (V c main_v86) (V c main_v89) (V c main_v91) (V c main_v94) (iblk7 V c 0 t)
    (((cfg7.win 5).blk t).view.emb j) j (fun k => ?_) (Fin.ext ?_)
  · show V c main_v84 (((cfg7.win 0).blk t).view.emb (ix2 (j 0) k)) = V c main_v84 (ix2 ((((cfg7.win 5).blk t).view.emb j) 0) k)
    refine congrArg _ (funext fun a => Fin.ext ?_)
    match a with
    | ⟨0, _⟩ => show win7_0.index t (0 : Fin 2) * 5000 + 1 * (j 0).val = win7_5.index t (0 : Fin 2) * 5000 + 1 * (j 0).val; omega
    | ⟨1, _⟩ => show win7_0.index t (1 : Fin 2) * 128 + 1 * k.val = k.val; omega
  · show (j 1).val = win7_5.index t (1 : Fin 2) * 128 + 1 * (j 1).val
    omega

/-- An entry of the output array is in point t's block iff each coordinate is in the block's range on its axis. -/
theorem mlp7_mem_block (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v95).slice (win7_5.rect t)).set ↔ _
  rw [View.set_slice_whole, Rect.mem_set_unit]
  exact Iff.rfl

/-- The ten row blocks fill the output array: row r is in the block of point r / 5000. -/
theorem mlp7_cover (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : (i 0).val / 5000 < cfg7.N := by
    show (i 0).val / 5000 < grid7.N
    rw [N_7]; omega
  obtain ⟨e00, e01, e10, e11, e20, e21, e30, e31, e40, e41, e50, e51⟩ := mlp7_index ⟨(i 0).val / 5000, hN⟩
  have e50' : win7_5.index ⟨(i 0).val / 5000, hN⟩ (0 : Fin 2) = (i 0).val / 5000 := e50
  refine ⟨⟨(i 0).val / 5000, hN⟩, flush7_5 _, ?_⟩
  rw [mlp7_mem_block]
  intro a
  match a with
  | ⟨0, _⟩ =>
    show win7_5.index ⟨(i 0).val / 5000, hN⟩ (0 : Fin 2) * 5000 ≤ (i 0).val
      ∧ (i 0).val < win7_5.index ⟨(i 0).val / 5000, hN⟩ (0 : Fin 2) * 5000 + 5000
    omega
  | ⟨1, _⟩ =>
    show win7_5.index ⟨(i 0).val / 5000, hN⟩ (1 : Fin 2) * 128 ≤ (i 1).val
      ∧ (i 1).val < win7_5.index ⟨(i 0).val / 5000, hN⟩ (1 : Fin 2) * 128 + 128
    omega

theorem region7 (c : Dev nD) :
    (dat7 (F := Ideal) V c).arrAt 5 cfg7.N
      = GINE.mlp (V c main_v84) (V c main_v86) (GINE.rowOf (V c main_v89)) (V c main_v91) (GINE.rowOf (V c main_v94)) :=
  (dat7 (F := Ideal) V c).arrAt_eq_of_cover 5 _ (fun t _ => mlp7_written V c t) mlp7_cover

end Cert.KernelIdeal.RegionVal

end
-- ==== Proof.RegionB8.lean ====
import proofs.«403306_j43559558316462_1_alg».proof.Proof.Gen.KernelIdeal.Frame
import proofs.«403306_j43559558316462_1_alg».proof.Proof.Spec
import Idealize.ShloMosaic.Lib.Pipeline.Value

set_option maxRecDepth 16384

noncomputable section

namespace Cert.KernelIdeal.RegionVal

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The normalisation body at one entry of a block

The body of region 8 reads a block of 5000 rows of the perceptron's output, the four parameter rows (mean,
variance, scale, shift) and the same 5000 rows of the round's input, and writes
`max ((z - μ) · rsqrt (σ² + ε) · γ + β) 0 + 0.1 · h` entry by entry: every operation in it is pointwise, the
rows being repeated down the block. -/

/-- The two zero offsets of a whole-buffer load or store, however they are spelt. -/
theorem zero_offsets8 : (![0, 0] : Fin 2 → Nat) = fun _ => 0 := funext fun a => by fin_cases a <;> rfl

/-- A parameter row repeated down the 5000 rows of a block reads the row's entry of the same column. -/
theorem row_repeat_at8 {α : Type} (r : S1x128.Idx → α) (p : Fin 5000) (q : Fin 128) :
    broadcastTo S5000x128 r broadcasts_S1x128_S5000x128 (ix2 p q) = r (ix2 0 q) := by
  refine broadcastTo_apply r broadcasts_S1x128_S5000x128 (ix2 p q) (ix2 0 q) ?_
  intro a
  match a with
  | ⟨0, _⟩ => rfl
  | ⟨1, _⟩ => rfl

/-- The body's stored value at row `p`, column `q` of the block. The variance row is the body's second operand
    and the mean row its third. -/
theorem bn_body_at8 (z : Vec Ideal S5000x128 .f32) (var mu gamma beta : Vec Ideal S1x128 .f32)
    (h : Vec Ideal S5000x128 .f32) (p : Fin 5000) (q : Fin 128) :
    k8_pay1 (F := Ideal) z var mu gamma beta h (ix2 p q)
      = max ((z (ix2 p q) - mu (ix2 0 q)) * Ideal.rsqrt (var (ix2 0 q) + GINE.eps) * gamma (ix2 0 q) + beta (ix2 0 q)) GINE.zero
          + GINE.tenth * h (ix2 p q) := by
  unfold k8_pay1
  simp only [shapeCast_self, addf_apply, mulf_apply, subf_apply, maximumf_apply, broadcast_apply, row_repeat_at8]
  rfl

/-- The body's stored value at an entry `j` of the block is the specification's `bn` at the entry `i` of the node
    table, as soon as the two big blocks hold the tables' values at `i`, the four rows are the whole parameter rows,
    and `i` is in `j`'s column. -/
theorem bn_body_is_spec8 (Z H : GINE.Node) (Mu Var Ga Be : Vec Ideal S1x128 .f32)
    (z h : Vec Ideal S5000x128 .f32) (mu var ga be : Vec Ideal S1x128 .f32) (j : S5000x128.Idx) (i : S50000x128.Idx)
    (hz : z j = Z i) (hh : h j = H i) (hmu : mu = Mu) (hvar : var = Var) (hga : ga = Ga) (hbe : be = Be)
    (hcol : (i 1).val = (j 1).val) :
    k8_pay1 (F := Ideal) z var mu ga be h j
      = GINE.bn Z (GINE.rowOf Mu) (GINE.rowOf Var) (GINE.rowOf Ga) (GINE.rowOf Be) H i := by
  subst hmu hvar hga hbe
  obtain ⟨p, q, rfl⟩ : ∃ (p : Fin 5000) (q : Fin 128), j = ix2 p q := ⟨j 0, j 1, eq_ix2 j⟩
  have hq : i 1 = q := Fin.ext hcol
  rw [bn_body_at8, hz, hh]
  subst hq
  rfl

/-! ## From the blocks to the array -/

/-- Where the windows' blocks sit at grid point `t`, decided over the ten points: the two big inputs move with
    the output, down the rows, block `t` at point `t`; the four parameter rows are fetched whole. -/
theorem block_places8 : ∀ t : Fin cfg8.N,
    win8_0.index t (0 : Fin 2) = win8_6.index t (0 : Fin 2) ∧ win8_0.index t (1 : Fin 2) = 0
    ∧ win8_5.index t (0 : Fin 2) = win8_6.index t (0 : Fin 2) ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = t.val ∧ win8_6.index t (1 : Fin 2) = 0 :=
  (by decide +kernel : ∀ t : Fin grid8.N, _)

/-- The mean row's block at any point is the whole row. -/
theorem mean_block8 (c : Dev nD) (t : Fin cfg8.N) :
    (iblk8 (F := Ideal) V c 1 t : Vec Ideal S1x128 .f32) = V c main_v99 := by
  obtain ⟨-, -, -, -, e0, e1, -⟩ := block_places8 t
  funext y
  show V c main_v99 (((cfg8.win 1).blk t).view.emb y) = V c main_v99 y
  refine congrArg (V c main_v99) (funext fun a => Fin.ext ?_)
  match a with
  | ⟨0, _⟩ => show win8_1.index t (0 : Fin 2) * 1 + 1 * (y 0).val = (y 0).val; omega
  | ⟨1, _⟩ => show win8_1.index t (1 : Fin 2) * 128 + 1 * (y 1).val = (y 1).val; omega

/-- The variance row's block at any point is the whole row. -/
theorem var_block8 (c : Dev nD) (t : Fin cfg8.N) :
    (iblk8 (F := Ideal) V c 2 t : Vec Ideal S1x128 .f32) = V c main_v101 := by
  obtain ⟨-, -, -, -, -, -, e0, e1, -⟩ := block_places8 t
  funext y
  show V c main_v101 (((cfg8.win 2).blk t).view.emb y) = V c main_v101 y
  refine congrArg (V c main_v101) (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- The scale row's block at any point is the whole row. -/
theorem scale_block8 (c : Dev nD) (t : Fin cfg8.N) :
    (iblk8 (F := Ideal) V c 3 t : Vec Ideal S1x128 .f32) = V c main_v104 := by
  obtain ⟨-, -, -, -, -, -, -, -, e0, e1, -⟩ := block_places8 t
  funext y
  show V c main_v104 (((cfg8.win 3).blk t).view.emb y) = V c main_v104 y
  refine congrArg (V c main_v104) (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

/-- The shift row's block at any point is the whole row. -/
theorem shift_block8 (c : Dev nD) (t : Fin cfg8.N) :
    (iblk8 (F := Ideal) V c 4 t : Vec Ideal S1x128 .f32) = V c main_v107 := by
  obtain ⟨-, -, -, -, -, -, -, -, -, -, e0, e1, -⟩ := block_places8 t
  funext y
  show V c main_v107 (((cfg8.win 4).blk t).view.emb y) = V c main_v107 y
  refine congrArg (V c main_v107) (funext fun a => Fin.ext ?_)
  match a with
  | ⟨0, _⟩ => show win8_4.index t (0 : Fin 2) * 1 + 1 * (y 0).val = (y 0).val; omega
  | ⟨1, _⟩ => show win8_4.index t (1 : Fin 2) * 128 + 1 * (y 1).val = (y 1).val; omega

/-- What point `t` writes back is block `t` of the specification's `bn` of the arrays as the region finds them. -/
theorem written_back8 (c : Dev nD) (t : Fin cfg8.N) :
    (dat8 (F := Ideal) V c).flushed 6 t = ((cfg8.win 6).blk t).view.read (Elt Ideal)
      (GINE.bn (V c main_v95) (GINE.rowOf (V c main_v99)) (GINE.rowOf (V c main_v101)) (GINE.rowOf (V c main_v104)) (GINE.rowOf (V c main_v107)) (V c main_v73)) := by
  show (cfg8.win 6).cut (grid8.coords t) ((dat8 V c).after 6 t) = _
  rw [after8_6]
  unfold out8_6
  rw [View.canon_unit_zero zero_offsets8]
  simp only [View.ld_unit_zero (S := S5000x128) zero_offsets8, View.ld_unit_zero (S := S1x128) zero_offsets8]
  obtain ⟨e00, e01, e50, e51, -, -, -, -, -, -, -, -, e60, e61⟩ := block_places8 t
  funext j
  show k8_pay1 (F := Ideal) (iblk8 V c 0 t) (iblk8 V c 2 t) (iblk8 V c 1 t) (iblk8 V c 3 t) (iblk8 V c 4 t) (iblk8 V c 5 t) j
    = GINE.bn (V c main_v95) (GINE.rowOf (V c main_v99)) (GINE.rowOf (V c main_v101)) (GINE.rowOf (V c main_v104)) (GINE.rowOf (V c main_v107)) (V c main_v73)
        (((cfg8.win 6).blk t).view.emb j)
  refine bn_body_is_spec8 _ _ _ _ _ _ _ _ _ _ _ _ j _ ?_ ?_ (mean_block8 V c t) (var_block8 V c t) (scale_block8 V c t) (shift_block8 V c t) ?_
  · show V c main_v95 (((cfg8.win 0).blk t).view.emb j) = V c main_v95 (((cfg8.win 6).blk t).view.emb j)
    refine congrArg (V c main_v95) (funext fun a => Fin.ext ?_)
    match a with
    | ⟨0, _⟩ => show win8_0.index t (0 : Fin 2) * 5000 + 1 * (j 0).val = win8_6.index t (0 : Fin 2) * 5000 + 1 * (j 0).val; omega
    | ⟨1, _⟩ => show win8_0.index t (1 : Fin 2) * 128 + 1 * (j 1).val = win8_6.index t (1 : Fin 2) * 128 + 1 * (j 1).val; omega
  · show V c main_v73 (((cfg8.win 5).blk t).view.emb j) = V c main_v73 (((cfg8.win 6).blk t).view.emb j)
    refine congrArg (V c main_v73) (funext fun a => Fin.ext ?_)
    match a with
    | ⟨0, _⟩ => show win8_5.index t (0 : Fin 2) * 5000 + 1 * (j 0).val = win8_6.index t (0 : Fin 2) * 5000 + 1 * (j 0).val; omega
    | ⟨1, _⟩ => show win8_5.index t (1 : Fin 2) * 128 + 1 * (j 1).val = win8_6.index t (1 : Fin 2) * 128 + 1 * (j 1).val; omega
  · show win8_6.index t (1 : Fin 2) * 128 + 1 * (j 1).val = (j 1).val
    omega

/-- An entry of the node table is in point `t`'s output block iff each coordinate is in the block's range. -/
theorem mem_out_block8 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole main_v108).slice (win8_6.rect t)).set ↔ _
  rw [View.set_slice_whole, Rect.mem_set_unit]
  exact Iff.rfl

/-- Every entry of the node table is in some point's output block: row `r` in that of point `r / 5000`. -/
theorem out_blocks_cover8 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have hN : (i 0).val / 5000 < cfg8.N := by show _ < grid8.N; rw [N_8]; omega
  refine ⟨⟨(i 0).val / 5000, hN⟩, flush8_6 _, ?_⟩
  obtain ⟨-, -, -, -, -, -, -, -, -, -, -, -, e60, e61⟩ := block_places8 ⟨(i 0).val / 5000, hN⟩
  have e60' : win8_6.index ⟨(i 0).val / 5000, hN⟩ (0 : Fin 2) = (i 0).val / 5000 := e60
  rw [mem_out_block8]
  intro a
  match a with
  | ⟨0, _⟩ => show win8_6.index ⟨(i 0).val / 5000, hN⟩ (0 : Fin 2) * 5000 ≤ (i 0).val ∧ (i 0).val < win8_6.index ⟨(i 0).val / 5000, hN⟩ (0 : Fin 2) * 5000 + 5000; omega
  | ⟨1, _⟩ => show win8_6.index ⟨(i 0).val / 5000, hN⟩ (1 : Fin 2) * 128 ≤ (i 1).val ∧ (i 1).val < win8_6.index ⟨(i 0).val / 5000, hN⟩ (1 : Fin 2) * 128 + 128; omega

theorem region8 (c : Dev nD) :
    (dat8 (F := Ideal) V c).arrAt 6 cfg8.N
      = GINE.bn (V c main_v95) (GINE.rowOf (V c main_v99)) (GINE.rowOf (V c main_v101)) (GINE.rowOf (V c main_v104)) (GINE.rowOf (V c main_v107)) (V c main_v73) := by
  exact (dat8 (F := Ideal) V c).arrAt_eq_of_cover 6 _ (fun t _ => written_back8 V c t) out_blocks_cover8

end Cert.KernelIdeal.RegionVal

end
-- ==== Proof.KLayer2.lean ====
import proofs.«403306_j43559558316462_1_alg».proof.Proof.KCommon
import proofs.«403306_j43559558316462_1_alg».proof.Proof.InRange
import proofs.«403306_j43559558316462_1_alg».proof.Proof.RegionE6
import proofs.«403306_j43559558316462_1_alg».proof.Proof.RegionM7
import proofs.«403306_j43559558316462_1_alg».proof.Proof.RegionB8
import Idealize.ShloMosaic.Lib.StableHlo.Run
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## A parameter row stored as a [1, 128] array and read back -/

/-- A column vector reshaped to one row, read as a column vector again, is itself. -/
theorem rowOf_reshape (x : GINE.Col) (hc : S128.ShapeCasts S1x128) : GINE.rowOf (shapeCast S1x128 x hc) = x := by
  funext j
  show shapeCast S1x128 x hc (ix2 0 (j 0)) = x j
  refine shapeCast_apply x hc (ix2 0 (j 0)) j ?_
  rw [Shape.rowMajor_val_one, Shape.rowMajor_val_two]
  show (j 0).val = 0 * 128 + (j 0).val
  omega

/-! ## The third round's host operations, stretch by stretch, from any contents X of the buffers -/

attribute [local irreducible] Host.reduce Host.gather in
/-- The guarded row gather leaves every edge's source row of the node table. -/
theorem r2_take (X : Valuation τ sig (Elt Ideal)) :
    StableHlo.after hostOps6 X (Proc.devRef .tc main_v74)
      = takeK (X (Proc.devRef .tc main_v73)) (X (Proc.devRef .tc main_v1)) := by
  after_results_simp
  simp only [ofBuf_toBuf]
  rfl

/-- The gather writes none of the buffers read later. -/
theorem r2_take_kept (X : Valuation τ sig (Elt Ideal)) (b : Ref sig .tc)
    (hb : b ∈ [main_v73, main_v3, main_arg2, main_arg3, main_arg4, main_arg5, main_arg6, main_arg7, main_arg8, main_arg9, main_arg10]) :
    StableHlo.after hostOps6 X (Proc.devRef .tc b) = X (Proc.devRef .tc b) := by
  simp only [List.mem_cons, List.mem_nil_iff, or_false] at hb
  rcases hb with rfl | rfl | rfl | rfl | rfl | rfl | rfl | rfl | rfl | rfl | rfl
  all_goals after_results

/-- The edge transform's slab of round three. -/
theorem r2_we (X : Valuation τ sig (Elt Ideal)) :
    StableHlo.after hostOps6_1 X (Proc.devRef .tc main_v76) = GINE.slab32 2 (X (Proc.devRef .tc main_arg3)) := by
  after_results
  rfl

/-- The edge bias of round three, as one row. -/
theorem r2_be (X : Valuation τ sig (Elt Ideal)) :
    StableHlo.after hostOps6_1 X (Proc.devRef .tc main_v79)
      = shapeCast S1x128 (GINE.prow 2 (X (Proc.devRef .tc main_arg4))) shapeCasts_S128_S1x128 := by
  after_results
  rfl

/-- Cutting the edge parameters out writes none of the buffers read later. -/
theorem r2_edge_kept (X : Valuation τ sig (Elt Ideal)) (b : Ref sig .tc)
    (hb : b ∈ [main_v74, main_v73, main_v3, main_arg2, main_arg5, main_arg6, main_arg7, main_arg8, main_arg9, main_arg10]) :
    StableHlo.after hostOps6_1 X (Proc.devRef .tc b) = X (Proc.devRef .tc b) := by
  simp only [List.mem_cons, List.mem_nil_iff, or_false] at hb
  rcases hb with rfl | rfl | rfl | rfl | rfl | rfl | rfl | rfl | rfl | rfl
  all_goals after_results

attribute [local irreducible] Host.scatterAdd in
/-- The perceptron's input: the node table plus the messages summed into their target rows. -/
theorem r2_agg (X : Valuation τ sig (Elt Ideal)) :
    StableHlo.after hostOps7 X (Proc.devRef .tc main_v84)
      = addf (X (Proc.devRef .tc main_v73)) (GINE.segsum (X (Proc.devRef .tc main_v3)) (X (Proc.devRef .tc main_v80))) := by
  after_results
  rfl

/-- The perceptron's first slab of round three. -/
theorem r2_w1 (X : Valuation τ sig (Elt Ideal)) :
    StableHlo.after hostOps7 X (Proc.devRef .tc main_v86) = GINE.slab128 2 (X (Proc.devRef .tc main_arg5)) := by
  after_results
  rfl

/-- Its first bias, as one row. -/
theorem r2_b1 (X : Valuation τ sig (Elt Ideal)) :
    StableHlo.after hostOps7 X (Proc.devRef .tc main_v89)
      = shapeCast S1x128 (GINE.prow 2 (X (Proc.devRef .tc main_arg6))) shapeCasts_S128_S1x128 := by
  after_results
  rfl

/-- Its second slab. -/
theorem r2_w2 (X : Valuation τ sig (Elt Ideal)) :
    StableHlo.after hostOps7 X (Proc.devRef .tc main_v91) = GINE.slab128 2 (X (Proc.devRef .tc main_arg7)) := by
  after_results
  rfl

/-- Its second bias, as one row. -/
theorem r2_b2 (X : Valuation τ sig (Elt Ideal)) :
    StableHlo.after hostOps7 X (Proc.devRef .tc main_v94)
      = shapeCast S1x128 (GINE.prow 2 (X (Proc.devRef .tc main_arg8))) shapeCasts_S128_S1x128 := by
  after_results
  rfl

/-- The segment sum and the perceptron's parameters write none of the buffers read later. -/
theorem r2_agg_kept (X : Valuation τ sig (Elt Ideal)) (b : Ref sig .tc)
    (hb : b ∈ [main_v73, main_arg9, main_arg10]) :
    StableHlo.after hostOps7 X (Proc.devRef .tc b) = X (Proc.devRef .tc b) := by
  simp only [List.mem_cons, List.mem_nil_iff, or_false] at hb
  rcases hb with rfl | rfl | rfl
  all_goals after_results

attribute [local irreducible] Host.reduceAdd in
/-- The column means of the perceptron's output, as one row. -/
theorem r2_mean (X : Valuation τ sig (Elt Ideal)) :
    StableHlo.after hostOps8 X (Proc.devRef .tc main_v99)
      = shapeCast S1x128 (GINE.colMean (X (Proc.devRef .tc main_v95))) shapeCasts_S128_S1x128 := by
  after_results
  rfl

/-- The variance's correction term: the integer zero. -/
theorem r2_ddof (X : Valuation τ sig (Elt Ideal)) :
    StableHlo.after hostOps8 X (Proc.devRef .tc main_c_9) = constantI S_ 32 0#32 := by
  after_results

/-- The mean writes none of the buffers read later. -/
theorem r2_mean_kept (X : Valuation τ sig (Elt Ideal)) (b : Ref sig .tc)
    (hb : b ∈ [main_v95, main_v73, main_arg9, main_arg10]) :
    StableHlo.after hostOps8 X (Proc.devRef .tc b) = X (Proc.devRef .tc b) := by
  simp only [List.mem_cons, List.mem_nil_iff, or_false] at hb
  rcases hb with rfl | rfl | rfl | rfl
  all_goals after_results

/-- The column variance as the kernel program's host operations spell it, the correction term a buffer's contents. -/
def varK (z : GINE.Node) (ddof : IVec S_ 32) : GINE.Col :=
  let d : FVec Ideal S_ .f32 := subf (constant S_ .f32 0x47435000#32) (sitofp .f32 ddof)
  let ctr : GINE.Node := subf z (broadcastInDim S50000x128 ![0, 1] bcast_S1x128_S50000x128_0_1
    (Host.divf (broadcastInDim S1x128 ![1] bcast_S128_S1x128_1 (Host.reduceAdd z (constant S_ .f32 0x00000000#32) reducesTo_S50000x128_S128_d0 h_S_))
      (broadcastInDim S1x128 ![] bcast_S_S1x128 (constant S_ .f32 0x47435000#32))))
  select (broadcastInDim S128 ![] bcast_S_S128 (cmpf .ogt d (constant S_ .f32 0x00000000#32)))
    (Host.divf (Host.reduceAdd (mulf ctr ctr) (constant S_ .f32 0x00000000#32) reducesTo_S50000x128_S128_d0 h_S_)
      (broadcastInDim S128 ![] bcast_S_S128 d))
    (broadcastInDim S128 ![] bcast_S_S128 (id (constant S_ .f32 0x7FC00000#32)))

/-- With the correction term zero it is the specification's column variance. -/
theorem varK_zero (z : GINE.Node) : varK z (constantI S_ 32 0#32) = GINE.colVar z := rfl

attribute [local irreducible] Host.reduceAdd Host.divf in
/-- The column variances of the perceptron's output. -/
theorem r2_var (X : Valuation τ sig (Elt Ideal)) :
    StableHlo.after hostOps8_1 X (Proc.devRef .tc main_v100)
      = varK (X (Proc.devRef .tc main_v95)) (X (Proc.devRef .tc main_c_9)) := by
  after_results_simp
  simp only [ofBuf_toBuf]
  rfl

/-- The variance writes none of the buffers read later. -/
theorem r2_var_kept (X : Valuation τ sig (Elt Ideal)) (b : Ref sig .tc)
    (hb : b ∈ [main_v99, main_v95, main_v73, main_arg9, main_arg10]) :
    StableHlo.after hostOps8_1 X (Proc.devRef .tc b) = X (Proc.devRef .tc b) := by
  simp only [List.mem_cons, List.mem_nil_iff, or_false] at hb
  rcases hb with rfl | rfl | rfl | rfl | rfl
  all_goals after_results

/-- The variances, as one row. -/
theorem r2_varrow (X : Valuation τ sig (Elt Ideal)) :
    StableHlo.after hostOps8_2 X (Proc.devRef .tc main_v101)
      = shapeCast S1x128 (X (Proc.devRef .tc main_v100)) shapeCasts_S128_S1x128 := by
  after_results
  rfl

/-- The scale of round three, as one row. -/
theorem r2_gamma (X : Valuation τ sig (Elt Ideal)) :
    StableHlo.after hostOps8_2 X (Proc.devRef .tc main_v104)
      = shapeCast S1x128 (GINE.prow 2 (X (Proc.devRef .tc main_arg9))) shapeCasts_S128_S1x128 := by
  after_results
  rfl

/-- The shift of round three, as one row. -/
theorem r2_beta (X : Valuation τ sig (Elt Ideal)) :
    StableHlo.after hostOps8_2 X (Proc.devRef .tc main_v107)
      = shapeCast S1x128 (GINE.prow 2 (X (Proc.devRef .tc main_arg10))) shapeCasts_S128_S1x128 := by
  after_results
  rfl

/-- The normalisation's parameters write none of the buffers read later. -/
theorem r2_norm_kept (X : Valuation τ sig (Elt Ideal)) (b : Ref sig .tc)
    (hb : b ∈ [main_v99, main_v95, main_v73]) :
    StableHlo.after hostOps8_2 X (Proc.devRef .tc b) = X (Proc.devRef .tc b) := by
  simp only [List.mem_cons, List.mem_nil_iff, or_false] at hb
  rcases hb with rfl | rfl | rfl
  all_goals after_results

/-! ## The chain -/

/-- The third round, from what the second left in `main_v73`: the result buffer at the end of the run. -/
theorem layer2 (c : Dev nD) (hok : GINE.SrcOK (GINE.edgeRow 0 (m ((c : Thread nD τ).loc main_arg1)))) (h : GINE.Node)
    (hk : Keeps m (W19 m ρ) c) (hh : W19 m ρ c (Proc.devRef .tc main_v73) = h) :
    W28 m ρ c (Proc.devRef .tc main_v108) = layerK m 2 c h := by
  -- after the row gather
  have c20 : ∀ b ∈ [main_v73, main_v3, main_arg2, main_arg3, main_arg4, main_arg5, main_arg6, main_arg7, main_arg8, main_arg9, main_arg10],
      W20 m ρ c (Proc.devRef .tc b) = W19 m ρ c (Proc.devRef .tc b) := fun b hb => r2_take_kept (W19 m ρ c) b hb
  have e20 : W20 m ρ c (Proc.devRef .tc main_v74) = GINE.rows h (GINE.edgeRow 0 (m ((c : Thread nD τ).loc main_arg1))) := by
    show StableHlo.after hostOps6 (W19 m ρ c) (Proc.devRef .tc main_v74) = _
    rw [r2_take, hh, hk.src]
    exact takeK_eq h _ hok
  -- the edge parameters cut out: the edge kernel's entry
  have c21 : ∀ b ∈ [main_v74, main_v73, main_v3, main_arg2, main_arg5, main_arg6, main_arg7, main_arg8, main_arg9, main_arg10],
      W21 m ρ c (Proc.devRef .tc b) = W20 m ρ c (Proc.devRef .tc b) := fun b hb => r2_edge_kept (W20 m ρ c) b hb
  have e21we : W21 m ρ c (Proc.devRef .tc main_v76) = GINE.slab32 2 (m ((c : Thread nD τ).loc main_arg3)) := by
    show StableHlo.after hostOps6_1 (W20 m ρ c) (Proc.devRef .tc main_v76) = _
    rw [r2_we, c20 main_arg3 (by decide), hk.a3]
  have e21be : W21 m ρ c (Proc.devRef .tc main_v79)
      = shapeCast S1x128 (GINE.prow 2 (m ((c : Thread nD τ).loc main_arg4))) shapeCasts_S128_S1x128 := by
    show StableHlo.after hostOps6_1 (W20 m ρ c) (Proc.devRef .tc main_v79) = _
    rw [r2_be, c20 main_arg4 (by decide), hk.a4]
  -- the edge kernel's exit: the messages
  have c22 : ∀ b : Ref sig .tc, (∀ w, Pipeline.arrRef spec6 w ≠ b) →
      W22 m ρ c (Proc.devRef .tc b) = W21 m ρ c (Proc.devRef .tc b) := fun b hb => W22_of_ne m ρ c b hb
  have e22 : W22 m ρ c (Proc.devRef .tc main_v80)
      = GINE.edgeMsg (m ((c : Thread nD τ).loc main_arg2)) (GINE.rows h (GINE.edgeRow 0 (m ((c : Thread nD τ).loc main_arg1))))
          (GINE.slab32 2 (m ((c : Thread nD τ).loc main_arg3))) (GINE.prow 2 (m ((c : Thread nD τ).loc main_arg4))) := by
    refine (W22_arr m ρ c 4).trans ?_
    rw [RegionVal.region6 (V21 m ρ) c]
    show GINE.edgeMsg (W21 m ρ c (Proc.devRef .tc main_arg2)) (W21 m ρ c (Proc.devRef .tc main_v74))
      (W21 m ρ c (Proc.devRef .tc main_v76)) (GINE.rowOf (W21 m ρ c (Proc.devRef .tc main_v79))) = _
    rw [c21 main_arg2 (by decide), c20 main_arg2 (by decide), hk.a2, c21 main_v74 (by decide), e20, e21we, e21be, rowOf_reshape]
  -- the segment sum and the perceptron's parameters: the perceptron kernel's entry
  have c23 : ∀ b ∈ [main_v73, main_arg9, main_arg10],
      W23 m ρ c (Proc.devRef .tc b) = W22 m ρ c (Proc.devRef .tc b) := fun b hb => r2_agg_kept (W22 m ρ c) b hb
  have e23z : W23 m ρ c (Proc.devRef .tc main_v84)
      = addf h (GINE.segsum (GINE.edgeRow 1 (m ((c : Thread nD τ).loc main_arg1)))
          (GINE.edgeMsg (m ((c : Thread nD τ).loc main_arg2)) (GINE.rows h (GINE.edgeRow 0 (m ((c : Thread nD τ).loc main_arg1))))
            (GINE.slab32 2 (m ((c : Thread nD τ).loc main_arg3))) (GINE.prow 2 (m ((c : Thread nD τ).loc main_arg4))))) := by
    show StableHlo.after hostOps7 (W22 m ρ c) (Proc.devRef .tc main_v84) = _
    rw [r2_agg, c22 main_v73 (by decide), c21 main_v73 (by decide), c20 main_v73 (by decide), hh,
      c22 main_v3 (by decide), c21 main_v3 (by decide), c20 main_v3 (by decide), hk.dst, e22]
  have e23w1 : W23 m ρ c (Proc.devRef .tc main_v86) = GINE.slab128 2 (m ((c : Thread nD τ).loc main_arg5)) := by
    show StableHlo.after hostOps7 (W22 m ρ c) (Proc.devRef .tc main_v86) = _
    rw [r2_w1, c22 main_arg5 (by decide), c21 main_arg5 (by decide), c20 main_arg5 (by decide), hk.a5]
  have e23b1 : W23 m ρ c (Proc.devRef .tc main_v89)
      = shapeCast S1x128 (GINE.prow 2 (m ((c : Thread nD τ).loc main_arg6))) shapeCasts_S128_S1x128 := by
    show StableHlo.after hostOps7 (W22 m ρ c) (Proc.devRef .tc main_v89) = _
    rw [r2_b1, c22 main_arg6 (by decide), c21 main_arg6 (by decide), c20 main_arg6 (by decide), hk.a6]
  have e23w2 : W23 m ρ c (Proc.devRef .tc main_v91) = GINE.slab128 2 (m ((c : Thread nD τ).loc main_arg7)) := by
    show StableHlo.after hostOps7 (W22 m ρ c) (Proc.devRef .tc main_v91) = _
    rw [r2_w2, c22 main_arg7 (by decide), c21 main_arg7 (by decide), c20 main_arg7 (by decide), hk.a7]
  have e23b2 : W23 m ρ c (Proc.devRef .tc main_v94)
      = shapeCast S1x128 (GINE.prow 2 (m ((c : Thread nD τ).loc main_arg8))) shapeCasts_S128_S1x128 := by
    show StableHlo.after hostOps7 (W22 m ρ c) (Proc.devRef .tc main_v94) = _
    rw [r2_b2, c22 main_arg8 (by decide), c21 main_arg8 (by decide), c20 main_arg8 (by decide), hk.a8]
  -- the perceptron kernel's exit
  have c24 : ∀ b : Ref sig .tc, (∀ w, Pipeline.arrRef spec7 w ≠ b) →
      W24 m ρ c (Proc.devRef .tc b) = W23 m ρ c (Proc.devRef .tc b) := fun b hb => W24_of_ne m ρ c b hb
  have e24 : W24 m ρ c (Proc.devRef .tc main_v95)
      = GINE.mlp (addf h (GINE.segsum (GINE.edgeRow 1 (m ((c : Thread nD τ).loc main_arg1)))
          (GINE.edgeMsg (m ((c : Thread nD τ).loc main_arg2)) (GINE.rows h (GINE.edgeRow 0 (m ((c : Thread nD τ).loc main_arg1))))
            (GINE.slab32 2 (m ((c : Thread nD τ).loc main_arg3))) (GINE.prow 2 (m ((c : Thread nD τ).loc main_arg4))))))
          (GINE.slab128 2 (m ((c : Thread nD τ).loc main_arg5))) (GINE.prow 2 (m ((c : Thread nD τ).loc main_arg6)))
          (GINE.slab128 2 (m ((c : Thread nD τ).loc main_arg7))) (GINE.prow 2 (m ((c : Thread nD τ).loc main_arg8))) := by
    refine (W24_arr m ρ c 5).trans ?_
    rw [RegionVal.region7 (V23 m ρ) c]
    show GINE.mlp (W23 m ρ c (Proc.devRef .tc main_v84)) (W23 m ρ c (Proc.devRef .tc main_v86))
      (GINE.rowOf (W23 m ρ c (Proc.devRef .tc main_v89))) (W23 m ρ c (Proc.devRef .tc main_v91))
      (GINE.rowOf (W23 m ρ c (Proc.devRef .tc main_v94))) = _
    rw [e23z, e23w1, e23b1, e23w2, e23b2, rowOf_reshape, rowOf_reshape]
  have h73 : W24 m ρ c (Proc.devRef .tc main_v73) = h := by
    rw [c24 main_v73 (by decide), c23 main_v73 (by decide), c22 main_v73 (by decide), c21 main_v73 (by decide),
      c20 main_v73 (by decide), hh]
  have h9 : W24 m ρ c (Proc.devRef .tc main_arg9) = m ((c : Thread nD τ).loc main_arg9) := by
    rw [c24 main_arg9 (by decide), c23 main_arg9 (by decide), c22 main_arg9 (by decide), c21 main_arg9 (by decide),
      c20 main_arg9 (by decide), hk.a9]
  have h10 : W24 m ρ c (Proc.devRef .tc main_arg10) = m ((c : Thread nD τ).loc main_arg10) := by
    rw [c24 main_arg10 (by decide), c23 main_arg10 (by decide), c22 main_arg10 (by decide), c21 main_arg10 (by decide),
      c20 main_arg10 (by decide), hk.a10]
  -- the column means
  have c25 : ∀ b ∈ [main_v95, main_v73, main_arg9, main_arg10],
      W25 m ρ c (Proc.devRef .tc b) = W24 m ρ c (Proc.devRef .tc b) := fun b hb => r2_mean_kept (W24 m ρ c) b hb
  have e25 : W25 m ρ c (Proc.devRef .tc main_v99)
      = shapeCast S1x128 (GINE.colMean (W24 m ρ c (Proc.devRef .tc main_v95))) shapeCasts_S128_S1x128 := r2_mean (W24 m ρ c)
  have e25d : W25 m ρ c (Proc.devRef .tc main_c_9) = constantI S_ 32 0#32 := r2_ddof (W24 m ρ c)
  -- the column variances
  have c26 : ∀ b ∈ [main_v99, main_v95, main_v73, main_arg9, main_arg10],
      W26 m ρ c (Proc.devRef .tc b) = W25 m ρ c (Proc.devRef .tc b) := fun b hb => r2_var_kept (W25 m ρ c) b hb
  have e26 : W26 m ρ c (Proc.devRef .tc main_v100) = GINE.colVar (W24 m ρ c (Proc.devRef .tc main_v95)) := by
    show StableHlo.after hostOps8_1 (W25 m ρ c) (Proc.devRef .tc main_v100) = _
    rw [r2_var, c25 main_v95 (by decide), e25d, varK_zero]
  -- the normalisation's parameters: the normalisation kernel's entry
  have c27 : ∀ b ∈ [main_v99, main_v95, main_v73],
      W27 m ρ c (Proc.devRef .tc b) = W26 m ρ c (Proc.devRef .tc b) := fun b hb => r2_norm_kept (W26 m ρ c) b hb
  have e27v : W27 m ρ c (Proc.devRef .tc main_v101)
      = shapeCast S1x128 (GINE.colVar (W24 m ρ c (Proc.devRef .tc main_v95))) shapeCasts_S128_S1x128 := by
    show StableHlo.after hostOps8_2 (W26 m ρ c) (Proc.devRef .tc main_v101) = _
    rw [r2_varrow, e26]
  have e27g : W27 m ρ c (Proc.devRef .tc main_v104)
      = shapeCast S1x128 (GINE.prow 2 (m ((c : Thread nD τ).loc main_arg9))) shapeCasts_S128_S1x128 := by
    show StableHlo.after hostOps8_2 (W26 m ρ c) (Proc.devRef .tc main_v104) = _
    rw [r2_gamma, c26 main_arg9 (by decide), c25 main_arg9 (by decide), h9]
  have e27b : W27 m ρ c (Proc.devRef .tc main_v107)
      = shapeCast S1x128 (GINE.prow 2 (m ((c : Thread nD τ).loc main_arg10))) shapeCasts_S128_S1x128 := by
    show StableHlo.after hostOps8_2 (W26 m ρ c) (Proc.devRef .tc main_v107) = _
    rw [r2_beta, c26 main_arg10 (by decide), c25 main_arg10 (by decide), h10]
  -- the normalisation kernel's exit
  refine (W28_arr m ρ c 6).trans ?_
  rw [RegionVal.region8 (V27 m ρ) c]
  show GINE.bn (W27 m ρ c (Proc.devRef .tc main_v95)) (GINE.rowOf (W27 m ρ c (Proc.devRef .tc main_v99)))
    (GINE.rowOf (W27 m ρ c (Proc.devRef .tc main_v101))) (GINE.rowOf (W27 m ρ c (Proc.devRef .tc main_v104)))
    (GINE.rowOf (W27 m ρ c (Proc.devRef .tc main_v107))) (W27 m ρ c (Proc.devRef .tc main_v73)) = _
  rw [c27 main_v95 (by decide), c26 main_v95 (by decide), c25 main_v95 (by decide),
    c27 main_v99 (by decide), c26 main_v99 (by decide), e25, e27v, e27g, e27b,
    c27 main_v73 (by decide), c26 main_v73 (by decide), c25 main_v73 (by decide), h73,
    rowOf_reshape, rowOf_reshape, rowOf_reshape, rowOf_reshape, e24]
  unfold layerK GINE.layerAt GINE.layer
  rfl

end Cert.KernelIdeal.Layers

end
-- ==== Proof.RefOps.lean ====
/-
  The reference program's @main as lists of its host operations, and its run.  A call of a
  module-local function is the callee's operations over the call's operands and the call's own
  buffers (a call inside the callee likewise), so the whole program is one straight line of
  304 operations.  The line is cut where a round of the network ends: the two rows of the edge
  list first, then one list per round, each ending at the round's output table.  Every weakly
  fair execution terminates with each buffer at the fold of the operations over the launch contents.
-/
import proofs.«403306_j43559558316462_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, cut by round -/

/-- The two rows of the edge list: the source numbers `main_v1` and the target numbers `main_v3`. 4 operations. -/
abbrev opsPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Round 0, from the input table `main_arg0` to `main_v68`. 100 operations. -/
abbrev opsL0 : List (HloOp τ sig (Elt F)) :=
  [ StableHlo.unary main_arg3 main_v4 ((extractStridedSlice S1x32x128 ![0, 0, 0] · slices_S3x32x128_S1x32x128_0_0_0) : (⟨S3x32x128, .f32⟩ : BufTy).Contents (Elt F) → (⟨S1x32x128, .f32⟩ : BufTy).Contents (Elt F)),
    StableHlo.reshape main_v4 main_v5 rfl shapeCasts_S1x32x128_S32x128,
    StableHlo.binary main_arg2 main_v5 main_v6 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v7 ((extractStridedSlice S1x128 ![0, 0] · slices_S3x128_S1x128_0_0) : (⟨S3x128, .f32⟩ : BufTy).Contents (Elt F) → (⟨S1x128, .f32⟩ : BufTy).Contents (Elt F)),
    StableHlo.reshape main_v7 main_v8 rfl shapeCasts_S1x128_S128,
    StableHlo.unary main_v8 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S800000x128 ![0, 1] bcast_S1x128_S800000x128_0_1 : (⟨S1x128, .f32⟩ : BufTy).Contents (Elt F) → (⟨S800000x128, .f32⟩ : BufTy).Contents (Elt F)),
    StableHlo.binary main_v6 main_v10 main_v11 (addf : (⟨S800000x128, .f32⟩ : BufTy).Contents (Elt F) → (⟨S800000x128, .f32⟩ : BufTy).Contents (Elt F) → (⟨S800000x128, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v18 main_v11 main_v19 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v19 : StableHlo.TRef sig ⟨S800000x128, .f32⟩) main_call0.v0 main_call0.v1 maximumf,
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg5 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v32 : StableHlo.TRef sig ⟨S50000x128, .f32⟩) main_call1.v0 main_call1.v1 maximumf,
    StableHlo.unary main_arg7 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v40 main_v41 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v41 main_cst_1 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v41 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v41 : StableHlo.TRef sig ⟨S50000x128, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v44 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v47 main_v48 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v49 (broadcastInDim S128 ![] bcast_S_S128 : (⟨S_, .f32⟩ : BufTy).Contents (Elt F) → (⟨S128, .f32⟩ : BufTy).Contents (Elt F)),
    StableHlo.binary main_v45 main_v49 main_v50 (addf : (⟨S128, .f32⟩ : BufTy).Contents (Elt F) → (⟨S128, .f32⟩ : BufTy).Contents (Elt F) → (⟨S128, .f32⟩ : BufTy).Contents (Elt F)),
    StableHlo.unary main_v50 main_v51 (Host.rsqrt : (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg10 main_v60 ((extractStridedSlice S1x128 ![0, 0] · slices_S3x128_S1x128_0_0) : (⟨S3x128, .f32⟩ : BufTy).Contents (Elt F) → (⟨S1x128, .f32⟩ : BufTy).Contents (Elt F)),
    StableHlo.reshape main_v60 main_v61 rfl shapeCasts_S1x128_S128,
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v64 : StableHlo.TRef sig ⟨S50000x128, .f32⟩) main_call3.v0 main_call3.v1 maximumf,
    StableHlo.nullary main_cst_5 (constant S_ .f32 0x3DCCCCCD#32),
    StableHlo.unary main_cst_5 main_v66 (broadcastInDim S50000x128 ![] bcast_S_S50000x128 : (⟨S_, .f32⟩ : BufTy).Contents (Elt F) → (⟨S50000x128, .f32⟩ : BufTy).Contents (Elt F)),
    StableHlo.binary main_v66 main_arg0 main_v67 (mulf : (⟨S50000x128, .f32⟩ : BufTy).Contents (Elt F) → (⟨S50000x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)) ]

/-- Round 1, from `main_v68` to `main_v133`. 100 operations. -/
abbrev opsL1 : List (HloOp τ sig (Elt F)) :=
  [ StableHlo.unary main_arg3 main_v69 ((extractStridedSlice S1x32x128 ![1, 0, 0] · slices_S3x32x128_S1x32x128_1_0_0) : (⟨S3x32x128, .f32⟩ : BufTy).Contents (Elt F) → (⟨S1x32x128, .f32⟩ : BufTy).Contents (Elt F)),
    StableHlo.reshape main_v69 main_v70 rfl shapeCasts_S1x32x128_S32x128,
    StableHlo.binary main_arg2 main_v70 main_v71 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v72 ((extractStridedSlice S1x128 ![1, 0] · slices_S3x128_S1x128_1_0) : (⟨S3x128, .f32⟩ : BufTy).Contents (Elt F) → (⟨S1x128, .f32⟩ : BufTy).Contents (Elt F)),
    StableHlo.reshape main_v72 main_v73 rfl shapeCasts_S1x128_S128,
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S800000x128 ![0, 1] bcast_S1x128_S800000x128_0_1 : (⟨S1x128, .f32⟩ : BufTy).Contents (Elt F) → (⟨S800000x128, .f32⟩ : BufTy).Contents (Elt F)),
    StableHlo.binary main_v71 main_v75 main_v76 (addf : (⟨S800000x128, .f32⟩ : BufTy).Contents (Elt F) → (⟨S800000x128, .f32⟩ : BufTy).Contents (Elt F) → (⟨S800000x128, .f32⟩ : BufTy).Contents (Elt F)),
    StableHlo.nullary main_c_6 (constantI S_ 32 0#32),
    StableHlo.unary main_c_6 main_v77 (broadcastInDim S800000 ![] bcast_S_S800000 : (⟨S_, .i32⟩ : BufTy).Contents (Elt F) → (⟨S800000, .i32⟩ : BufTy).Contents (Elt F)),
    StableHlo.binary main_v1 main_v77 main_v78 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v79 (broadcastInDim S800000 ![] bcast_S_S800000 : (⟨S_, .i32⟩ : BufTy).Contents (Elt F) → (⟨S800000, .i32⟩ : BufTy).Contents (Elt F)),
    StableHlo.binary main_v1 main_v79 main_v80 (addi : (⟨S800000, .i32⟩ : BufTy).Contents (Elt F) → (⟨S800000, .i32⟩ : BufTy).Contents (Elt F) → (⟨S800000, .i32⟩ : BufTy).Contents (Elt F)),
    StableHlo.ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v81 main_v82 (broadcastInDim S800000x1 ![0] bcast_S800000_S800000x1_0 : (⟨S800000, .i32⟩ : BufTy).Contents (Elt F) → (⟨S800000x1, .i32⟩ : BufTy).Contents (Elt F)),
    StableHlo.binary main_v68 main_v82 main_v83 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v83 main_v76 main_v84 (addf : (⟨S800000x128, .f32⟩ : BufTy).Contents (Elt F) → (⟨S800000x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v84 : StableHlo.TRef sig ⟨S800000x128, .f32⟩) main_call4.v0 main_call4.v1 maximumf,
    StableHlo.nullary main_cst_8 (constant S_ .f32 0x00000000#32),
    StableHlo.unary main_cst_8 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v68 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg5 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v93 ((extractStridedSlice S1x128 ![1, 0] · slices_S3x128_S1x128_1_0) : (⟨S3x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v97 : StableHlo.TRef sig ⟨S50000x128, .f32⟩) main_call5.v0 main_call5.v1 maximumf,
    StableHlo.unary main_arg7 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v102 ((extractStridedSlice S1x128 ![1, 0] · slices_S3x128_S1x128_1_0) : (⟨S3x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v106 main_cst_9 main_v107 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v108 (broadcastInDim S128 ![] bcast_S_S128 : (⟨S_, .f32⟩ : BufTy).Contents (Elt F) → (⟨S128, .f32⟩ : BufTy).Contents (Elt F)),
    StableHlo.binary main_v107 main_v108 main_v109 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call6.cst (constant S_ .f32 0x00000000#32),
    StableHlo.TRef.binary (.of main_v106 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v106 : StableHlo.TRef sig ⟨S50000x128, .f32⟩) main_call6.v4 main_call6.v5 subf,
    StableHlo.TRef.binary main_call6.v5 main_call6.v5 main_call6.v6 mulf,
    StableHlo.TRef.unary (.of main_c_11 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v109 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v112 main_v113 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v114 (broadcastInDim S128 ![] bcast_S_S128 : (⟨S_, .f32⟩ : BufTy).Contents (Elt F) → (⟨S128, .f32⟩ : BufTy).Contents (Elt F)),
    StableHlo.binary main_v110 main_v114 main_v115 (addf : (⟨S128, .f32⟩ : BufTy).Contents (Elt F) → (⟨S128, .f32⟩ : BufTy).Contents (Elt F) → (⟨S128, .f32⟩ : BufTy).Contents (Elt F)),
    StableHlo.unary main_v115 main_v116 (Host.rsqrt : (⟨S128, .f32⟩ : BufTy).Contents (Elt F) → (⟨S128, .f32⟩ : BufTy).Contents (Elt F)),
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v118 main_v119 (mulf : (⟨S50000x128, .f32⟩ : BufTy).Contents (Elt F) → (⟨S50000x128, .f32⟩ : BufTy).Contents (Elt F) → (⟨S50000x128, .f32⟩ : BufTy).Contents (Elt F)),
    StableHlo.unary main_arg9 main_v120 ((extractStridedSlice S1x128 ![1, 0] · slices_S3x128_S1x128_1_0) : (⟨S3x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_arg10 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v129 : StableHlo.TRef sig ⟨S50000x128, .f32⟩) main_call7.v0 main_call7.v1 maximumf,
    StableHlo.nullary main_cst_13 (constant S_ .f32 0x3DCCCCCD#32),
    StableHlo.unary main_cst_13 main_v131 (broadcastInDim S50000x128 ![] bcast_S_S50000x128 : (⟨S_, .f32⟩ : BufTy).Contents (Elt F) → (⟨S50000x128, .f32⟩ : BufTy).Contents (Elt F)),
    StableHlo.binary main_v131 main_v68 main_v132 (mulf : (⟨S50000x128, .f32⟩ : BufTy).Contents (Elt F) → (⟨S50000x128, .f32⟩ : BufTy).Contents (Elt F) → (⟨S50000x128, .f32⟩ : BufTy).Contents (Elt F)),
    StableHlo.binary main_v130 main_v132 main_v133 (addf : (⟨S50000x128, .f32⟩ : BufTy).Contents (Elt F) → (⟨S50000x128, .f32⟩ : BufTy).Contents (Elt F) → (⟨S50000x128, .f32⟩ : BufTy).Contents (Elt F)) ]

/-- Round 2, from `main_v133` to the result `main_v198`. 100 operations. -/
abbrev opsL2 : List (HloOp τ sig (Elt F)) :=
  [ StableHlo.unary main_arg3 main_v134 ((extractStridedSlice S1x32x128 ![2, 0, 0] · slices_S3x32x128_S1x32x128_2_0_0) : (⟨S3x32x128, .f32⟩ : BufTy).Contents (Elt F) → (⟨S1x32x128, .f32⟩ : BufTy).Contents (Elt F)),
    StableHlo.reshape main_v134 main_v135 rfl shapeCasts_S1x32x128_S32x128,
    StableHlo.binary main_arg2 main_v135 main_v136 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v137 ((extractStridedSlice S1x128 ![2, 0] · slices_S3x128_S1x128_2_0) : (⟨S3x128, .f32⟩ : BufTy).Contents (Elt F) → (⟨S1x128, .f32⟩ : BufTy).Contents (Elt F)),
    StableHlo.reshape main_v137 main_v138 rfl shapeCasts_S1x128_S128,
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S800000x128 ![0, 1] bcast_S1x128_S800000x128_0_1 : (⟨S1x128, .f32⟩ : BufTy).Contents (Elt F) → (⟨S800000x128, .f32⟩ : BufTy).Contents (Elt F)),
    StableHlo.binary main_v136 main_v140 main_v141 (addf : (⟨S800000x128, .f32⟩ : BufTy).Contents (Elt F) → (⟨S800000x128, .f32⟩ : BufTy).Contents (Elt F) → (⟨S800000x128, .f32⟩ : BufTy).Contents (Elt F)),
    StableHlo.nullary main_c_14 (constantI S_ 32 0#32),
    StableHlo.unary main_c_14 main_v142 (broadcastInDim S800000 ![] bcast_S_S800000 : (⟨S_, .i32⟩ : BufTy).Contents (Elt F) → (⟨S800000, .i32⟩ : BufTy).Contents (Elt F)),
    StableHlo.binary main_v1 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v144 (broadcastInDim S800000 ![] bcast_S_S800000 : (⟨S_, .i32⟩ : BufTy).Contents (Elt F) → (⟨S800000, .i32⟩ : BufTy).Contents (Elt F)),
    StableHlo.binary main_v1 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_v133 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v148 main_v141 main_v149 (addf : (⟨S800000x128, .f32⟩ : BufTy).Contents (Elt F) → (⟨S800000x128, .f32⟩ : BufTy).Contents (Elt F) → (⟨S800000x128, .f32⟩ : BufTy).Contents (Elt F)),
    StableHlo.TRef.nullary main_call8.cst (constant S_ .f32 0x00000000#32),
    StableHlo.TRef.unary main_call8.cst main_call8.v0 (broadcastInDim S800000x128 ![] bcast_S_S800000x128),
    StableHlo.TRef.binary (.of main_v149 : StableHlo.TRef sig ⟨S800000x128, .f32⟩) main_call8.v0 main_call8.v1 maximumf,
    StableHlo.nullary main_cst_16 (constant S_ .f32 0x00000000#32),
    StableHlo.unary main_cst_16 main_v151 (broadcastInDim S50000x128 ![] bcast_S_S50000x128 : (⟨S_, .f32⟩ : BufTy).Contents (Elt F) → (⟨S50000x128, .f32⟩ : BufTy).Contents (Elt F)),
    StableHlo.unary main_v3 main_v152 (broadcastInDim S800000x1 ![0] bcast_S800000_S800000x1_0 : (⟨S800000, .i32⟩ : BufTy).Contents (Elt F) → (⟨S800000x1, .i32⟩ : BufTy).Contents (Elt F)),
    StableHlo.ternary main_v151 main_v152 main_v150 main_v153 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v133 main_v153 main_v154 (addf : (⟨S50000x128, .f32⟩ : BufTy).Contents (Elt F) → (⟨S50000x128, .f32⟩ : BufTy).Contents (Elt F) → (⟨S50000x128, .f32⟩ : BufTy).Contents (Elt F)),
    StableHlo.unary main_arg5 main_v155 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v155 main_v156 rfl shapeCasts_S1x128x128_S128x128,
    StableHlo.binary main_v154 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v162 : StableHlo.TRef sig ⟨S50000x128, .f32⟩) main_call9.v0 main_call9.v1 maximumf,
    StableHlo.unary main_arg7 main_v164 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v164 main_v165 rfl shapeCasts_S1x128x128_S128x128,
    StableHlo.binary main_v163 main_v165 main_v166 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v167 ((extractStridedSlice S1x128 ![2, 0] · slices_S3x128_S1x128_2_0) : (⟨S3x128, .f32⟩ : BufTy).Contents (Elt F) → (⟨S1x128, .f32⟩ : BufTy).Contents (Elt F)),
    StableHlo.reshape main_v167 main_v168 rfl shapeCasts_S1x128_S128,
    StableHlo.unary main_v168 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S50000x128 ![0, 1] bcast_S1x128_S50000x128_0_1 : (⟨S1x128, .f32⟩ : BufTy).Contents (Elt F) → (⟨S50000x128, .f32⟩ : BufTy).Contents (Elt F)),
    StableHlo.binary main_v166 main_v170 main_v171 (addf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x00000000#32),
    StableHlo.binary main_v171 main_cst_17 main_v172 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_18 (constant S_ .f32 0x47435000#32),
    StableHlo.unary main_cst_18 main_v173 (broadcastInDim S128 ![] bcast_S_S128 : (⟨S_, .f32⟩ : BufTy).Contents (Elt F) → (⟨S128, .f32⟩ : BufTy).Contents (Elt F)),
    StableHlo.binary main_v172 main_v173 main_v174 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary main_call10.cst (constant S_ .f32 0x00000000#32),
    StableHlo.TRef.binary (.of main_v171 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v171 : StableHlo.TRef sig ⟨S50000x128, .f32⟩) main_call10.v4 main_call10.v5 subf,
    StableHlo.TRef.binary main_call10.v5 main_call10.v5 main_call10.v6 mulf,
    StableHlo.TRef.unary (.of main_c_19 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v174 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v171 main_v177 main_v178 (subf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3727C5AC#32),
    StableHlo.unary main_cst_20 main_v179 (broadcastInDim S128 ![] bcast_S_S128 : (⟨S_, .f32⟩ : BufTy).Contents (Elt F) → (⟨S128, .f32⟩ : BufTy).Contents (Elt F)),
    StableHlo.binary main_v175 main_v179 main_v180 (addf : (⟨S128, .f32⟩ : BufTy).Contents (Elt F) → (⟨S128, .f32⟩ : BufTy).Contents (Elt F) → (⟨S128, .f32⟩ : BufTy).Contents (Elt F)),
    StableHlo.unary main_v180 main_v181 (Host.rsqrt : (⟨S128, .f32⟩ : BufTy).Contents (Elt F) → (⟨S128, .f32⟩ : BufTy).Contents (Elt F)),
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v183 main_v184 (mulf : (⟨S50000x128, .f32⟩ : BufTy).Contents (Elt F) → (⟨S50000x128, .f32⟩ : BufTy).Contents (Elt F) → (⟨S50000x128, .f32⟩ : BufTy).Contents (Elt F)),
    StableHlo.unary main_arg9 main_v185 ((extractStridedSlice S1x128 ![2, 0] · slices_S3x128_S1x128_2_0) : (⟨S3x128, .f32⟩ : BufTy).Contents (Elt F) → (⟨S1x128, .f32⟩ : BufTy).Contents (Elt F)),
    StableHlo.reshape main_v185 main_v186 rfl shapeCasts_S1x128_S128,
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v184 main_v188 main_v189 (mulf : (⟨S50000x128, .f32⟩ : BufTy).Contents (Elt F) → (⟨S50000x128, .f32⟩ : BufTy).Contents (Elt F) → (⟨S50000x128, .f32⟩ : BufTy).Contents (Elt F)),
    StableHlo.unary main_arg10 main_v190 ((extractStridedSlice S1x128 ![2, 0] · slices_S3x128_S1x128_2_0) : (⟨S3x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v193 main_v194 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v194 : StableHlo.TRef sig ⟨S50000x128, .f32⟩) main_call11.v0 main_call11.v1 maximumf,
    StableHlo.nullary main_cst_21 (constant S_ .f32 0x3DCCCCCD#32),
    StableHlo.unary main_cst_21 main_v196 (broadcastInDim S50000x128 ![] bcast_S_S50000x128 : (⟨S_, .f32⟩ : BufTy).Contents (Elt F) → (⟨S50000x128, .f32⟩ : BufTy).Contents (Elt F)),
    StableHlo.binary main_v196 main_v133 main_v197 (mulf : (⟨S50000x128, .f32⟩ : BufTy).Contents (Elt F) → (⟨S50000x128, .f32⟩ : BufTy).Contents (Elt F) → (⟨S50000x128, .f32⟩ : BufTy).Contents (Elt F)),
    StableHlo.binary main_v195 main_v197 main_v198 (addf : (⟨S50000x128, .f32⟩ : BufTy).Contents (Elt F) → (⟨S50000x128, .f32⟩ : BufTy).Contents (Elt F) → (⟨S50000x128, .f32⟩ : BufTy).Contents (Elt F)) ]

/-- The whole program: the edge rows, then the three rounds. -/
abbrev ops : List (HloOp τ sig (Elt F)) := opsPre ++ opsL0 ++ opsL1 ++ opsL2

/-! ## The same line cut where @main's windows end -/

/-- The operations of @main's window 0. 85 operations. -/
abbrev opsW0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg3 main_v4 ((extractStridedSlice S1x32x128 ![0, 0, 0] · slices_S3x32x128_S1x32x128_0_0_0) : (⟨S3x32x128, .f32⟩ : BufTy).Contents (Elt F) → (⟨S1x32x128, .f32⟩ : BufTy).Contents (Elt F)),
    StableHlo.reshape main_v4 main_v5 rfl shapeCasts_S1x32x128_S32x128,
    StableHlo.binary main_arg2 main_v5 main_v6 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v7 ((extractStridedSlice S1x128 ![0, 0] · slices_S3x128_S1x128_0_0) : (⟨S3x128, .f32⟩ : BufTy).Contents (Elt F) → (⟨S1x128, .f32⟩ : BufTy).Contents (Elt F)),
    StableHlo.reshape main_v7 main_v8 rfl shapeCasts_S1x128_S128,
    StableHlo.unary main_v8 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S800000x128 ![0, 1] bcast_S1x128_S800000x128_0_1 : (⟨S1x128, .f32⟩ : BufTy).Contents (Elt F) → (⟨S800000x128, .f32⟩ : BufTy).Contents (Elt F)),
    StableHlo.binary main_v6 main_v10 main_v11 (addf : (⟨S800000x128, .f32⟩ : BufTy).Contents (Elt F) → (⟨S800000x128, .f32⟩ : BufTy).Contents (Elt F) → (⟨S800000x128, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v18 main_v11 main_v19 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v19 : StableHlo.TRef sig ⟨S800000x128, .f32⟩) main_call0.v0 main_call0.v1 maximumf,
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg5 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v32 : StableHlo.TRef sig ⟨S50000x128, .f32⟩) main_call1.v0 main_call1.v1 maximumf,
    StableHlo.unary main_arg7 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v40 main_v41 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v41 main_cst_1 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v41 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v41 : StableHlo.TRef sig ⟨S50000x128, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v44 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v47 main_v48 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v49 (broadcastInDim S128 ![] bcast_S_S128 : (⟨S_, .f32⟩ : BufTy).Contents (Elt F) → (⟨S128, .f32⟩ : BufTy).Contents (Elt F)),
    StableHlo.binary main_v45 main_v49 main_v50 (addf : (⟨S128, .f32⟩ : BufTy).Contents (Elt F) → (⟨S128, .f32⟩ : BufTy).Contents (Elt F) → (⟨S128, .f32⟩ : BufTy).Contents (Elt F)),
    StableHlo.unary main_v50 main_v51 (Host.rsqrt : (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)) ]

/-- The operations of @main's window 1. 66 operations. -/
abbrev opsW1 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg10 main_v60 ((extractStridedSlice S1x128 ![0, 0] · slices_S3x128_S1x128_0_0) : (⟨S3x128, .f32⟩ : BufTy).Contents (Elt F) → (⟨S1x128, .f32⟩ : BufTy).Contents (Elt F)),
    StableHlo.reshape main_v60 main_v61 rfl shapeCasts_S1x128_S128,
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v64 : StableHlo.TRef sig ⟨S50000x128, .f32⟩) main_call3.v0 main_call3.v1 maximumf,
    StableHlo.nullary main_cst_5 (constant S_ .f32 0x3DCCCCCD#32),
    StableHlo.unary main_cst_5 main_v66 (broadcastInDim S50000x128 ![] bcast_S_S50000x128 : (⟨S_, .f32⟩ : BufTy).Contents (Elt F) → (⟨S50000x128, .f32⟩ : BufTy).Contents (Elt F)),
    StableHlo.binary main_v66 main_arg0 main_v67 (mulf : (⟨S50000x128, .f32⟩ : BufTy).Contents (Elt F) → (⟨S50000x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)),
    StableHlo.unary main_arg3 main_v69 ((extractStridedSlice S1x32x128 ![1, 0, 0] · slices_S3x32x128_S1x32x128_1_0_0) : (⟨S3x32x128, .f32⟩ : BufTy).Contents (Elt F) → (⟨S1x32x128, .f32⟩ : BufTy).Contents (Elt F)),
    StableHlo.reshape main_v69 main_v70 rfl shapeCasts_S1x32x128_S32x128,
    StableHlo.binary main_arg2 main_v70 main_v71 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v72 ((extractStridedSlice S1x128 ![1, 0] · slices_S3x128_S1x128_1_0) : (⟨S3x128, .f32⟩ : BufTy).Contents (Elt F) → (⟨S1x128, .f32⟩ : BufTy).Contents (Elt F)),
    StableHlo.reshape main_v72 main_v73 rfl shapeCasts_S1x128_S128,
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S800000x128 ![0, 1] bcast_S1x128_S800000x128_0_1 : (⟨S1x128, .f32⟩ : BufTy).Contents (Elt F) → (⟨S800000x128, .f32⟩ : BufTy).Contents (Elt F)),
    StableHlo.binary main_v71 main_v75 main_v76 (addf : (⟨S800000x128, .f32⟩ : BufTy).Contents (Elt F) → (⟨S800000x128, .f32⟩ : BufTy).Contents (Elt F) → (⟨S800000x128, .f32⟩ : BufTy).Contents (Elt F)),
    StableHlo.nullary main_c_6 (constantI S_ 32 0#32),
    StableHlo.unary main_c_6 main_v77 (broadcastInDim S800000 ![] bcast_S_S800000 : (⟨S_, .i32⟩ : BufTy).Contents (Elt F) → (⟨S800000, .i32⟩ : BufTy).Contents (Elt F)),
    StableHlo.binary main_v1 main_v77 main_v78 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v79 (broadcastInDim S800000 ![] bcast_S_S800000 : (⟨S_, .i32⟩ : BufTy).Contents (Elt F) → (⟨S800000, .i32⟩ : BufTy).Contents (Elt F)),
    StableHlo.binary main_v1 main_v79 main_v80 (addi : (⟨S800000, .i32⟩ : BufTy).Contents (Elt F) → (⟨S800000, .i32⟩ : BufTy).Contents (Elt F) → (⟨S800000, .i32⟩ : BufTy).Contents (Elt F)),
    StableHlo.ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v81 main_v82 (broadcastInDim S800000x1 ![0] bcast_S800000_S800000x1_0 : (⟨S800000, .i32⟩ : BufTy).Contents (Elt F) → (⟨S800000x1, .i32⟩ : BufTy).Contents (Elt F)),
    StableHlo.binary main_v68 main_v82 main_v83 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v83 main_v76 main_v84 (addf : (⟨S800000x128, .f32⟩ : BufTy).Contents (Elt F) → (⟨S800000x128, .f32⟩ : BufTy).Contents (Elt F) → (⟨S800000x128, .f32⟩ : BufTy).Contents (Elt F)),
    StableHlo.TRef.nullary main_call4.cst (constant S_ .f32 0x00000000#32),
    StableHlo.TRef.unary main_call4.cst main_call4.v0 (broadcastInDim S800000x128 ![] bcast_S_S800000x128),
    StableHlo.TRef.binary (.of main_v84 : StableHlo.TRef sig ⟨S800000x128, .f32⟩) main_call4.v0 main_call4.v1 maximumf,
    StableHlo.nullary main_cst_8 (constant S_ .f32 0x00000000#32),
    StableHlo.unary main_cst_8 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v68 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg5 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v93 ((extractStridedSlice S1x128 ![1, 0] · slices_S3x128_S1x128_1_0) : (⟨S3x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v97 : StableHlo.TRef sig ⟨S50000x128, .f32⟩) main_call5.v0 main_call5.v1 maximumf,
    StableHlo.unary main_arg7 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v102 ((extractStridedSlice S1x128 ![1, 0] · slices_S3x128_S1x128_1_0) : (⟨S3x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v106 main_cst_9 main_v107 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

/-- The operations of @main's window 2. 85 operations. -/
abbrev opsW2 : List (HloOp τ sig (Elt F)) :=
  [ StableHlo.nullary main_cst_10 (constant S_ .f32 0x47435000#32),
    StableHlo.unary main_cst_10 main_v108 (broadcastInDim S128 ![] bcast_S_S128 : (⟨S_, .f32⟩ : BufTy).Contents (Elt F) → (⟨S128, .f32⟩ : BufTy).Contents (Elt F)),
    StableHlo.binary main_v107 main_v108 main_v109 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call6.cst (constant S_ .f32 0x00000000#32),
    StableHlo.TRef.binary (.of main_v106 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v106 : StableHlo.TRef sig ⟨S50000x128, .f32⟩) main_call6.v4 main_call6.v5 subf,
    StableHlo.TRef.binary main_call6.v5 main_call6.v5 main_call6.v6 mulf,
    StableHlo.TRef.unary (.of main_c_11 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v109 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v112 main_v113 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v114 (broadcastInDim S128 ![] bcast_S_S128 : (⟨S_, .f32⟩ : BufTy).Contents (Elt F) → (⟨S128, .f32⟩ : BufTy).Contents (Elt F)),
    StableHlo.binary main_v110 main_v114 main_v115 (addf : (⟨S128, .f32⟩ : BufTy).Contents (Elt F) → (⟨S128, .f32⟩ : BufTy).Contents (Elt F) → (⟨S128, .f32⟩ : BufTy).Contents (Elt F)),
    StableHlo.unary main_v115 main_v116 (Host.rsqrt : (⟨S128, .f32⟩ : BufTy).Contents (Elt F) → (⟨S128, .f32⟩ : BufTy).Contents (Elt F)),
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v118 main_v119 (mulf : (⟨S50000x128, .f32⟩ : BufTy).Contents (Elt F) → (⟨S50000x128, .f32⟩ : BufTy).Contents (Elt F) → (⟨S50000x128, .f32⟩ : BufTy).Contents (Elt F)),
    StableHlo.unary main_arg9 main_v120 ((extractStridedSlice S1x128 ![1, 0] · slices_S3x128_S1x128_1_0) : (⟨S3x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_arg10 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v129 : StableHlo.TRef sig ⟨S50000x128, .f32⟩) main_call7.v0 main_call7.v1 maximumf,
    StableHlo.nullary main_cst_13 (constant S_ .f32 0x3DCCCCCD#32),
    StableHlo.unary main_cst_13 main_v131 (broadcastInDim S50000x128 ![] bcast_S_S50000x128 : (⟨S_, .f32⟩ : BufTy).Contents (Elt F) → (⟨S50000x128, .f32⟩ : BufTy).Contents (Elt F)),
    StableHlo.binary main_v131 main_v68 main_v132 (mulf : (⟨S50000x128, .f32⟩ : BufTy).Contents (Elt F) → (⟨S50000x128, .f32⟩ : BufTy).Contents (Elt F) → (⟨S50000x128, .f32⟩ : BufTy).Contents (Elt F)),
    StableHlo.binary main_v130 main_v132 main_v133 (addf : (⟨S50000x128, .f32⟩ : BufTy).Contents (Elt F) → (⟨S50000x128, .f32⟩ : BufTy).Contents (Elt F) → (⟨S50000x128, .f32⟩ : BufTy).Contents (Elt F)),
    StableHlo.unary main_arg3 main_v134 ((extractStridedSlice S1x32x128 ![2, 0, 0] · slices_S3x32x128_S1x32x128_2_0_0) : (⟨S3x32x128, .f32⟩ : BufTy).Contents (Elt F) → (⟨S1x32x128, .f32⟩ : BufTy).Contents (Elt F)),
    StableHlo.reshape main_v134 main_v135 rfl shapeCasts_S1x32x128_S32x128,
    StableHlo.binary main_arg2 main_v135 main_v136 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg4 main_v137 ((extractStridedSlice S1x128 ![2, 0] · slices_S3x128_S1x128_2_0) : (⟨S3x128, .f32⟩ : BufTy).Contents (Elt F) → (⟨S1x128, .f32⟩ : BufTy).Contents (Elt F)),
    StableHlo.reshape main_v137 main_v138 rfl shapeCasts_S1x128_S128,
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S800000x128 ![0, 1] bcast_S1x128_S800000x128_0_1 : (⟨S1x128, .f32⟩ : BufTy).Contents (Elt F) → (⟨S800000x128, .f32⟩ : BufTy).Contents (Elt F)),
    StableHlo.binary main_v136 main_v140 main_v141 (addf : (⟨S800000x128, .f32⟩ : BufTy).Contents (Elt F) → (⟨S800000x128, .f32⟩ : BufTy).Contents (Elt F) → (⟨S800000x128, .f32⟩ : BufTy).Contents (Elt F)),
    StableHlo.nullary main_c_14 (constantI S_ 32 0#32),
    StableHlo.unary main_c_14 main_v142 (broadcastInDim S800000 ![] bcast_S_S800000 : (⟨S_, .i32⟩ : BufTy).Contents (Elt F) → (⟨S800000, .i32⟩ : BufTy).Contents (Elt F)),
    StableHlo.binary main_v1 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v144 (broadcastInDim S800000 ![] bcast_S_S800000 : (⟨S_, .i32⟩ : BufTy).Contents (Elt F) → (⟨S800000, .i32⟩ : BufTy).Contents (Elt F)),
    StableHlo.binary main_v1 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_v133 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v148 main_v141 main_v149 (addf : (⟨S800000x128, .f32⟩ : BufTy).Contents (Elt F) → (⟨S800000x128, .f32⟩ : BufTy).Contents (Elt F) → (⟨S800000x128, .f32⟩ : BufTy).Contents (Elt F)),
    StableHlo.TRef.nullary main_call8.cst (constant S_ .f32 0x00000000#32),
    StableHlo.TRef.unary main_call8.cst main_call8.v0 (broadcastInDim S800000x128 ![] bcast_S_S800000x128),
    StableHlo.TRef.binary (.of main_v149 : StableHlo.TRef sig ⟨S800000x128, .f32⟩) main_call8.v0 main_call8.v1 maximumf,
    StableHlo.nullary main_cst_16 (constant S_ .f32 0x00000000#32),
    StableHlo.unary main_cst_16 main_v151 (broadcastInDim S50000x128 ![] bcast_S_S50000x128 : (⟨S_, .f32⟩ : BufTy).Contents (Elt F) → (⟨S50000x128, .f32⟩ : BufTy).Contents (Elt F)),
    StableHlo.unary main_v3 main_v152 (broadcastInDim S800000x1 ![0] bcast_S800000_S800000x1_0 : (⟨S800000, .i32⟩ : BufTy).Contents (Elt F) → (⟨S800000x1, .i32⟩ : BufTy).Contents (Elt F)),
    StableHlo.ternary main_v151 main_v152 main_v150 main_v153 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v133 main_v153 main_v154 (addf : (⟨S50000x128, .f32⟩ : BufTy).Contents (Elt F) → (⟨S50000x128, .f32⟩ : BufTy).Contents (Elt F) → (⟨S50000x128, .f32⟩ : BufTy).Contents (Elt F)),
    StableHlo.unary main_arg5 main_v155 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v155 main_v156 rfl shapeCasts_S1x128x128_S128x128,
    StableHlo.binary main_v154 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)) ]

/-- The operations of @main's window 3. 68 operations. -/
abbrev opsW3 : List (HloOp τ sig (Elt F)) :=
  [ StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v162 : StableHlo.TRef sig ⟨S50000x128, .f32⟩) main_call9.v0 main_call9.v1 maximumf,
    StableHlo.unary main_arg7 main_v164 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v164 main_v165 rfl shapeCasts_S1x128x128_S128x128,
    StableHlo.binary main_v163 main_v165 main_v166 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v167 ((extractStridedSlice S1x128 ![2, 0] · slices_S3x128_S1x128_2_0) : (⟨S3x128, .f32⟩ : BufTy).Contents (Elt F) → (⟨S1x128, .f32⟩ : BufTy).Contents (Elt F)),
    StableHlo.reshape main_v167 main_v168 rfl shapeCasts_S1x128_S128,
    StableHlo.unary main_v168 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S50000x128 ![0, 1] bcast_S1x128_S50000x128_0_1 : (⟨S1x128, .f32⟩ : BufTy).Contents (Elt F) → (⟨S50000x128, .f32⟩ : BufTy).Contents (Elt F)),
    StableHlo.binary main_v166 main_v170 main_v171 (addf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x00000000#32),
    StableHlo.binary main_v171 main_cst_17 main_v172 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_18 (constant S_ .f32 0x47435000#32),
    StableHlo.unary main_cst_18 main_v173 (broadcastInDim S128 ![] bcast_S_S128 : (⟨S_, .f32⟩ : BufTy).Contents (Elt F) → (⟨S128, .f32⟩ : BufTy).Contents (Elt F)),
    StableHlo.binary main_v172 main_v173 main_v174 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary main_call10.cst (constant S_ .f32 0x00000000#32),
    StableHlo.TRef.binary (.of main_v171 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v171 : StableHlo.TRef sig ⟨S50000x128, .f32⟩) main_call10.v4 main_call10.v5 subf,
    StableHlo.TRef.binary main_call10.v5 main_call10.v5 main_call10.v6 mulf,
    StableHlo.TRef.unary (.of main_c_19 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v174 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v171 main_v177 main_v178 (subf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3727C5AC#32),
    StableHlo.unary main_cst_20 main_v179 (broadcastInDim S128 ![] bcast_S_S128 : (⟨S_, .f32⟩ : BufTy).Contents (Elt F) → (⟨S128, .f32⟩ : BufTy).Contents (Elt F)),
    StableHlo.binary main_v175 main_v179 main_v180 (addf : (⟨S128, .f32⟩ : BufTy).Contents (Elt F) → (⟨S128, .f32⟩ : BufTy).Contents (Elt F) → (⟨S128, .f32⟩ : BufTy).Contents (Elt F)),
    StableHlo.unary main_v180 main_v181 (Host.rsqrt : (⟨S128, .f32⟩ : BufTy).Contents (Elt F) → (⟨S128, .f32⟩ : BufTy).Contents (Elt F)),
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v183 main_v184 (mulf : (⟨S50000x128, .f32⟩ : BufTy).Contents (Elt F) → (⟨S50000x128, .f32⟩ : BufTy).Contents (Elt F) → (⟨S50000x128, .f32⟩ : BufTy).Contents (Elt F)),
    StableHlo.unary main_arg9 main_v185 ((extractStridedSlice S1x128 ![2, 0] · slices_S3x128_S1x128_2_0) : (⟨S3x128, .f32⟩ : BufTy).Contents (Elt F) → (⟨S1x128, .f32⟩ : BufTy).Contents (Elt F)),
    StableHlo.reshape main_v185 main_v186 rfl shapeCasts_S1x128_S128,
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v184 main_v188 main_v189 (mulf : (⟨S50000x128, .f32⟩ : BufTy).Contents (Elt F) → (⟨S50000x128, .f32⟩ : BufTy).Contents (Elt F) → (⟨S50000x128, .f32⟩ : BufTy).Contents (Elt F)),
    StableHlo.unary main_arg10 main_v190 ((extractStridedSlice S1x128 ![2, 0] · slices_S3x128_S1x128_2_0) : (⟨S3x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v193 main_v194 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v194 : StableHlo.TRef sig ⟨S50000x128, .f32⟩) main_call11.v0 main_call11.v1 maximumf,
    StableHlo.nullary main_cst_21 (constant S_ .f32 0x3DCCCCCD#32),
    StableHlo.unary main_cst_21 main_v196 (broadcastInDim S50000x128 ![] bcast_S_S50000x128 : (⟨S_, .f32⟩ : BufTy).Contents (Elt F) → (⟨S50000x128, .f32⟩ : BufTy).Contents (Elt F)),
    StableHlo.binary main_v196 main_v133 main_v197 (mulf : (⟨S50000x128, .f32⟩ : BufTy).Contents (Elt F) → (⟨S50000x128, .f32⟩ : BufTy).Contents (Elt F) → (⟨S50000x128, .f32⟩ : BufTy).Contents (Elt F)),
    StableHlo.binary main_v195 main_v197 main_v198 (addf : (⟨S50000x128, .f32⟩ : BufTy).Contents (Elt F) → (⟨S50000x128, .f32⟩ : BufTy).Contents (Elt F) → (⟨S50000x128, .f32⟩ : BufTy).Contents (Elt F)) ]

set_option maxRecDepth 4096 in
set_option maxHeartbeats 1600000 in
/-- Window 0 is the straight line of its operations: the callees' bodies unfolded at their calls, sequencing reassociated (the window ends in an operation, the line in the return after it: binding the return changes nothing). -/
theorem window0_eq (c : Dev nD) : main_part0 (F := F) c = seq opsW0 := by
  simp only [main_part0, fn_relu.body, fn_relu_0.body, fn_var.body, fn_where.body, seq, bind_assoc, pure_bind]
  rfl

set_option maxRecDepth 4096 in
set_option maxHeartbeats 1600000 in
/-- Window 1 is the straight line of its operations: the callees' bodies unfolded at their calls, sequencing reassociated (the window ends in an operation, the line in the return after it: binding the return changes nothing). -/
theorem window1_eq (c : Dev nD) : main_part1 (F := F) c = seq opsW1 := by
  simp only [main_part1, fn_relu.body, fn_relu_0.body, fn_var.body, fn_where.body, seq, bind_assoc, pure_bind]
  rfl

set_option maxRecDepth 4096 in
set_option maxHeartbeats 1600000 in
/-- Window 2 is the straight line of its operations: the callees' bodies unfolded at their calls, sequencing reassociated (the window ends in an operation, the line in the return after it: binding the return changes nothing). -/
theorem window2_eq (c : Dev nD) : main_part2 (F := F) c = seq opsW2 := by
  simp only [main_part2, fn_relu.body, fn_relu_0.body, fn_var.body, fn_where.body, seq, bind_assoc, pure_bind]
  rfl

set_option maxRecDepth 4096 in
set_option maxHeartbeats 1600000 in
/-- Window 3 is the straight line of its operations: the callees' bodies unfolded at their calls, sequencing reassociated. -/
theorem window3_eq (c : Dev nD) : main_part3 (F := F) c = seq opsW3 := by
  simp only [main_part3, fn_relu.body, fn_relu_0.body, fn_var.body, fn_where.body, seq, bind_assoc, pure_bind]

set_option maxRecDepth 8192 in
/-- The two cuts are cuts of one line. -/
theorem ops_eq_windows : (ops : List (HloOp τ sig (Elt F))) = opsW0 ++ opsW1 ++ opsW2 ++ opsW3 := by
  simp only [ops, opsPre, opsL0, opsL1, opsL2, opsW0, opsW1, opsW2, opsW3, List.cons_append, List.nil_append, List.append_assoc]

/-- @main is the straight line of `ops`. -/
theorem main_eq (c : Dev nD) : main (F := F) c = seq ops := by
  rw [ops_eq_windows]
  simp only [seq_append, List.append_assoc, ← window0_eq c, ← window1_eq c, ← window2_eq c, ← window3_eq c]
  rfl

/-! ## The run's side conditions -/

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨unary_bufs_sub .., reshape_bufs_sub .., unary_bufs_sub .., reshape_bufs_sub ..⟩

theorem opsL0_sub : (opsL0 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., binary_bufs_sub ..⟩

theorem opsL1_sub : (opsL1 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., binary_bufs_sub ..⟩

theorem opsL2_sub : (opsL2 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., binary_bufs_sub ..⟩

/-- Every operation touches TensorCore buffers only. -/
theorem ops_sub : (ops : List (HloOp τ sig (Elt F))).Forall fun op => op.bufs ⊆ tcRefs τ sig :=
  List.forall_append.mpr ⟨List.forall_append.mpr ⟨List.forall_append.mpr ⟨opsPre_sub, opsL0_sub⟩, opsL1_sub⟩, opsL2_sub⟩

theorem opsPre_fresh : (opsPre : List (HloOp τ sig (Elt F))).Forall fun op => op.fresh = ∅ :=
  ⟨rfl, rfl, rfl, rfl⟩

theorem opsL0_fresh : (opsL0 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl⟩

theorem opsL1_fresh : (opsL1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl⟩

theorem opsL2_fresh : (opsL2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl⟩

/-- Every operation determines its result. -/
theorem ops_fresh : ∀ op ∈ (ops : List (HloOp τ sig (Elt F))), op.fresh = ∅ :=
  List.forall_iff_forall_mem.mp (List.forall_append.mpr ⟨List.forall_append.mpr ⟨List.forall_append.mpr ⟨opsPre_fresh, opsL0_fresh⟩, opsL1_fresh⟩, opsL2_fresh⟩)

/-! ## The run -/

/-- At the compiled mesh, for any float values, from any memory with zero counters: every weakly fair execution of
    @main terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  StableHlo.run_seq scopedRefs_eq scopedSems_eq defs main (fun _ => ops) main_eq (fun _ => ops_sub) m ρ (fun _ => ops_fresh)

end Cert.ReferenceIdeal.RefRun

end
-- ==== Proof.RefDense.lean ====
import proofs.«403306_j43559558316462_1_alg».proof.ReferenceIdeal
import proofs.«403306_j43559558316462_1_alg».proof.Proof.Gen.ReferenceIdeal
import proofs.«403306_j43559558316462_1_alg».proof.Proof.Spec
import Idealize.ShloMosaic.PureOps.Ideal.Laws

noncomputable section

namespace Cert.ReferenceIdeal.RefVal

open Idealize.ShloMosaic Idealize.ShloMosaic.TcCoe Idealize.ShloMosaic.ValueIdx Idealize.SL.Sem
open Cert.ReferenceIdeal Cert.ReferenceIdeal.Gen

/-! ## A vector laid along every row of a matrix, and a broadcast scalar, read at an index -/

/-- A 128-vector cast to one row and broadcast down the 800000 edge rows reads its entry at the column. -/
theorem rowE_apply (v : FVec Ideal S128 .f32) (p : Fin 800000) (q : Fin 128) :
    broadcastInDim S800000x128 ![0, 1] bcast_S1x128_S800000x128_0_1 (broadcastInDim S1x128 ![1] bcast_S128_S1x128_1 v) (ix2 p q)
      = v (ix1 q) := by
  unfold broadcastInDim
  refine congrArg v (funext fun a => ?_)
  match a with
  | ⟨0, _⟩ => exact Fin.ext rfl

/-- The same down the 50000 node rows. -/
theorem rowN_apply (v : FVec Ideal S128 .f32) (p : Fin 50000) (q : Fin 128) :
    broadcastInDim S50000x128 ![0, 1] bcast_S1x128_S50000x128_0_1 (broadcastInDim S1x128 ![1] bcast_S128_S1x128_1 v) (ix2 p q)
      = v (ix1 q) := by
  unfold broadcastInDim
  refine congrArg v (funext fun a => ?_)
  match a with
  | ⟨0, _⟩ => exact Fin.ext rfl

/-- A scalar broadcast to any shape reads the scalar. -/
theorem scalar_apply {T : Shape} (h : S_.BroadcastsInDim T ![]) (x : FVec Ideal S_ .f32) (j : T.Idx) :
    broadcastInDim T ![] h x j = x ix0 := by
  unfold broadcastInDim
  exact congrArg x (funext fun a => a.elim0)

/-! ## The two matrix products read at an index -/

theorem lhs_dotE_0 (i : S800000x128.Idx) (c : dot_S800000x32_S32x128_S800000x128_1_0_0_1_n_n.contr.Idx) :
    (dot_S800000x32_S32x128_S800000x128_1_0_0_1_n_n.lhsIdx i c 0).val = (i 0).val := by
  unfold DotDims.lhsIdx
  rw [dif_neg (show ¬(0 : Fin S800000x32.rank) ∈ dot_S800000x32_S32x128_S800000x128_1_0_0_1_n_n.lhsBatch by decide),
    dif_pos (show (0 : Fin S800000x32.rank) ∈ dot_S800000x32_S32x128_S800000x128_1_0_0_1_n_n.lhsNonContracting by decide)]
  rfl
theorem lhs_dotE_1 (i : S800000x128.Idx) (c : dot_S800000x32_S32x128_S800000x128_1_0_0_1_n_n.contr.Idx) :
    (dot_S800000x32_S32x128_S800000x128_1_0_0_1_n_n.lhsIdx i c 1).val = (c ⟨0, by decide⟩).val :=
  dot_S800000x32_S32x128_S800000x128_1_0_0_1_n_n.lhsIdx_val_of_single rfl i c
theorem rhs_dotE_0 (i : S800000x128.Idx) (c : dot_S800000x32_S32x128_S800000x128_1_0_0_1_n_n.contr.Idx) :
    (dot_S800000x32_S32x128_S800000x128_1_0_0_1_n_n.rhsIdx i c 0).val = (c ⟨0, by decide⟩).val :=
  dot_S800000x32_S32x128_S800000x128_1_0_0_1_n_n.rhsIdx_val_of_single rfl i c
theorem rhs_dotE_1 (i : S800000x128.Idx) (c : dot_S800000x32_S32x128_S800000x128_1_0_0_1_n_n.contr.Idx) :
    (dot_S800000x32_S32x128_S800000x128_1_0_0_1_n_n.rhsIdx i c 1).val = (i 1).val := by
  unfold DotDims.rhsIdx
  rw [dif_neg (show ¬(1 : Fin S32x128.rank) ∈ dot_S800000x32_S32x128_S800000x128_1_0_0_1_n_n.rhsBatch by decide),
    dif_pos (show (1 : Fin S32x128.rank) ∈ dot_S800000x32_S32x128_S800000x128_1_0_0_1_n_n.rhsNonContracting by decide)]
  rfl

/-- The edge product `edge_attr · We` at (p, q): the sum over the 32 attribute columns. -/
theorem dotE_apply (l : FVec Ideal S800000x32 .f32) (r : FVec Ideal S32x128 .f32) (p : Fin 800000) (q : Fin 128) :
    Host.dotGeneral dot_S800000x32_S32x128_S800000x128_1_0_0_1_n_n none l r (ix2 p q)
      = ∑ k : Fin 32, l (ix2 p k) * r (ix2 k q) := by
  simp only [Host.dotGeneral]
  rw [Ideal.dotGeneral_apply, ← Equiv.sum_comp (contrEquiv1 dot_S800000x32_S32x128_S800000x128_1_0_0_1_n_n 32 rfl rfl).symm]
  refine Finset.sum_congr rfl fun k _ => ?_
  have hk := contrEquiv1_symm_val dot_S800000x32_S32x128_S800000x128_1_0_0_1_n_n 32 rfl rfl k
  have el : dot_S800000x32_S32x128_S800000x128_1_0_0_1_n_n.lhsIdx (ix2 p q)
      ((contrEquiv1 dot_S800000x32_S32x128_S800000x128_1_0_0_1_n_n 32 rfl rfl).symm k) = ix2 p k :=
    funext fun a => Fin.ext (by
      match a with
      | ⟨0, _⟩ => exact lhs_dotE_0 _ _
      | ⟨1, _⟩ => exact (lhs_dotE_1 _ _).trans hk)
  have er : dot_S800000x32_S32x128_S800000x128_1_0_0_1_n_n.rhsIdx (ix2 p q)
      ((contrEquiv1 dot_S800000x32_S32x128_S800000x128_1_0_0_1_n_n 32 rfl rfl).symm k) = ix2 k q :=
    funext fun a => Fin.ext (by
      match a with
      | ⟨0, _⟩ => exact (rhs_dotE_0 _ _).trans hk
      | ⟨1, _⟩ => exact rhs_dotE_1 _ _)
  rw [el, er]

theorem lhs_dotN_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_dotN_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs_dotN_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs_dotN_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- A node product `z · W` at (p, q): the sum over the 128 feature columns. -/
theorem dotN_apply (l : FVec Ideal S50000x128 .f32) (r : FVec Ideal S128x128 .f32) (p : Fin 50000) (q : Fin 128) :
    Host.dotGeneral dot_S50000x128_S128x128_S50000x128_1_0_0_1_n_n none l r (ix2 p q)
      = ∑ k : Fin 128, l (ix2 p k) * r (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact lhs_dotN_0 _ _
      | ⟨1, _⟩ => exact (lhs_dotN_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (rhs_dotN_0 _ _).trans hk
      | ⟨1, _⟩ => exact rhs_dotN_1 _ _)
  rw [el, er]

/-- The host's reciprocal square root reads entry by entry. -/
theorem rsqrt_apply {s : Shape} (x : FVec Ideal s .f32) (i : s.Idx) : Host.rsqrt x i = Ideal.rsqrt (x i) := rfl

/-! ## The three dense chains -/

/-- The reference's edge message, its host operations read index by index. -/
theorem edge_ops_eq (ea : FVec Ideal S800000x32 .f32) (hs : FVec Ideal S800000x128 .f32) (we : FVec Ideal S32x128 .f32) (be : FVec Ideal S128 .f32) :
    maximumf (addf hs (addf (Host.dotGeneral dot_S800000x32_S32x128_S800000x128_1_0_0_1_n_n none ea we)
        (broadcastInDim S800000x128 ![0, 1] bcast_S1x128_S800000x128_0_1 (broadcastInDim S1x128 ![1] bcast_S128_S1x128_1 be))))
      (broadcastInDim S800000x128 ![] bcast_S_S800000x128 (constant (F := Ideal) S_ .f32 0x00000000#32))
    = GINE.edgeMsg ea hs we be := by
  funext i
  obtain ⟨p, q, rfl⟩ : ∃ (p : Fin 800000) (q : Fin 128), i = ix2 p q := ⟨i 0, i 1, eq_ix2 i⟩
  rw [maximumf_apply, addf_apply, addf_apply, dotE_apply, rowE_apply, scalar_apply, constant_apply]
  rfl

/-- The reference's node perceptron read index by index. -/
theorem mlp_ops_eq (z : FVec Ideal S50000x128 .f32) (w1 : FVec Ideal S128x128 .f32) (b1 : FVec Ideal S128 .f32) (w2 : FVec Ideal S128x128 .f32) (b2 : FVec Ideal S128 .f32) :
    addf (Host.dotGeneral dot_S50000x128_S128x128_S50000x128_1_0_0_1_n_n none
        (maximumf (addf (Host.dotGeneral dot_S50000x128_S128x128_S50000x128_1_0_0_1_n_n none z w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
      (broadcastInDim S50000x128 ![0, 1] bcast_S1x128_S50000x128_0_1 (broadcastInDim S1x128 ![1] bcast_S128_S1x128_1 b2))
    = GINE.mlp z w1 b1 w2 b2 := by
  funext i
  obtain ⟨p, q, rfl⟩ : ∃ (p : Fin 50000) (q : Fin 128), i = ix2 p q := ⟨i 0, i 1, eq_ix2 i⟩
  rw [addf_apply, dotN_apply, rowN_apply]
  show _ = (∑ k : Fin 128, max ((∑ k' : Fin 128, z (ix2 p k') * w1 (ix2 k' k)) + b1 (ix1 k)) GINE.zero * w2 (ix2 k q)) + b2 (ix1 q)
  refine congrArg (· + b2 (ix1 q)) (Finset.sum_congr rfl fun k _ => ?_)
  rw [maximumf_apply, addf_apply, dotN_apply, rowN_apply, scalar_apply, constant_apply]
  rfl

/-- The reference's normalisation, scale, shift, clip and residual read index by index. -/
theorem bn_ops_eq (z : FVec Ideal S50000x128 .f32) (mu var gamma beta : FVec Ideal S128 .f32) (h : FVec Ideal S50000x128 .f32) :
    addf (maximumf (addf (mulf (mulf (subf z (broadcastInDim S50000x128 ![0, 1] bcast_S1x128_S50000x128_0_1 (broadcastInDim S1x128 ![1] bcast_S128_S1x128_1 mu)))
              (broadcastInDim S50000x128 ![0, 1] bcast_S1x128_S50000x128_0_1 (broadcastInDim S1x128 ![1] bcast_S128_S1x128_1
                (Host.rsqrt (addf var (broadcastInDim S128 ![] bcast_S_S128 (constant (F := Ideal) S_ .f32 0x3727C5AC#32)))))))
            (broadcastInDim S50000x128 ![0, 1] bcast_S1x128_S50000x128_0_1 (broadcastInDim S1x128 ![1] bcast_S128_S1x128_1 gamma)))
          (broadcastInDim S50000x128 ![0, 1] bcast_S1x128_S50000x128_0_1 (broadcastInDim S1x128 ![1] bcast_S128_S1x128_1 beta)))
        (broadcastInDim S50000x128 ![] bcast_S_S50000x128 (constant (F := Ideal) S_ .f32 0x00000000#32)))
      (mulf (broadcastInDim S50000x128 ![] bcast_S_S50000x128 (constant (F := Ideal) S_ .f32 0x3DCCCCCD#32)) h)
    = GINE.bn z mu var gamma beta h := by
  funext i
  obtain ⟨p, q, rfl⟩ : ∃ (p : Fin 50000) (q : Fin 128), i = ix2 p q := ⟨i 0, i 1, eq_ix2 i⟩
  rw [addf_apply, maximumf_apply, addf_apply, mulf_apply, mulf_apply, subf_apply, mulf_apply,
    rowN_apply, rowN_apply, rowN_apply, rowN_apply, rsqrt_apply, addf_apply,
    scalar_apply, scalar_apply, scalar_apply, constant_apply, constant_apply, constant_apply]
  rfl

end Cert.ReferenceIdeal.RefVal

end
-- ==== Proof.RefLayers.lean ====
/-
  The reference program's whole line of host operations, read as the specification's network.

  The line is cut by round.  Within a round every buffer is a function of the round's input table,
  the two rows of the edge list and the argument arrays: composing the operations' functions and
  recognising the three dense chains (edge message, node perceptron, normalisation) gives the
  specification's round, the gather, the segment sum, the column statistics and the parameter slices
  being the very host operations the specification keeps.  No round writes an argument array or an
  edge row, so the three rounds compose to the network of the arguments, and the arguments are as they were.
-/
import proofs.«403306_j43559558316462_1_alg».proof.Proof.RefOps
import proofs.«403306_j43559558316462_1_alg».proof.Proof.RefDense
import proofs.«403306_j43559558316462_1_alg».proof.Proof.Spec
import Idealize.ShloMosaic.Lib.StableHlo.Run

noncomputable section

namespace Cert.ReferenceIdeal.RefVal2

open Idealize.ShloMosaic Idealize.ShloMosaic.TcCoe Idealize.ShloMosaic.ValueIdx Idealize.SL.Sem Idealize.ShloMosaic.StableHlo
open Cert.ReferenceIdeal Cert.ReferenceIdeal.Gen
open Cert.ReferenceIdeal.RefRun Cert.ReferenceIdeal.RefVal

/-- Contents of the device's buffers at the ideal values. -/
abbrev Val := Valuation τ sig (Elt Ideal)

/-! ## Folding over a concatenation -/

/-- Two lines run one after the other: the second folds over what the first leaves. -/
theorem after_app : ∀ (l₁ l₂ : List (HloOp τ sig (Elt Ideal))) (V : Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## What each stretch writes -/

/-- The buffers the edge-row stretch writes. -/
abbrev WPre : List (Ref sig .tc) := [
    main_v0, main_v1, main_v2, main_v3 ]
theorem opsPre_writes : (opsPre : List (HloOp τ sig (Elt Ideal))).Forall fun op =>
    op.writes ⊆ (WPre.map (Proc.devRef (τ := τ) .tc)).toFinset := by
  simp only [List.Forall]
  and_intros
  all_goals
    (simp only [nullary_writes, unary_writes, binary_writes, ternary_writes, reshape_writes,
      Finset.singleton_subset_iff, List.mem_toFinset]
     exact List.mem_map_of_mem (by decide))

/-- The buffers round 0 writes. -/
abbrev WL0 : List (Ref sig .tc) := [
    main_v4, main_v5, main_v6, main_v7, main_v8, main_v9, main_v10, main_v11,
    main_c, main_v12, main_v13, main_c_0, main_v14, main_v15, main_v16, main_v17,
    main_v18, main_v19, main_call0.cst.ref, main_call0.v0.ref, main_call0.v1.ref, main_cst, main_v21, main_v22,
    main_v23, main_v24, main_v25, main_v26, main_v27, main_v28, main_v29, main_v30,
    main_v31, main_v32, main_call1.cst.ref, main_call1.v0.ref, main_call1.v1.ref, main_v34, main_v35, main_v36,
    main_v37, main_v38, main_v39, main_v40, main_v41, main_cst_1, main_v42, main_cst_2,
    main_v43, main_v44, main_c_3, main_call2.cst.ref, main_call2.v0.ref, main_call2.v1.ref, main_call2.cst_0.ref, main_call2.v2.ref,
    main_call2.v3.ref, main_call2.v4.ref, main_call2.v5.ref, main_call2.v6.ref, main_call2.v7.ref, main_call2.cst_1.ref, main_call2.v8.ref, main_call2.cst_2.ref,
    main_call2.v9.ref, main_call2.v10.ref, main_call2.v11.ref, main_call2.cst_3.ref, main_call2.v12.ref, main_call2.cst_4.ref, main_call2.call0.v0.ref, main_call2.call0.v1.ref,
    main_call2.call0.v2.ref, main_v46, main_v47, main_v48, main_cst_4, main_v49, main_v50, main_v51,
    main_v52, main_v53, main_v54, main_v55, main_v56, main_v57, main_v58, main_v59,
    main_v60, main_v61, main_v62, main_v63, main_v64, main_call3.cst.ref, main_call3.v0.ref, main_call3.v1.ref,
    main_cst_5, main_v66, main_v67, main_v68 ]
theorem opsL0_writes : (opsL0 : List (HloOp τ sig (Elt Ideal))).Forall fun op =>
    op.writes ⊆ (WL0.map (Proc.devRef (τ := τ) .tc)).toFinset := by
  simp only [List.Forall]
  and_intros
  all_goals
    (simp only [nullary_writes, unary_writes, binary_writes, ternary_writes, reshape_writes,
      Finset.singleton_subset_iff, List.mem_toFinset]
     exact List.mem_map_of_mem (by decide))

/-- The buffers round 1 writes. -/
abbrev WL1 : List (Ref sig .tc) := [
    main_v69, main_v70, main_v71, main_v72, main_v73, main_v74, main_v75, main_v76,
    main_c_6, main_v77, main_v78, main_c_7, main_v79, main_v80, main_v81, main_v82,
    main_v83, main_v84, main_call4.cst.ref, main_call4.v0.ref, main_call4.v1.ref, main_cst_8, main_v86, main_v87,
    main_v88, main_v89, main_v90, main_v91, main_v92, main_v93, main_v94, main_v95,
    main_v96, main_v97, main_call5.cst.ref, main_call5.v0.ref, main_call5.v1.ref, main_v99, main_v100, main_v101,
    main_v102, main_v103, main_v104, main_v105, main_v106, main_cst_9, main_v107, main_cst_10,
    main_v108, main_v109, main_c_11, main_call6.cst.ref, main_call6.v0.ref, main_call6.v1.ref, main_call6.cst_0.ref, main_call6.v2.ref,
    main_call6.v3.ref, main_call6.v4.ref, main_call6.v5.ref, main_call6.v6.ref, main_call6.v7.ref, main_call6.cst_1.ref, main_call6.v8.ref, main_call6.cst_2.ref,
    main_call6.v9.ref, main_call6.v10.ref, main_call6.v11.ref, main_call6.cst_3.ref, main_call6.v12.ref, main_call6.cst_4.ref, main_call6.call0.v0.ref, main_call6.call0.v1.ref,
    main_call6.call0.v2.ref, main_v111, main_v112, main_v113, main_cst_12, main_v114, main_v115, main_v116,
    main_v117, main_v118, main_v119, main_v120, main_v121, main_v122, main_v123, main_v124,
    main_v125, main_v126, main_v127, main_v128, main_v129, main_call7.cst.ref, main_call7.v0.ref, main_call7.v1.ref,
    main_cst_13, main_v131, main_v132, main_v133 ]
theorem opsL1_writes : (opsL1 : List (HloOp τ sig (Elt Ideal))).Forall fun op =>
    op.writes ⊆ (WL1.map (Proc.devRef (τ := τ) .tc)).toFinset := by
  simp only [List.Forall]
  and_intros
  all_goals
    (simp only [nullary_writes, unary_writes, binary_writes, ternary_writes, reshape_writes,
      Finset.singleton_subset_iff, List.mem_toFinset]
     exact List.mem_map_of_mem (by decide))

/-- The buffers round 2 writes. -/
abbrev WL2 : List (Ref sig .tc) := [
    main_v134, main_v135, main_v136, main_v137, main_v138, main_v139, main_v140, main_v141,
    main_c_14, main_v142, main_v143, main_c_15, main_v144, main_v145, main_v146, main_v147,
    main_v148, main_v149, main_call8.cst.ref, main_call8.v0.ref, main_call8.v1.ref, main_cst_16, main_v151, main_v152,
    main_v153, main_v154, main_v155, main_v156, main_v157, main_v158, main_v159, main_v160,
    main_v161, main_v162, main_call9.cst.ref, main_call9.v0.ref, main_call9.v1.ref, main_v164, main_v165, main_v166,
    main_v167, main_v168, main_v169, main_v170, main_v171, main_cst_17, main_v172, main_cst_18,
    main_v173, main_v174, main_c_19, main_call10.cst.ref, main_call10.v0.ref, main_call10.v1.ref, main_call10.cst_0.ref, main_call10.v2.ref,
    main_call10.v3.ref, main_call10.v4.ref, main_call10.v5.ref, main_call10.v6.ref, main_call10.v7.ref, main_call10.cst_1.ref, main_call10.v8.ref, main_call10.cst_2.ref,
    main_call10.v9.ref, main_call10.v10.ref, main_call10.v11.ref, main_call10.cst_3.ref, main_call10.v12.ref, main_call10.cst_4.ref, main_call10.call0.v0.ref, main_call10.call0.v1.ref,
    main_call10.call0.v2.ref, main_v176, main_v177, main_v178, main_cst_20, main_v179, main_v180, main_v181,
    main_v182, main_v183, main_v184, main_v185, main_v186, main_v187, main_v188, main_v189,
    main_v190, main_v191, main_v192, main_v193, main_v194, main_call11.cst.ref, main_call11.v0.ref, main_call11.v1.ref,
    main_cst_21, main_v196, main_v197, main_v198 ]
theorem opsL2_writes : (opsL2 : List (HloOp τ sig (Elt Ideal))).Forall fun op =>
    op.writes ⊆ (WL2.map (Proc.devRef (τ := τ) .tc)).toFinset := by
  simp only [List.Forall]
  and_intros
  all_goals
    (simp only [nullary_writes, unary_writes, binary_writes, ternary_writes, reshape_writes,
      Finset.singleton_subset_iff, List.mem_toFinset]
     exact List.mem_map_of_mem (by decide))

/-! ## What no round writes -/

/-- The edge rows and the argument arrays. -/
abbrev keepSet : List (Ref sig .tc) := [main_v1, main_v3, main_arg0, main_arg1, main_arg2, main_arg3, main_arg4, main_arg5, main_arg6, main_arg7, main_arg8, main_arg9, main_arg10]

/-- `Y` agrees with `X` on the edge rows and the argument arrays. -/
def Keeps (X Y : Val) : Prop := ∀ r ∈ keepSet, Y (Proc.devRef .tc r) = X (Proc.devRef .tc r)

theorem keepsL0 (X : Val) : Keeps X (StableHlo.after opsL0 X) := fun r hr =>
  after_of_writes_sub opsL0 X opsL0_writes ((by decide : ∀ r ∈ keepSet, r ∉ WL0) r hr)
theorem keepsL1 (X : Val) : Keeps X (StableHlo.after opsL1 X) := fun r hr =>
  after_of_writes_sub opsL1 X opsL1_writes ((by decide : ∀ r ∈ keepSet, r ∉ WL1) r hr)
theorem keepsL2 (X : Val) : Keeps X (StableHlo.after opsL2 X) := fun r hr =>
  after_of_writes_sub opsL2 X opsL2_writes ((by decide : ∀ r ∈ keepSet, r ∉ WL2) r hr)

/-- What holds of the contents `X` between rounds, from launch contents `V`: the two edge rows are the rows of
    `V`'s edge list, and the argument arrays are `V`'s. -/
structure Inv (V X : Val) : Prop where
  v1 : X (main_v1 : DevRef τ sig) = GINE.edgeRow 0 (V (main_arg1 : DevRef τ sig))
  v3 : X (main_v3 : DevRef τ sig) = GINE.edgeRow 1 (V (main_arg1 : DevRef τ sig))
  a0 : X (main_arg0 : DevRef τ sig) = V (main_arg0 : DevRef τ sig)
  a1 : X (main_arg1 : DevRef τ sig) = V (main_arg1 : DevRef τ sig)
  a2 : X (main_arg2 : DevRef τ sig) = V (main_arg2 : DevRef τ sig)
  a3 : X (main_arg3 : DevRef τ sig) = V (main_arg3 : DevRef τ sig)
  a4 : X (main_arg4 : DevRef τ sig) = V (main_arg4 : DevRef τ sig)
  a5 : X (main_arg5 : DevRef τ sig) = V (main_arg5 : DevRef τ sig)
  a6 : X (main_arg6 : DevRef τ sig) = V (main_arg6 : DevRef τ sig)
  a7 : X (main_arg7 : DevRef τ sig) = V (main_arg7 : DevRef τ sig)
  a8 : X (main_arg8 : DevRef τ sig) = V (main_arg8 : DevRef τ sig)
  a9 : X (main_arg9 : DevRef τ sig) = V (main_arg9 : DevRef τ sig)
  a10 : X (main_arg10 : DevRef τ sig) = V (main_arg10 : DevRef τ sig)

theorem Inv.step {V X Y : Val} (h : Inv V X) (k : Keeps X Y) : Inv V Y :=
  ⟨(k main_v1 (by decide)).trans h.v1, (k main_v3 (by decide)).trans h.v3,
    (k main_arg0 (by decide)).trans h.a0,
    (k main_arg1 (by decide)).trans h.a1,
    (k main_arg2 (by decide)).trans h.a2,
    (k main_arg3 (by decide)).trans h.a3,
    (k main_arg4 (by decide)).trans h.a4,
    (k main_arg5 (by decide)).trans h.a5,
    (k main_arg6 (by decide)).trans h.a6,
    (k main_arg7 (by decide)).trans h.a7,
    (k main_arg8 (by decide)).trans h.a8,
    (k main_arg9 (by decide)).trans h.a9,
    (k main_arg10 (by decide)).trans h.a10⟩

/-! ## The edge rows -/

theorem pre_v1 (V : Val) : StableHlo.after opsPre V (main_v1 : DevRef τ sig) = GINE.edgeRow 0 (V (main_arg1 : DevRef τ sig)) := by
  after_results_simp
  rfl
theorem pre_v3 (V : Val) : StableHlo.after opsPre V (main_v3 : DevRef τ sig) = GINE.edgeRow 1 (V (main_arg1 : DevRef τ sig)) := by
  after_results_simp
  rfl

theorem inv_pre (V : Val) : Inv V (StableHlo.after opsPre V) :=
  ⟨pre_v1 V, pre_v3 V,
    after_of_writes_sub opsPre V opsPre_writes (by decide : main_arg0 ∉ WPre),
    after_of_writes_sub opsPre V opsPre_writes (by decide : main_arg1 ∉ WPre),
    after_of_writes_sub opsPre V opsPre_writes (by decide : main_arg2 ∉ WPre),
    after_of_writes_sub opsPre V opsPre_writes (by decide : main_arg3 ∉ WPre),
    after_of_writes_sub opsPre V opsPre_writes (by decide : main_arg4 ∉ WPre),
    after_of_writes_sub opsPre V opsPre_writes (by decide : main_arg5 ∉ WPre),
    after_of_writes_sub opsPre V opsPre_writes (by decide : main_arg6 ∉ WPre),
    after_of_writes_sub opsPre V opsPre_writes (by decide : main_arg7 ∉ WPre),
    after_of_writes_sub opsPre V opsPre_writes (by decide : main_arg8 ∉ WPre),
    after_of_writes_sub opsPre V opsPre_writes (by decide : main_arg9 ∉ WPre),
    after_of_writes_sub opsPre V opsPre_writes (by decide : main_arg10 ∉ WPre)⟩

/-! ## One round -/

/-- The program's gather and scatter records are the specification's. -/
theorem gd_eq : gather_S50000x128_S800000x1_S800000x128_1_0_n_n_0_1_1128 = GINE.gd := rfl
theorem sd_eq : scatter_S50000x128_S800000x1_S800000x128_1_0_0_1 = GINE.sd := rfl

attribute [local irreducible] Host.reduce Host.reduceAdd Host.gather Host.scatterAdd in
set_option maxHeartbeats 400000 in
/-- Round 0 from any contents: its output table is the specification's round of its input table, the edge rows and
    layer 0's slices of the stacked parameters. -/
theorem layer0_eq (X : Val) :
    StableHlo.after opsL0 X (main_v68 : DevRef τ sig) =
      GINE.layer (X (main_arg0 : DevRef τ sig)) (X (main_v1 : DevRef τ sig)) (X (main_v3 : DevRef τ sig)) (X (main_arg2 : DevRef τ sig))
        (GINE.slab32 0 (X (main_arg3 : DevRef τ sig))) (GINE.prow 0 (X (main_arg4 : DevRef τ sig)))
        (GINE.slab128 0 (X (main_arg5 : DevRef τ sig))) (GINE.prow 0 (X (main_arg6 : DevRef τ sig)))
        (GINE.slab128 0 (X (main_arg7 : DevRef τ sig))) (GINE.prow 0 (X (main_arg8 : DevRef τ sig)))
        (GINE.prow 0 (X (main_arg9 : DevRef τ sig))) (GINE.prow 0 (X (main_arg10 : DevRef τ sig))) := by
  after_results_simp
  simp only [StableHlo.TRef.ofBuf, StableHlo.TRef.toBuf, cast_eq]
  rw [edge_ops_eq, mlp_ops_eq, bn_ops_eq]
  rfl

/-- The same between rounds, over the launch contents' arguments. -/
theorem layer0_at {V X : Val} (h : Inv V X) :
    StableHlo.after opsL0 X (main_v68 : DevRef τ sig) =
      GINE.layerAt 0 (X (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer0_eq, h.v1, h.v3, h.a2, h.a3, h.a4, h.a5, h.a6, h.a7, h.a8, h.a9, h.a10]
  rfl

attribute [local irreducible] Host.reduce Host.reduceAdd Host.gather Host.scatterAdd in
set_option maxHeartbeats 400000 in
/-- Round 1 from any contents: its output table is the specification's round of its input table, the edge rows and
    layer 1's slices of the stacked parameters. -/
theorem layer1_eq (X : Val) :
    StableHlo.after opsL1 X (main_v133 : DevRef τ sig) =
      GINE.layer (X (main_v68 : DevRef τ sig)) (X (main_v1 : DevRef τ sig)) (X (main_v3 : DevRef τ sig)) (X (main_arg2 : DevRef τ sig))
        (GINE.slab32 1 (X (main_arg3 : DevRef τ sig))) (GINE.prow 1 (X (main_arg4 : DevRef τ sig)))
        (GINE.slab128 1 (X (main_arg5 : DevRef τ sig))) (GINE.prow 1 (X (main_arg6 : DevRef τ sig)))
        (GINE.slab128 1 (X (main_arg7 : DevRef τ sig))) (GINE.prow 1 (X (main_arg8 : DevRef τ sig)))
        (GINE.prow 1 (X (main_arg9 : DevRef τ sig))) (GINE.prow 1 (X (main_arg10 : DevRef τ sig))) := by
  after_results_simp
  simp only [StableHlo.TRef.ofBuf, StableHlo.TRef.toBuf, cast_eq]
  rw [edge_ops_eq, mlp_ops_eq, bn_ops_eq]
  rfl

/-- The same between rounds, over the launch contents' arguments. -/
theorem layer1_at {V X : Val} (h : Inv V X) :
    StableHlo.after opsL1 X (main_v133 : DevRef τ sig) =
      GINE.layerAt 1 (X (main_v68 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer1_eq, h.v1, h.v3, h.a2, h.a3, h.a4, h.a5, h.a6, h.a7, h.a8, h.a9, h.a10]
  rfl

attribute [local irreducible] Host.reduce Host.reduceAdd Host.gather Host.scatterAdd in
set_option maxHeartbeats 400000 in
/-- Round 2 from any contents: its output table is the specification's round of its input table, the edge rows and
    layer 2's slices of the stacked parameters. -/
theorem layer2_eq (X : Val) :
    StableHlo.after opsL2 X (main_v198 : DevRef τ sig) =
      GINE.layer (X (main_v133 : DevRef τ sig)) (X (main_v1 : DevRef τ sig)) (X (main_v3 : DevRef τ sig)) (X (main_arg2 : DevRef τ sig))
        (GINE.slab32 2 (X (main_arg3 : DevRef τ sig))) (GINE.prow 2 (X (main_arg4 : DevRef τ sig)))
        (GINE.slab128 2 (X (main_arg5 : DevRef τ sig))) (GINE.prow 2 (X (main_arg6 : DevRef τ sig)))
        (GINE.slab128 2 (X (main_arg7 : DevRef τ sig))) (GINE.prow 2 (X (main_arg8 : DevRef τ sig)))
        (GINE.prow 2 (X (main_arg9 : DevRef τ sig))) (GINE.prow 2 (X (main_arg10 : DevRef τ sig))) := by
  after_results_simp
  simp only [StableHlo.TRef.ofBuf, StableHlo.TRef.toBuf, cast_eq]
  rw [edge_ops_eq, mlp_ops_eq, bn_ops_eq]
  rfl

/-- The same between rounds, over the launch contents' arguments. -/
theorem layer2_at {V X : Val} (h : Inv V X) :
    StableHlo.after opsL2 X (main_v198 : DevRef τ sig) =
      GINE.layerAt 2 (X (main_v133 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer2_eq, h.v1, h.v3, h.a2, h.a3, h.a4, h.a5, h.a6, h.a7, h.a8, h.a9, h.a10]
  rfl

/-! ## The three rounds -/

/-- After the whole line the edge rows and the arguments are as between rounds. -/
theorem inv_all (V : Val) : Inv V (StableHlo.after ops V) := by
  have h := (((inv_pre V).step (keepsL0 _)).step (keepsL1 _)).step (keepsL2 _)
  show Inv V (StableHlo.after (opsPre ++ opsL0 ++ opsL1 ++ opsL2) V)
  rw [after_app, after_app, after_app]
  exact h

/-- After the reference's whole line of host operations the result buffer holds the three rounds of the network of
    the argument arrays. -/
theorem out_eq (V : Valuation τ sig (Elt Ideal)) :
    StableHlo.after (RefRun.ops (F := Ideal)) V (main_v198 : DevRef τ sig)
      = GINE.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have h0 := inv_pre V
  have h1 := h0.step (keepsL0 _)
  have h2 := h1.step (keepsL1 _)
  show StableHlo.after (opsPre ++ opsL0 ++ opsL1 ++ opsL2) V _ = _
  rw [after_app, after_app, after_app, layer2_at h2, layer1_at h1, layer0_at h0, h0.a0]
  rfl

theorem arg0_eq (V : Valuation τ sig (Elt Ideal)) :
    StableHlo.after (RefRun.ops (F := Ideal)) V (main_arg0 : DevRef τ sig) = V (main_arg0 : DevRef τ sig) := by
  exact (inv_all V).a0

theorem arg1_eq (V : Valuation τ sig (Elt Ideal)) :
    StableHlo.after (RefRun.ops (F := Ideal)) V (main_arg1 : DevRef τ sig) = V (main_arg1 : DevRef τ sig) := by
  exact (inv_all V).a1

theorem arg2_eq (V : Valuation τ sig (Elt Ideal)) :
    StableHlo.after (RefRun.ops (F := Ideal)) V (main_arg2 : DevRef τ sig) = V (main_arg2 : DevRef τ sig) := by
  exact (inv_all V).a2

theorem arg3_eq (V : Valuation τ sig (Elt Ideal)) :
    StableHlo.after (RefRun.ops (F := Ideal)) V (main_arg3 : DevRef τ sig) = V (main_arg3 : DevRef τ sig) := by
  exact (inv_all V).a3

theorem arg4_eq (V : Valuation τ sig (Elt Ideal)) :
    StableHlo.after (RefRun.ops (F := Ideal)) V (main_arg4 : DevRef τ sig) = V (main_arg4 : DevRef τ sig) := by
  exact (inv_all V).a4

theorem arg5_eq (V : Valuation τ sig (Elt Ideal)) :
    StableHlo.after (RefRun.ops (F := Ideal)) V (main_arg5 : DevRef τ sig) = V (main_arg5 : DevRef τ sig) := by
  exact (inv_all V).a5

theorem arg6_eq (V : Valuation τ sig (Elt Ideal)) :
    StableHlo.after (RefRun.ops (F := Ideal)) V (main_arg6 : DevRef τ sig) = V (main_arg6 : DevRef τ sig) := by
  exact (inv_all V).a6

theorem arg7_eq (V : Valuation τ sig (Elt Ideal)) :
    StableHlo.after (RefRun.ops (F := Ideal)) V (main_arg7 : DevRef τ sig) = V (main_arg7 : DevRef τ sig) := by
  exact (inv_all V).a7

theorem arg8_eq (V : Valuation τ sig (Elt Ideal)) :
    StableHlo.after (RefRun.ops (F := Ideal)) V (main_arg8 : DevRef τ sig) = V (main_arg8 : DevRef τ sig) := by
  exact (inv_all V).a8

theorem arg9_eq (V : Valuation τ sig (Elt Ideal)) :
    StableHlo.after (RefRun.ops (F := Ideal)) V (main_arg9 : DevRef τ sig) = V (main_arg9 : DevRef τ sig) := by
  exact (inv_all V).a9

theorem arg10_eq (V : Valuation τ sig (Elt Ideal)) :
    StableHlo.after (RefRun.ops (F := Ideal)) V (main_arg10 : DevRef τ sig) = V (main_arg10 : DevRef τ sig) := by
  exact (inv_all V).a10

end Cert.ReferenceIdeal.RefVal2

end
-- ==== Proof.lean ====
/-
  The certificate of a three-round graph-network encoder: a Pallas program (nine kernel regions — per round the edge
  message, the node perceptron, the normalisation with its residual — among host operations: the row gather, the
  segment sum, the column statistics) against its jnp reference, over the extended reals.

  Both programs compute `GINE.net` (Spec.lean) of the argument arrays.  The kernel side: the program's run with the
  result buffer's final contents named, the last boundary of a fold through @main (KernelRun.lean), each region's
  output array as the specification's dense
  function of the arrays the region finds (Region*.lean, from the block each grid point writes back and the cover of
  the array by the blocks), and the host stretches between them read off the run's fold (KLayer*.lean).  The
  kernel's row gather fills a row whose index is outside the table with the not-a-number word, the reference's
  clamps the index: the two agree exactly where every source number is a row of the table, which the added
  conjunct of the precondition says (InRange.lean).  The reference side: @main as a list of host operations and its
  run (RefOps.lean), the dense chains read index by index (RefDense.lean), the result read layer by layer
  (RefLayers.lean).  No law of arithmetic is needed beyond reading a matrix product as a sum: the two programs apply
  the same operations in the same association, the kernel a block of rows at a time.
-/
import proofs.«403306_j43559558316462_1_alg».proof.Defs
import proofs.«403306_j43559558316462_1_alg».proof.Proof.Gen.Kernel
import proofs.«403306_j43559558316462_1_alg».proof.Proof.Gen.Kernel.Frame
import proofs.«403306_j43559558316462_1_alg».proof.Proof.Gen.KernelIdeal
import proofs.«403306_j43559558316462_1_alg».proof.Proof.Gen.ReferenceIdeal
import proofs.«403306_j43559558316462_1_alg».proof.Proof.Gen.Pre_finite_inputs
import proofs.«403306_j43559558316462_1_alg».proof.Proof.KernelRun
import proofs.«403306_j43559558316462_1_alg».proof.Proof.InRange
import proofs.«403306_j43559558316462_1_alg».proof.Proof.KLayer0
import proofs.«403306_j43559558316462_1_alg».proof.Proof.KLayer1
import proofs.«403306_j43559558316462_1_alg».proof.Proof.KLayer2
import proofs.«403306_j43559558316462_1_alg».proof.Proof.RefOps
import proofs.«403306_j43559558316462_1_alg».proof.Proof.RefLayers
import Idealize.ShloMosaic.Adequacy
import Idealize.ShloMosaic.Init

noncomputable section

namespace Cert.Proof

open Idealize.ShloMosaic Idealize.ShloMosaic.TcCoe Idealize.SL.Sem

/-- The kernel program's result buffer at the end of the run: the three rounds from the launch node table. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W28 m ρ c (Proc.devRef .tc Cert.KernelIdeal.main_v108)
      = Cert.KernelIdeal.Layers.layerK m 2 c (Cert.KernelIdeal.Layers.layerK m 1 c (Cert.KernelIdeal.Layers.layerK m 0 c
          (m ((c.tc : Thread Cert.KernelIdeal.nD Cert.KernelIdeal.τ).loc Cert.KernelIdeal.main_arg0)))) := by
  have hok := Cert.KernelIdeal.Layers.srcOK_of_pre m hpre c
  obtain ⟨k0, h0⟩ := Cert.KernelIdeal.Layers.layer0 m ρ c hok
  obtain ⟨k1, h1⟩ := Cert.KernelIdeal.Layers.layer1 m ρ c hok _ k0 h0
  exact Cert.KernelIdeal.Layers.layer2 m ρ c hok _ k1 h1

theorem frame_k : Cert.frame_Kernel := fun m ρ _ => Cert.Kernel.Gen.frame m ρ

theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono
    (fun r h c => ⟨(h c Cert.ReferenceIdeal.main_arg0).trans (Cert.ReferenceIdeal.RefVal2.arg0_eq _),
      (h c Cert.ReferenceIdeal.main_arg1).trans (Cert.ReferenceIdeal.RefVal2.arg1_eq _),
      (h c Cert.ReferenceIdeal.main_arg2).trans (Cert.ReferenceIdeal.RefVal2.arg2_eq _),
      (h c Cert.ReferenceIdeal.main_arg3).trans (Cert.ReferenceIdeal.RefVal2.arg3_eq _),
      (h c Cert.ReferenceIdeal.main_arg4).trans (Cert.ReferenceIdeal.RefVal2.arg4_eq _),
      (h c Cert.ReferenceIdeal.main_arg5).trans (Cert.ReferenceIdeal.RefVal2.arg5_eq _),
      (h c Cert.ReferenceIdeal.main_arg6).trans (Cert.ReferenceIdeal.RefVal2.arg6_eq _),
      (h c Cert.ReferenceIdeal.main_arg7).trans (Cert.ReferenceIdeal.RefVal2.arg7_eq _),
      (h c Cert.ReferenceIdeal.main_arg8).trans (Cert.ReferenceIdeal.RefVal2.arg8_eq _),
      (h c Cert.ReferenceIdeal.main_arg9).trans (Cert.ReferenceIdeal.RefVal2.arg9_eq _),
      (h c Cert.ReferenceIdeal.main_arg10).trans (Cert.ReferenceIdeal.RefVal2.arg10_eq _)⟩)
    (Cert.ReferenceIdeal.RefRun.run_all (F := Ideal) m ρ)

/-- From memories agreeing on the arguments both programs end with the three rounds of the network of those
    arguments in their result buffers. -/
theorem algebraic : Cert.algebraic_KernelIdeal_ReferenceIdeal := by
  intro m ρ m' ρ' hpre hagree
  refine ⟨fun c => Cert.KernelIdeal.Layers.layerK m 2 c (Cert.KernelIdeal.Layers.layerK m 1 c (Cert.KernelIdeal.Layers.layerK m 0 c
      (m ((c.tc : Thread Cert.KernelIdeal.nD Cert.KernelIdeal.τ).loc Cert.KernelIdeal.main_arg0)))), ?_, ?_⟩
  · exact (θ_run Cert.KernelIdeal.defs _ _).mono (fun r h c => ⟨(h c).1.trans (kernel_value m ρ hpre c), (h c).2⟩)
      (Cert.KernelIdeal.Gen.run_named (F := Ideal) m ρ)
  · refine (θ_run Cert.ReferenceIdeal.defs _ _).mono (fun r h c => ⟨(h c Cert.ReferenceIdeal.main_v198).trans ?_,
      (h c Cert.ReferenceIdeal.main_arg0).trans (Cert.ReferenceIdeal.RefVal2.arg0_eq _),
      (h c Cert.ReferenceIdeal.main_arg1).trans (Cert.ReferenceIdeal.RefVal2.arg1_eq _),
      (h c Cert.ReferenceIdeal.main_arg2).trans (Cert.ReferenceIdeal.RefVal2.arg2_eq _),
      (h c Cert.ReferenceIdeal.main_arg3).trans (Cert.ReferenceIdeal.RefVal2.arg3_eq _),
      (h c Cert.ReferenceIdeal.main_arg4).trans (Cert.ReferenceIdeal.RefVal2.arg4_eq _),
      (h c Cert.ReferenceIdeal.main_arg5).trans (Cert.ReferenceIdeal.RefVal2.arg5_eq _),
      (h c Cert.ReferenceIdeal.main_arg6).trans (Cert.ReferenceIdeal.RefVal2.arg6_eq _),
      (h c Cert.ReferenceIdeal.main_arg7).trans (Cert.ReferenceIdeal.RefVal2.arg7_eq _),
      (h c Cert.ReferenceIdeal.main_arg8).trans (Cert.ReferenceIdeal.RefVal2.arg8_eq _),
      (h c Cert.ReferenceIdeal.main_arg9).trans (Cert.ReferenceIdeal.RefVal2.arg9_eq _),
      (h c Cert.ReferenceIdeal.main_arg10).trans (Cert.ReferenceIdeal.RefVal2.arg10_eq _)⟩)
      (Cert.ReferenceIdeal.RefRun.run_all (F := Ideal) m' ρ')
    rw [Cert.ReferenceIdeal.RefVal2.out_eq]
    obtain ⟨e0, e1, e2, e3, e4, e5, e6, e7, e8, e9, e10⟩ := hagree c
    have f0 : StableHlo.launchContents m' c (Cert.ReferenceIdeal.main_arg0 : DevRef Cert.ReferenceIdeal.τ Cert.ReferenceIdeal.sig)
        = m ((c.tc : Thread Cert.KernelIdeal.nD Cert.KernelIdeal.τ).loc Cert.KernelIdeal.main_arg0) := e0
    have f1 : StableHlo.launchContents m' c (Cert.ReferenceIdeal.main_arg1 : DevRef Cert.ReferenceIdeal.τ Cert.ReferenceIdeal.sig)
        = m ((c.tc : Thread Cert.KernelIdeal.nD Cert.KernelIdeal.τ).loc Cert.KernelIdeal.main_arg1) := e1
    have f2 : StableHlo.launchContents m' c (Cert.ReferenceIdeal.main_arg2 : DevRef Cert.ReferenceIdeal.τ Cert.ReferenceIdeal.sig)
        = m ((c.tc : Thread Cert.KernelIdeal.nD Cert.KernelIdeal.τ).loc Cert.KernelIdeal.main_arg2) := e2
    have f3 : StableHlo.launchContents m' c (Cert.ReferenceIdeal.main_arg3 : DevRef Cert.ReferenceIdeal.τ Cert.ReferenceIdeal.sig)
        = m ((c.tc : Thread Cert.KernelIdeal.nD Cert.KernelIdeal.τ).loc Cert.KernelIdeal.main_arg3) := e3
    have f4 : StableHlo.launchContents m' c (Cert.ReferenceIdeal.main_arg4 : DevRef Cert.ReferenceIdeal.τ Cert.ReferenceIdeal.sig)
        = m ((c.tc : Thread Cert.KernelIdeal.nD Cert.KernelIdeal.τ).loc Cert.KernelIdeal.main_arg4) := e4
    have f5 : StableHlo.launchContents m' c (Cert.ReferenceIdeal.main_arg5 : DevRef Cert.ReferenceIdeal.τ Cert.ReferenceIdeal.sig)
        = m ((c.tc : Thread Cert.KernelIdeal.nD Cert.KernelIdeal.τ).loc Cert.KernelIdeal.main_arg5) := e5
    have f6 : StableHlo.launchContents m' c (Cert.ReferenceIdeal.main_arg6 : DevRef Cert.ReferenceIdeal.τ Cert.ReferenceIdeal.sig)
        = m ((c.tc : Thread Cert.KernelIdeal.nD Cert.KernelIdeal.τ).loc Cert.KernelIdeal.main_arg6) := e6
    have f7 : StableHlo.launchContents m' c (Cert.ReferenceIdeal.main_arg7 : DevRef Cert.ReferenceIdeal.τ Cert.ReferenceIdeal.sig)
        = m ((c.tc : Thread Cert.KernelIdeal.nD Cert.KernelIdeal.τ).loc Cert.KernelIdeal.main_arg7) := e7
    have f8 : StableHlo.launchContents m' c (Cert.ReferenceIdeal.main_arg8 : DevRef Cert.ReferenceIdeal.τ Cert.ReferenceIdeal.sig)
        = m ((c.tc : Thread Cert.KernelIdeal.nD Cert.KernelIdeal.τ).loc Cert.KernelIdeal.main_arg8) := e8
    have f9 : StableHlo.launchContents m' c (Cert.ReferenceIdeal.main_arg9 : DevRef Cert.ReferenceIdeal.τ Cert.ReferenceIdeal.sig)
        = m ((c.tc : Thread Cert.KernelIdeal.nD Cert.KernelIdeal.τ).loc Cert.KernelIdeal.main_arg9) := e9
    have f10 : StableHlo.launchContents m' c (Cert.ReferenceIdeal.main_arg10 : DevRef Cert.ReferenceIdeal.τ Cert.ReferenceIdeal.sig)
        = m ((c.tc : Thread Cert.KernelIdeal.nD Cert.KernelIdeal.τ).loc Cert.KernelIdeal.main_arg10) := e10
    rw [f0, f1, f2, f3, f4, f5, f6, f7, f8, f9, f10]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
